-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 32, 32]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 32, 32]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16x16x16 : Shape := ⟨3, ![16, 16, 16]⟩
abbrev S_ : Shape := ⟨0, ![]⟩

class Facts : Prop where
  bcast_S_S16x16x16 : S_.BroadcastsInDim S16x16x16 (![] : Fin 0 → Fin S16x16x16.rank)
  reducesTo_S16x16x16_S_d0_1_2 : S16x16x16.ReducesTo [0, 1, 2] S_
  h_S_ : 0 < S_.numel

variable [Facts]

def fn {F : FTy → Type} [FloatOps F] (main_arg0 : FVec F S16x16x16 .f32) : IVec S_ 1 :=
  let main_v0 : FVec F S16x16x16 .f32 := Host.absf main_arg0
  let main_cst : FVec F S_ .f32 := constant S_ .f32 0x7F800000#32
  let main_v1 : FVec F S16x16x16 .f32 := broadcastInDim S16x16x16 ![] bcast_S_S16x16x16 main_cst
  let main_v2 : IVec S16x16x16 1 := cmpf .olt main_v0 main_v1
  let main_c : IVec S_ 1 := constantI S_ 1 1#1
  let main_v3 : IVec S_ 1 := (fun x v => Host.reduce IntOp.andi x v reducesTo_S16x16x16_S_d0_1_2 h_S_) main_v2 main_c
  main_v3
-- ==== Pre_finite_inputs_ReferenceIdeal.lean ====
abbrev S32x32x32 : Shape := ⟨3, ![32, 32, 32]⟩
abbrev S_ : Shape := ⟨0, ![]⟩

class Facts : Prop where
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x32x32 .f32) : IVec S_ 1 :=
  let main_v0 : FVec F S32x32x32 .f32 := Host.absf main_arg0
  let main_cst : FVec F S_ .f32 := constant S_ .f32 0x7F800000#32
  let main_v1 : FVec F S32x32x32 .f32 := broadcastInDim S32x32x32 ![] bcast_S_S32x32x32 main_cst
  let main_v2 : IVec S32x32x32 1 := cmpf .olt main_v0 main_v1
  let main_c : IVec S_ 1 := constantI S_ 1 1#1
  let main_v3 : IVec S_ 1 := (fun x v => Host.reduce IntOp.andi x v reducesTo_S32x32x32_S_d0_1_2 h_S_) main_v2 main_c
  main_v3
-- ==== Kernel.lean ====
abbrev S16x16x16 : Shape := ⟨3, ![16, 16, 16]⟩
abbrev S3x16x16 : Shape := ⟨3, ![3, 16, 16]⟩
abbrev S3 : Shape := ⟨1, ![3]⟩
abbrev S_ : Shape := ⟨0, ![]⟩
abbrev S1x16x16 : Shape := ⟨3, ![1, 16, 16]⟩
abbrev S16x16 : Shape := ⟨2, ![16, 16]⟩
abbrev S16x1x16 : Shape := ⟨3, ![16, 1, 16]⟩
abbrev S16x16x1 : Shape := ⟨3, ![16, 16, 1]⟩
abbrev S15x16x16 : Shape := ⟨3, ![15, 16, 16]⟩
abbrev S16x15x16 : Shape := ⟨3, ![16, 15, 16]⟩
abbrev S16x16x15 : Shape := ⟨3, ![16, 16, 15]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S16x16x16, .f32⟩
  | .hbm, ⟨1, _⟩ => ⟨S16x16x16, .f32⟩
  | .local _ .vmem, ⟨0, _⟩ => ⟨S16x16x16, .f32⟩
  | .local _ .vmem, ⟨1, _⟩ => ⟨S16x16x16, .f32⟩
  | .local _ .vmem, ⟨2, _⟩ => ⟨S3x16x16, .f32⟩
  | .local _ .vmem, ⟨3, _⟩ => ⟨S3x16x16, .f32⟩
  | _, _ => ⟨S16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_dev4 (d0 : Dev nD) : Nat :=
  let c0_i32_65 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_64 : BitVec 32 := 4#32
  let v156 : BitVec 32 := Scalar.muli v9 c4_i32_64
  let v157 : BitVec 32 := Scalar.addi c0_i32_65 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v158 : BitVec 32 := Scalar.muli v5 c2_i32_66
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v160 : BitVec 32 := Scalar.muli v8 c1_i32_67
  let v161 : BitVec 32 := Scalar.addi v159 v160
  v161.toNat
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v170 : BitVec 32 := Scalar.muli v2 c4_i32_76
  let v171 : BitVec 32 := Scalar.addi c0_i32_77 v170
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_78 : BitVec 32 := 2#32
  let v172 : BitVec 32 := Scalar.muli v10 c2_i32_78
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v174 : BitVec 32 := Scalar.muli v8 c1_i32_79
  let v175 : BitVec 32 := Scalar.addi v173 v174
  v175.toNat
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v184 : BitVec 32 := Scalar.muli v2 c4_i32_88
  let v185 : BitVec 32 := Scalar.addi c0_i32_89 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v186 : BitVec 32 := Scalar.muli v5 c2_i32_90
  let v187 : BitVec 32 := Scalar.addi v185 v186
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_91 : BitVec 32 := 1#32
  let v188 : BitVec 32 := Scalar.muli v11 c1_i32_91
  let v189 : BitVec 32 := Scalar.addi v187 v188
  v189.toNat
def k0_off1 (d0 : Dev nD) : Fin 3 → Nat :=
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v150 : BitVec 32 := Scalar.subi c1_i32_55 v2
  let c15_i32 : BitVec 32 := 15#32
  let v151 : BitVec 32 := Scalar.muli v150 c15_i32
  let v210 : Index := Scalar.indexCast v151
  let c0_108 : Index := 0#32
  let c0_109 : Index := 0#32
  ![v210.toNat, 0, 0]
def k0_off2 (d0 : Dev nD) : Fin 3 → Nat :=
  let c0_128 : Index := 0#32
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v152 : BitVec 32 := Scalar.subi c1_i32_56 v5
  let c15_i32_57 : BitVec 32 := 15#32
  let v153 : BitVec 32 := Scalar.muli v152 c15_i32_57
  let v233 : Index := Scalar.indexCast v153
  let c0_129 : Index := 0#32
  ![0, v233.toNat, 0]
abbrev stage0_0 : Fin 1 → Memref sig .tc .vmem S16x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S16x16x16_S16x16x16_0_0_0 : ∀ a, (![0, 0, 0] : Fin 3 → Nat) a + S16x16x16.size a ≤ S16x16x16.size a
  h_S16x16x16 : 0 < S16x16x16.numel
  shapeCasts_S16x16x16_S16x16x16 : S16x16x16.ShapeCasts S16x16x16
  slices_S16x16x16_o15_0_0_S1x16x16 : S16x16x16.Slices ![15, 0, 0] S1x16x16
  shapeCasts_S1x16x16_S16x16 : S1x16x16.ShapeCasts S16x16
  slices_S16x16x16_o0_0_0_S1x16x16 : S16x16x16.Slices ![0, 0, 0] S1x16x16
  inb_S3x16x16_S1x16x16_0_0_0 : ∀ a, (![0, 0, 0] : Fin 3 → Nat) a + S1x16x16.size a ≤ S3x16x16.size a
  h_S1x16x16 : 0 < S1x16x16.numel
  shapeCasts_S16x16_S1x16x16 : S16x16.ShapeCasts S1x16x16
  slices_S16x16x16_o0_15_0_S16x1x16 : S16x16x16.Slices ![0, 15, 0] S16x1x16
  shapeCasts_S16x1x16_S16x16 : S16x1x16.ShapeCasts S16x16
  slices_S16x16x16_o0_0_0_S16x1x16 : S16x16x16.Slices ![0, 0, 0] S16x1x16
  inb_S3x16x16_S1x16x16_1_0_0 : ∀ a, (![1, 0, 0] : Fin 3 → Nat) a + S1x16x16.size a ≤ S3x16x16.size a
  slices_S16x16x16_o0_0_15_S16x16x1 : S16x16x16.Slices ![0, 0, 15] S16x16x1
  shapeCasts_S16x16x1_S16x16 : S16x16x1.ShapeCasts S16x16
  slices_S16x16x16_o0_0_0_S16x16x1 : S16x16x16.Slices ![0, 0, 0] S16x16x1
  inb_S3x16x16_S1x16x16_2_0_0 : ∀ a, (![2, 0, 0] : Fin 3 → Nat) a + S1x16x16.size a ≤ S3x16x16.size a
  slices_S16x16x16_o0_0_0_S15x16x16 : S16x16x16.Slices ![0, 0, 0] S15x16x16
  concatenates_S1x16x16_S15x16x16_S16x16x16_d0 : Shape.Concatenates [S1x16x16, S15x16x16] S16x16x16 0
  slices_S16x16x16_o1_0_0_S15x16x16 : S16x16x16.Slices ![1, 0, 0] S15x16x16
  concatenates_S15x16x16_S1x16x16_S16x16x16_d0 : Shape.Concatenates [S15x16x16, S1x16x16] S16x16x16 0
  shapeCasts_S1x16x16_S16x1x16 : S1x16x16.ShapeCasts S16x1x16
  slices_S16x16x16_o0_0_0_S16x15x16 : S16x16x16.Slices ![0, 0, 0] S16x15x16
  concatenates_S16x1x16_S16x15x16_S16x16x16_d1 : Shape.Concatenates [S16x1x16, S16x15x16] S16x16x16 1
  slices_S16x16x16_o0_1_0_S16x15x16 : S16x16x16.Slices ![0, 1, 0] S16x15x16
  concatenates_S16x15x16_S16x1x16_S16x16x16_d1 : Shape.Concatenates [S16x15x16, S16x1x16] S16x16x16 1
  shapeCasts_S1x16x16_S16x16x1 : S1x16x16.ShapeCasts S16x16x1
  slices_S16x16x16_o0_0_0_S16x16x15 : S16x16x16.Slices ![0, 0, 0] S16x16x15
  concatenates_S16x16x1_S16x16x15_S16x16x16_d2 : Shape.Concatenates [S16x16x1, S16x16x15] S16x16x16 2
  slices_S16x16x16_o0_0_1_S16x16x15 : S16x16x16.Slices ![0, 0, 1] S16x16x15
  concatenates_S16x16x15_S16x16x1_S16x16x16_d2 : Shape.Concatenates [S16x16x15, S16x16x1] S16x16x16 2
  iota_S16x16x16_d0_w32 : S16x16x16.Iotas .tc 32 [0]
  iota_S16x16x16_d1_w32 : S16x16x16.Iotas .tc 32 [1]
  iota_S16x16x16_d2_w32 : S16x16x16.Iotas .tc 32 [2]
  iota_S16x16_d0_w32 : S16x16.Iotas .tc 32 [0]
  iota_S16x16_d1_w32 : S16x16.Iotas .tc 32 [1]
  hamt_3 : (3#32 : BitVec 32).msb = false
  inb_S3_S1_0 : ∀ a, (![0] : Fin 1 → Nat) a + S1.size a ≤ S3.size a
  squeezes_S1_S_ : S1.Squeezes S_
  squeezes_S1x16x16_S16x16 : S1x16x16.Squeezes S16x16
  inb_S3_S1_1 : ∀ a, (![1] : Fin 1 → Nat) a + S1.size a ≤ S3.size a
  inb_S3_S1_2 : ∀ a, (![2] : Fin 1 → Nat) a + S1.size a ≤ S3.size a
  shapeCasts_S1x16x16_S1x16x16 : S1x16x16.ShapeCasts S1x16x16
  h_S16x1x16 : 0 < S16x1x16.numel
  shapeCasts_S16x1x16_S16x1x16 : S16x1x16.ShapeCasts S16x1x16
  shapeCasts_S16x16_S16x1x16 : S16x16.ShapeCasts S16x1x16
  shapeCasts_S16x16_S16x16x1 : S16x16.ShapeCasts S16x16x1
  shapeCasts_S16x16x1_S16x16x1 : S16x16x1.ShapeCasts S16x16x1
  broadcasts_S16x16x1_S16x16x16 : S16x16x1.Broadcasts S16x16x16
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S1x16x16.size a ≤ S16x16x16.size a
  k0_off2_inb : ∀ d0 : Dev nD, ∀ a, (k0_off2 d0) a + S16x1x16.size a ≤ S16x16x16.size a
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x32x32 : Shape := ⟨3, ![32, 32, 32]⟩
abbrev S_ : Shape := ⟨0, ![]⟩
abbrev S30x30x30 : Shape := ⟨3, ![30, 30, 30]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S32x32x32, .f32⟩
  | .hbm, ⟨1, _⟩ => ⟨S_, .f32⟩
  | .hbm, ⟨2, _⟩ => ⟨S32x32x32, .f32⟩
  | .hbm, ⟨3, _⟩ => ⟨S30x30x30, .f32⟩
  | .hbm, ⟨4, _⟩ => ⟨S30x30x30, .f32⟩
  | .hbm, ⟨5, _⟩ => ⟨S30x30x30, .f32⟩
  | .hbm, ⟨6, _⟩ => ⟨S30x30x30, .f32⟩
  | .hbm, ⟨7, _⟩ => ⟨S30x30x30, .f32⟩
  | .hbm, ⟨8, _⟩ => ⟨S30x30x30, .f32⟩
  | .hbm, ⟨9, _⟩ => ⟨S30x30x30, .f32⟩
  | .hbm, ⟨10, _⟩ => ⟨S30x30x30, .f32⟩
  | .hbm, ⟨11, _⟩ => ⟨S30x30x30, .f32⟩
  | .hbm, ⟨12, _⟩ => ⟨S30x30x30, .f32⟩
  | .hbm, ⟨13, _⟩ => ⟨S30x30x30, .f32⟩
  | .hbm, ⟨14, _⟩ => ⟨S30x30x30, .f32⟩
  | .hbm, ⟨15, _⟩ => ⟨S_, .f32⟩
  | .hbm, ⟨16, _⟩ => ⟨S30x30x30, .f32⟩
  | .hbm, ⟨17, _⟩ => ⟨S30x30x30, .f32⟩
  | .hbm, ⟨18, _⟩ => ⟨S30x30x30, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S32x32x32, .f32⟩
  | _, _ => ⟨S32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S32x32x32 : S_.BroadcastsInDim S32x32x32 (![] : Fin 0 → Fin S32x32x32.rank)
  slices_S32x32x32_S30x30x30_0_1_1 : S32x32x32.Slices ![0, 1, 1] S30x30x30
  slices_S32x32x32_S30x30x30_2_1_1 : S32x32x32.Slices ![2, 1, 1] S30x30x30
  slices_S32x32x32_S30x30x30_1_0_1 : S32x32x32.Slices ![1, 0, 1] S30x30x30
  slices_S32x32x32_S30x30x30_1_2_1 : S32x32x32.Slices ![1, 2, 1] S30x30x30
  slices_S32x32x32_S30x30x30_1_1_0 : S32x32x32.Slices ![1, 1, 0] S30x30x30
  slices_S32x32x32_S30x30x30_1_1_2 : S32x32x32.Slices ![1, 1, 2] S30x30x30
  slices_S32x32x32_S30x30x30_1_1_1 : S32x32x32.Slices ![1, 1, 1] S30x30x30
  bcast_S_S30x30x30 : S_.BroadcastsInDim S30x30x30 (![] : Fin 0 → Fin S30x30x30.rank)
  bcast_S_S1 : S_.BroadcastsInDim S1 (![] : Fin 0 → Fin S1.rank)
  concatenates_S1_S1_S1_S3_d0 : Shape.Concatenates [S1, S1, S1] S3 0
  scatter_S32x32x32_S3_S30x30x30_012_n_012_0_wf : ScatterDims.WF S32x32x32 S3 S30x30x30 [0, 1, 2] [] [0, 1, 2] 0

variable [Facts₀]

def scatter_S32x32x32_S3_S30x30x30_012_n_012_0 : ScatterDims S32x32x32 S3 S30x30x30 where
  updateWindowDims := [0, 1, 2]
  insertedWindowDims := []
  scatterDimsToOperandDims := [0, 1, 2]
  indexVectorDim := 0
  wf := scatter_S32x32x32_S3_S30x30x30_012_n_012_0_wf

class Facts : Prop extends Facts₀ where

variable [Facts]
-- ==== Proof.KernelIdeal.Mesh.lean ====
import proofs.«900805_g7700000000000806_dist_halo3d_v7x_xyz2x2x2_s16_f32_1_alg».proof.Proof.Gen.KernelIdeal
import proofs.«900805_g7700000000000806_dist_halo3d_v7x_xyz2x2x2_s16_f32_1_alg».proof.Proof.Gen.KernelIdeal.Skeleton

/-!
# The mesh: eight devices on the corners of a cube

Device `c` sits at mesh coordinates `(c / 4, c / 2 % 2, c % 2)`. Its neighbour along axis `a` is the corner
that differs from it in coordinate `a` only; taking the neighbour twice along one axis returns to the start,
so along each axis the devices pair off. Every device id the kernel computes — three for its barrier
signals, three for its transfers — is one of these three neighbours.
-/

namespace Cert.KernelIdeal.Halo

open Cert.KernelIdeal Cert.KernelIdeal.Gen
open Idealize.ShloMosaic

/-- The neighbour of `c` along mesh axis `a`: coordinate `a` flipped. -/
def nb : Fin 3 → Dev nD → Dev nD
  | 0, c => ⟨(c.val + 4) % 8, Nat.mod_lt _ (by decide)⟩
  | 1, c => ⟨if (c.val / 2) % 2 = 0 then c.val + 2 else c.val - 2, by have h8 : c.val < 8 := c.isLt; show _ < 8; split <;> omega⟩
  | 2, c => ⟨if c.val % 2 = 0 then c.val + 1 else c.val - 1, by have h8 : c.val < 8 := c.isLt; show _ < 8; split <;> omega⟩

theorem nb_nb (a : Fin 3) (c : Dev nD) : nb a (nb a c) = c := by revert a c; decide
theorem nb_ne (a : Fin 3) (c : Dev nD) : nb a c ≠ c := by revert a c; decide
theorem nb_axis_inj (c : Dev nD) {a b : Fin 3} (h : nb a c = nb b c) : a = b := by revert a b c; decide
theorem nb_inj (a : Fin 3) {c d : Dev nD} (h : nb a c = nb a d) : c = d := by
  have := congrArg (nb a) h; rwa [nb_nb, nb_nb] at this

/-- Along each axis the devices pair off: the neighbour map is a permutation that is its own inverse. -/
def nbEquiv (a : Fin 3) : Dev nD ≃ Dev nD := ⟨nb a, nb a, nb_nb a, nb_nb a⟩

/-- The kernel's device-id chains: the barrier signals and the transfers name the x-, y- and z-neighbour, in that order. -/
theorem dev1_eq (c : Dev nD) : (⟨k0_dev1 c, k0_dev1_lt c⟩ : Dev nD) = nb 0 c := Fin.ext ((k0_dev1_eq c).trans (by revert c; decide))
theorem dev2_eq (c : Dev nD) : (⟨k0_dev2 c, k0_dev2_lt c⟩ : Dev nD) = nb 1 c := Fin.ext ((k0_dev2_eq c).trans (by revert c; decide))
theorem dev3_eq (c : Dev nD) : (⟨k0_dev3 c, k0_dev3_lt c⟩ : Dev nD) = nb 2 c := Fin.ext ((k0_dev3_eq c).trans (by revert c; decide))
theorem dev4_eq (c : Dev nD) : (⟨k0_dev4 c, k0_dev4_lt c⟩ : Dev nD) = nb 0 c := Fin.ext ((k0_dev4_eq c).trans (by revert c; decide))
theorem dev5_eq (c : Dev nD) : (⟨k0_dev5 c, k0_dev5_lt c⟩ : Dev nD) = nb 1 c := Fin.ext ((k0_dev5_eq c).trans (by revert c; decide))
theorem dev6_eq (c : Dev nD) : (⟨k0_dev6 c, k0_dev6_lt c⟩ : Dev nD) = nb 2 c := Fin.ext ((k0_dev6_eq c).trans (by revert c; decide))

/-- A device's mesh coordinates as the kernel computes them from its id: words that are `0` or `1`. -/
def mxW (c : Dev nD) : BitVec 32 := Scalar.remsi (Scalar.divsi (Dev.word c) 4#32) 2#32
def myW (c : Dev nD) : BitVec 32 := Scalar.remsi (Scalar.divsi (Dev.word c) 2#32) 2#32
def mzW (c : Dev nD) : BitVec 32 := Scalar.remsi (Scalar.divsi (Dev.word c) 1#32) 2#32

theorem mxW_eq (c : Dev nD) : mxW c = BitVec.ofNat 32 (c.val / 4) := by revert c; decide
theorem myW_eq (c : Dev nD) : myW c = BitVec.ofNat 32 (c.val / 2 % 2) := by revert c; decide
theorem mzW_eq (c : Dev nD) : mzW c = BitVec.ofNat 32 (c.val % 2) := by revert c; decide

end Cert.KernelIdeal.Halo
-- ==== Proof.KernelIdeal.Contents.lean ====
import proofs.«900805_g7700000000000806_dist_halo3d_v7x_xyz2x2x2_s16_f32_1_alg».proof.Proof.KernelIdeal.Mesh
import Idealize.ShloMosaic.Lib.ValueIdx

/-!
# What the buffers hold

Per device `c`, with `u c` its block of the input:

* the SEND buffer (three 16 × 16 planes) holds, in plane `a`, the face of `u c` that touches the neighbour
  along axis `a`: the last plane of the block on that axis when `c`'s coordinate there is `0`, the first
  when it is `1`;
* the RECEIVE buffer holds, in plane `a`, plane `a` of the send buffer of the neighbour along axis `a`;
* the OUTPUT block is built in four steps: the stencil of the block alone, with zeros for the neighbours
  that lie outside it, masked to the interior of the whole cube; then the received x-face added into the
  plane `x = 15·(1 − mx)`, the received y-face into the plane `y = 15·(1 − my)`, and the received z-face
  into the plane `z = 15·(1 − mz)`, each under the interior mask of the two other coordinates.
-/

noncomputable section

namespace Cert.KernelIdeal.Halo

open Cert.KernelIdeal Cert.KernelIdeal.Gen
open Idealize.ShloMosaic Idealize.ShloMosaic.TcCoe

variable {F : FTy → Type} [FloatOps F]

/-- A block of the input or of the output; a scratch buffer of three planes. -/
abbrev BlkC (F : FTy → Type) : Type := (cc0_stg0_0 : Ref sig .tc).ty.Contents (Elt F)
abbrev ScrC (F : FTy → Type) : Type := (cc0_scratch0 : Ref sig .tc).ty.Contents (Elt F)

/-- The four buffers the body sees. -/
abbrev inM : Memref sig .tc .vmem S16x16x16 .f32 := Memref.whole cc0_stg0_0
abbrev outM : Memref sig .tc .vmem S16x16x16 .f32 := Memref.whole cc0_stg1_0
abbrev sndM : Memref sig .tc .vmem S3x16x16 .f32 := Memref.whole cc0_scratch0
abbrev rcvM : Memref sig .tc .vmem S3x16x16 .f32 := Memref.whole cc0_scratch1

/-- The whole block; plane `a` of a scratch buffer; the x- and y-planes the received faces are added into. -/
abbrev rW : Rect S16x16x16 := Rect.unit (s := S16x16x16) ![0, 0, 0] S16x16x16.size inb_S16x16x16_S16x16x16_0_0_0
abbrev rP0 : Rect S3x16x16 := Rect.unit (s := S3x16x16) ![0, 0, 0] S1x16x16.size inb_S3x16x16_S1x16x16_0_0_0
abbrev rP1 : Rect S3x16x16 := Rect.unit (s := S3x16x16) ![1, 0, 0] S1x16x16.size inb_S3x16x16_S1x16x16_1_0_0
abbrev rP2 : Rect S3x16x16 := Rect.unit (s := S3x16x16) ![2, 0, 0] S1x16x16.size inb_S3x16x16_S1x16x16_2_0_0
abbrev rX (c : Dev nD) : Rect S16x16x16 := Rect.unit (s := S16x16x16) (k0_off1 c) S1x16x16.size (k0_off1_inb c)
abbrev rY (c : Dev nD) : Rect S16x16x16 := Rect.unit (s := S16x16x16) (k0_off2 c) S16x1x16.size (k0_off2_inb c)

/-- Plane `a` of a scratch buffer as a rectangle, and as the 16 × 16 memref a transfer moves. -/
abbrev rP (a : Fin 3) : Rect S3x16x16 :=
  Rect.unit (s := S3x16x16) ![a.val, 0, 0] S1x16x16.size (by intro b; fin_cases a <;> fin_cases b <;> decide)
abbrev sndPl (a : Fin 3) : Memref sig .tc .vmem S16x16 .f32 :=
  (sndM.slice (rP a) (fun _ => rfl)).squeeze S16x16 squeezes_S1x16x16_S16x16
abbrev rcvPl (a : Fin 3) : Memref sig .tc .vmem S16x16 .f32 :=
  (rcvM.slice (rP a) (fun _ => rfl)).squeeze S16x16 squeezes_S1x16x16_S16x16

/-- The send buffer of device `c` whose input block is `u`: plane `a` is the face towards the neighbour along `a`. -/
def sendC (u : BlkC F) (c : Dev nD) : ScrC F := fun i =>
  if (i 0).val = 0 then k0_pay2 (mxW c) u (ValueIdx.ix3 (0 : Fin 1) (i 1) (i 2))
  else if (i 0).val = 1 then k0_pay3 (myW c) u (ValueIdx.ix3 (0 : Fin 1) (i 1) (i 2))
  else k0_pay4 (mzW c) u (ValueIdx.ix3 (0 : Fin 1) (i 1) (i 2))

/-- The receive buffer of device `c`, every device `d` holding the input block `us d`: plane `a` is plane `a`
    of the send buffer of the neighbour along `a`. -/
def recvC (us : Dev nD → BlkC F) (c : Dev nD) : ScrC F := fun i => sendC (us (nb (i 0) c)) (nb (i 0) c) i

/-- The row-index vector the two face masks are computed from. -/
abbrev rowIota : IVec S16x16 32 := iota .tc S16x16 32 [0] iota_S16x16_d0_w32

/-- The output block after the local stencil. -/
def out1 (u : BlkC F) (c : Dev nD) : BlkC F :=
  k0_pay10 (mxW c) (myW c) (mzW c) (k0_pay1 u) (k0_pay5 (F := F)) (k0_pay6 u) (k0_pay7 u)

/-- … after the x-face is added, -/
def out2 (us : Dev nD → BlkC F) (c : Dev nD) : BlkC F :=
  ((outM.access (rX c) : View sig .tc _ _ _).write (Elt F) (out1 (us c) c)
    (k0_pay14 (k0_pay12 (myW c) (mzW c) rowIota)
      (outM.view.readAt (Elt F) (rX c).toLoadRect (out1 (us c) c))
      (rcvM.view.readAt (Elt F) rP0.toLoadRect (recvC us c))) Finset.univ)

/-- … after the y-face, -/
def out3 (us : Dev nD → BlkC F) (c : Dev nD) : BlkC F :=
  ((outM.access (rY c) : View sig .tc _ _ _).write (Elt F) (out2 us c)
    (k0_pay15 (k0_pay13 (mxW c) (mzW c) rowIota)
      (outM.view.readAt (Elt F) (rY c).toLoadRect (out2 us c))
      (rcvM.view.readAt (Elt F) rP1.toLoadRect (recvC us c))) Finset.univ)

/-- … and after the z-face: what device `c` returns. -/
def outAt (us : Dev nD → BlkC F) (c : Dev nD) : BlkC F :=
  k0_pay16 (k0_pay8 (mxW c)) (k0_pay9 (myW c)) (Scalar.muli (Scalar.subi 1#32 (mzW c)) 15#32) (out3 us c)
    (rcvM.view.readAt (Elt F) rP2.toLoadRect (recvC us c))

end Cert.KernelIdeal.Halo

end
-- ==== Proof.KernelIdeal.Sched.lean ====
import proofs.«900805_g7700000000000806_dist_halo3d_v7x_xyz2x2x2_s16_f32_1_alg».proof.Proof.KernelIdeal.Contents
import proofs.«900805_g7700000000000806_dist_halo3d_v7x_xyz2x2x2_s16_f32_1_alg».proof.Proof.Gen.KernelIdeal.Launch
import proofs.«900805_g7700000000000806_dist_halo3d_v7x_xyz2x2x2_s16_f32_1_alg».proof.Proof.Gen.KernelIdeal.Points
import Idealize.ShloMosaic.Lib.Pipeline.Launch
import Idealize.ShloMosaic.Lib.Pipeline.Kit
import Idealize.ShloMosaic.Lib.Tactic

/-!
# The protocol

Each device owns seven semaphore cells: the barrier, and per axis `a` a send cell and a receive cell.

* BARRIER of `c`: one round of three unit duties, duty `a` paid by the neighbour along `a`, which hands `c`
  plane `a` of ITS OWN receive buffer (at whatever it holds) together with the fact that its receive cell `a`
  stands at round `0`: exactly what `c` needs to transfer its face into that plane.
* RECEIVE cell `a` of `c`: one duty, paid by the transfer of the neighbour along `a`; it hands `c` plane `a` of
  its receive buffer back, now holding that neighbour's face.
* SEND cell `a` of `c`: one duty, paid by `c`'s own transfer; it hands plane `a` of the send buffer back.

A device signals its three neighbours, then waits for its own barrier while still owing the three
transfers: the barrier lies below the receive cells. At every later wait it owes nothing.
-/

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's, whose duties are named by axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## Semaphores, cells, planes -/

abbrev barS : Sem sig := (SemArray.scalar (sig.barrier 0 rfl) : Sems sig S_).sem

/-- The send and receive semaphore of axis `a`, as the body slices them out of its two semaphore arrays. -/
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

theorem sendS_val (a : Fin 3) : (sendS a).val = 2 + a.val := by fin_cases a <;> rfl
theorem recvS_val (a : Fin 3) : (recvS a).val = 5 + a.val := by fin_cases a <;> rfl

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

/-- The credit of one plane's transfer. -/
abbrev N : ℕ := (rcvPl 0).view.dmaCredit

/-! ## Contents -/

/-- Device `c`'s block of the input, as its staging buffer holds it. -/
def ublk (c : Dev nD) : BlkC F :=
  (win0_0.blk (0 : Fin 1)).view.read (Elt F) ((st0 m ρ).mem ((c : Thread nD τ).loc main_arg0))

/-- Plane `a` of device `c`'s send buffer at contents `f`; of its receive buffer. -/
def sndPts (a : Fin 3) (c : Dev nD) (f : ScrC F) : sProp 𝕄 :=
  (sndPl a).view.loc (c : Thread nD τ) ↦[(sndPl a).view.set]{fullShare} f
def rcvPts (a : Fin 3) (c : Dev nD) (f : ScrC F) : sProp 𝕄 :=
  (rcvPl a).view.loc (c : Thread nD τ) ↦[(rcvPl a).view.set]{fullShare} f

omit [FloatOps F] in
instance sndPts_storable (a : Fin 3) (c : Dev nD) (f : ScrC F) : BI.Storable (upEmb : UEmb _ 𝕄) (sndPts (F := F) a c f) := by unfold sndPts; infer_instance
omit [FloatOps F] in
instance rcvPts_storable (a : Fin 3) (c : Dev nD) (f : ScrC F) : BI.Storable (upEmb : UEmb _ 𝕄) (rcvPts (F := F) a c f) := by unfold rcvPts; infer_instance

/-! ## The schedule -/

/-- What the neighbour along `a` hands `c` with its barrier signal: plane `a` of its own receive buffer, and that its
    receive cell `a` stands at round `0`. -/
def barPay (a : Fin 3) (c : Dev nD) : sProp 𝕄 := iprop((∃ f, rcvPts a (nb a c) f) ∗ reached ER (recvCell a (nb a c)) 0)
def recvPay (a : Fin 3) (c : Dev nD) : sProp 𝕄 := rcvPts a c (recvC (ublk m ρ) c)
def sendPay (a : Fin 3) (c : Dev nD) : sProp 𝕄 := sndPts a c (sendC (ublk m ρ c) c)

/-- One round. A barrier cell has the three unit duties, one per axis; the send and the receive cell of axis `a` have
    the one duty `a`, of a plane's credit. -/
def haloRd : Rounds.Schedule (GSem nD τ sig) (Fin 3) 𝕄 where
  duties g r :=
    if r = 0 ∧ g.1.2 = .tc then
      (if g.2 = .reg barS then Finset.univ
       else Finset.univ.filter fun a => g.2 = .dma (sendS a) ∨ g.2 = .dma (recvS a))
    else ∅
  unitless _ := False
  amount g _ _ := if g.2 = .reg barS then 1 else N
  payload g _ d :=
    if g.2 = .reg barS then barPay d g.1.1
    else if g.2 = .dma (recvS d) then recvPay m ρ d g.1.1
    else if g.2 = .dma (sendS d) then sendPay m ρ d g.1.1
    else iprop(emp)
  amount_pos g _ _ _ := by
    by_cases h : g.2 = .reg barS
    · rw [if_pos h]; exact Nat.one_pos
    · rw [if_neg h]; exact View.dmaCredit_pos _ (by decide)

theorem N_pos : 0 < N := View.dmaCredit_pos _ (by decide)

instance haloRd_payload_storable (g : GSem nD τ sig) (r : ℕ) (d : Fin 3) :
    BI.Storable (upEmb : UEmb _ 𝕄) ((haloRd (F := F) m ρ).payload g r d) := by
  show BI.Storable upEmb (if g.2 = .reg barS then barPay d g.1.1 else if g.2 = .dma (recvS d) then recvPay m ρ d g.1.1
    else if g.2 = .dma (sendS d) then sendPay m ρ d g.1.1 else iprop(emp))
  unfold barPay recvPay sendPay
  (repeat' split) <;> infer_instance

section Tables
variable (a : Fin 3) (c : Dev nD)

theorem send_ne_bar : (SemLoc.dma (sendS a) : SemLoc sig) ≠ .reg barS := fun h => by cases h
theorem recv_ne_bar : (SemLoc.dma (recvS a) : SemLoc sig) ≠ .reg barS := fun h => by cases h
theorem send_ne_recv (b : Fin 3) : (SemLoc.dma (sendS a) : SemLoc sig) ≠ .dma (recvS b) := by
  intro h; have := congrArg (fun s : SemLoc sig => match s with | .dma q => q.val | _ => 0) h
  simp only [sendS_val, recvS_val] at this; omega
theorem recv_ne_send (b : Fin 3) : (SemLoc.dma (recvS a) : SemLoc sig) ≠ .dma (sendS b) := fun h => send_ne_recv b a h.symm
theorem sendS_inj {a b : Fin 3} (h : (SemLoc.dma (sendS a) : SemLoc sig) = .dma (sendS b)) : a = b := by
  have := congrArg (fun s : SemLoc sig => match s with | .dma q => q.val | _ => 0) h
  simp only [sendS_val] at this; exact Fin.ext (by omega)
theorem recvS_inj {a b : Fin 3} (h : (SemLoc.dma (recvS a) : SemLoc sig) = .dma (recvS b)) : a = b := by
  have := congrArg (fun s : SemLoc sig => match s with | .dma q => q.val | _ => 0) h
  simp only [recvS_val] at this; exact Fin.ext (by omega)

omit [FloatOps F] in
theorem duties_bar : (haloRd (F := F) m ρ).duties (barCell c) 0 = Finset.univ := by
  dsimp only [haloRd]; rw [if_pos ⟨rfl, rfl⟩, if_pos rfl]
omit [FloatOps F] in
theorem duties_send : (haloRd (F := F) m ρ).duties (sendCell a c) 0 = {a} := by
  dsimp only [haloRd]; rw [if_pos ⟨rfl, rfl⟩, if_neg (send_ne_bar a)]
  ext b; simp only [Finset.mem_filter, Finset.mem_univ, true_and, Finset.mem_singleton]
  exact ⟨fun h => h.elim (fun h => (sendS_inj h).symm) (fun h => absurd h (send_ne_recv a b)), fun h => .inl (h ▸ rfl)⟩
omit [FloatOps F] in
theorem duties_recv : (haloRd (F := F) m ρ).duties (recvCell a c) 0 = {a} := by
  dsimp only [haloRd]; rw [if_pos ⟨rfl, rfl⟩, if_neg (recv_ne_bar a)]
  ext b; simp only [Finset.mem_filter, Finset.mem_univ, true_and, Finset.mem_singleton]
  exact ⟨fun h => h.elim (fun h => absurd h (recv_ne_send a b)) (fun h => (recvS_inj h).symm), fun h => .inr (h ▸ rfl)⟩
omit [FloatOps F] in
theorem duties_later (g : GSem nD τ sig) : ∀ r, 1 ≤ r → (haloRd (F := F) m ρ).duties g r = ∅ :=
  fun r hr => by dsimp only [haloRd]; rw [if_neg fun h => by omega]

omit [FloatOps F] in
theorem amount_bar (d : Fin 3) : (haloRd (F := F) m ρ).amount (barCell c) 0 d = 1 := by dsimp only [haloRd]; exact if_pos rfl
omit [FloatOps F] in
theorem amount_send (d : Fin 3) : (haloRd (F := F) m ρ).amount (sendCell a c) 0 d = N := by dsimp only [haloRd]; exact if_neg (send_ne_bar a)
omit [FloatOps F] in
theorem amount_recv (d : Fin 3) : (haloRd (F := F) m ρ).amount (recvCell a c) 0 d = N := by dsimp only [haloRd]; exact if_neg (recv_ne_bar a)

omit [FloatOps F] in
theorem expect_bar : (haloRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (haloRd (F := F) m ρ).expect (sendCell a c) 0 = N := by
  unfold Schedule.expect Schedule.amountOf; rw [duties_send, Finset.sum_singleton, amount_send]
omit [FloatOps F] in
theorem expect_recv : (haloRd (F := F) m ρ).expect (recvCell a c) 0 = N := by
  unfold Schedule.expect Schedule.amountOf; rw [duties_recv, Finset.sum_singleton, amount_recv]

omit [FloatOps F] in
theorem payload_bar (d : Fin 3) : (haloRd (F := F) m ρ).payload (barCell c) 0 d = barPay d c := by dsimp only [haloRd]; rw [if_pos rfl]
omit [FloatOps F] in
theorem payload_send : (haloRd (F := F) m ρ).payload (sendCell a c) 0 a = sendPay m ρ a c := by
  dsimp only [haloRd]; rw [if_neg (send_ne_bar a), if_neg (send_ne_recv a a), if_pos rfl]
omit [FloatOps F] in
theorem payload_recv : (haloRd (F := F) m ρ).payload (recvCell a c) 0 a = recvPay m ρ a c := by
  dsimp only [haloRd]; rw [if_neg (recv_ne_bar a), if_pos rfl]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole of the barrier cell's round: the three neighbours' planes. -/
theorem rest_bar : bigSep ((haloRd (F := F) m ρ).duties (barCell c) 0 \ ∅) (fun d => (haloRd (F := F) m ρ).payload (barCell c) 0 d)
    = iprop(barPay 0 c ∗ barPay 1 c ∗ barPay 2 c) := by
  rw [Finset.sdiff_empty, duties_bar, bigSep_fin3, payload_bar, payload_bar, payload_bar]
omit [FloatOps F] in
theorem rest_send : bigSep ((haloRd (F := F) m ρ).duties (sendCell a c) 0 \ ∅) (fun d => (haloRd (F := F) m ρ).payload (sendCell a c) 0 d) = sendPay m ρ a c := by
  rw [Finset.sdiff_empty, duties_send, bigSep_singleton, payload_send]
omit [FloatOps F] in
theorem rest_recv : bigSep ((haloRd (F := F) m ρ).duties (recvCell a c) 0 \ ∅) (fun d => (haloRd (F := F) m ρ).payload (recvCell a c) 0 d) = recvPay m ρ a c := by
  rw [Finset.sdiff_empty, duties_recv, bigSep_singleton, payload_recv]

end Tables

/-! ## What each device owes at launch; the levels -/

/-- The three transfers' credit on the neighbours' receive cells: what is still owed at the barrier wait. -/
def OX (c : Dev nD) : CellTallies nD τ sig Unit :=
  tallyAt (recvCell 2 (nb 2 c)) () N + tallyAt (recvCell 1 (nb 1 c)) () N + tallyAt (recvCell 0 (nb 0 c)) () N
/-- … and before it the three barrier units, summed so that each signal peels the last summand. -/
def O₂ (c : Dev nD) : CellTallies nD τ sig Unit := OX c + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (recvS 0) ∨ g.2 = .dma (recvS 1) ∨ g.2 = .dma (recvS 2) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [if_pos rfl]
theorem lv_recv (a : Fin 3) (c : Dev nD) : lv (recvCell a c) () = 2 := by
  dsimp only [lv]; rw [if_neg (recv_ne_bar a), if_pos (by fin_cases a <;> simp)]

end Cert.KernelIdeal.Halo

end
-- ==== Proof.KernelIdeal.PlaneSplit.lean ====
import proofs.«900805_g7700000000000806_dist_halo3d_v7x_xyz2x2x2_s16_f32_1_alg».proof.Proof.KernelIdeal.Sched

/-!
# A scratch buffer is its three planes

Holding a whole three-plane buffer is holding its three planes at the same contents, and a plane held at one
contents is held at any other that agrees with it on the plane.
-/

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The planes of a scratch buffer -/

/-- An element lies in plane `a` exactly when its first coordinate is `a`. -/
theorem mem_rcvPl (a : Fin 3) (i : S3x16x16.Idx) : Iff (i ∈ ((rcvPl a).view.set : Finset S3x16x16.Idx)) ((i 0).val = a.val) := by
  have hs : ((rcvPl a).view.set : Finset S3x16x16.Idx) = (rP a).set := by
    show (((View.whole cc0_scratch1).slice (rP a)).reshape S16x16 _).set = _
    rw [View.set_reshape, View.set_slice_whole]
  rw [hs, Rect.mem_set_unit]
  constructor
  · intro h; have h0 := h 0
    have e0 : (![a.val, 0, 0] : Fin 3 → Nat) 0 = a.val := rfl
    have e1 : S1x16x16.size 0 = 1 := rfl
    rw [e0, e1] at h0; omega
  · intro h b
    have e1 : S1x16x16.size 0 = 1 := rfl
    fin_cases b
    · show a.val ≤ (i 0).val ∧ (i 0).val < a.val + S1x16x16.size 0; omega
    · have h16 : (i 1).val < 16 := (i 1).isLt; exact ⟨Nat.zero_le _, by show (i 1).val < 0 + 16; omega⟩
    · have h16 : (i 2).val < 16 := (i 2).isLt; exact ⟨Nat.zero_le _, by show (i 2).val < 0 + 16; omega⟩
theorem mem_sndPl (a : Fin 3) (i : S3x16x16.Idx) : Iff (i ∈ ((sndPl a).view.set : Finset S3x16x16.Idx)) ((i 0).val = a.val) := by
  have hs : ((sndPl a).view.set : Finset S3x16x16.Idx) = (rP a).set := by
    show (((View.whole cc0_scratch0).slice (rP a)).reshape S16x16 _).set = _
    rw [View.set_reshape, View.set_slice_whole]
  rw [hs, Rect.mem_set_unit]
  constructor
  · intro h; have h0 := h 0
    have e0 : (![a.val, 0, 0] : Fin 3 → Nat) 0 = a.val := rfl
    have e1 : S1x16x16.size 0 = 1 := rfl
    rw [e0, e1] at h0; omega
  · intro h b
    have e1 : S1x16x16.size 0 = 1 := rfl
    fin_cases b
    · show a.val ≤ (i 0).val ∧ (i 0).val < a.val + S1x16x16.size 0; omega
    · have h16 : (i 1).val < 16 := (i 1).isLt; exact ⟨Nat.zero_le _, by show (i 1).val < 0 + 16; omega⟩
    · have h16 : (i 2).val < 16 := (i 2).isLt; exact ⟨Nat.zero_le _, by show (i 2).val < 0 + 16; omega⟩

theorem rcv_cover : Finset.biUnion (β := S3x16x16.Idx) (Finset.univ : Finset (Fin 3)) (fun a => (rcvPl a).view.set) = Finset.univ := by
  ext i; simp only [Finset.mem_biUnion, Finset.mem_univ, true_and, iff_true]
  exact ⟨i 0, (mem_rcvPl _ i).mpr rfl⟩
theorem snd_cover : Finset.biUnion (β := S3x16x16.Idx) (Finset.univ : Finset (Fin 3)) (fun a => (sndPl a).view.set) = Finset.univ := by
  ext i; simp only [Finset.mem_biUnion, Finset.mem_univ, true_and, iff_true]
  exact ⟨i 0, (mem_sndPl _ i).mpr rfl⟩
theorem rcv_disj : ∀ a ∈ (Finset.univ : Finset (Fin 3)), ∀ b ∈ (Finset.univ : Finset (Fin 3)), a ≠ b →
    Disjoint ((rcvPl a).view.set : Finset S3x16x16.Idx) ((rcvPl b).view.set : Finset S3x16x16.Idx) :=
  fun a _ b _ hab => Finset.disjoint_left.mpr fun i ha hb => hab (Fin.ext (((mem_rcvPl a i).mp ha).symm.trans ((mem_rcvPl b i).mp hb)))
theorem snd_disj : ∀ a ∈ (Finset.univ : Finset (Fin 3)), ∀ b ∈ (Finset.univ : Finset (Fin 3)), a ≠ b →
    Disjoint ((sndPl a).view.set : Finset S3x16x16.Idx) ((sndPl b).view.set : Finset S3x16x16.Idx) :=
  fun a _ b _ hab => Finset.disjoint_left.mpr fun i ha hb => hab (Fin.ext (((mem_sndPl a i).mp ha).symm.trans ((mem_sndPl b i).mp hb)))

omit [FloatOps F] in
set_option maxHeartbeats 1000000 in
theorem rcv_split (c : Dev nD) (f : ScrC F) :
    ((((c : Thread nD τ).loc cc0_scratch1) ↦{fullShare} f : sProp 𝕄)) = iprop(rcvPts 0 c f ∗ rcvPts 1 c f ∗ rcvPts 2 c f) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f)
    (Finset.univ : Finset (Fin 3)) (fun a => ((rcvPl a).view.set : Finset S3x16x16.Idx)) rcv_disj
  rw [rcv_cover, bigSep_fin3] at h
  exact h
omit [FloatOps F] in
set_option maxHeartbeats 1000000 in
theorem snd_split (c : Dev nD) (f : ScrC F) :
    ((((c : Thread nD τ).loc cc0_scratch0) ↦{fullShare} f : sProp 𝕄)) = iprop(sndPts 0 c f ∗ sndPts 1 c f ∗ sndPts 2 c f) := by
  have h := pointsTo_biUnion (nD := nD) (τ := τ) (sig := sig) (Ix := Unit) (Val := Elt F) (Name := ℕ) (U := UU) (Lvl := ℕ)
    (ℓ := (c : Thread nD τ).loc cc0_scratch0) (q := fullShare) (f := f)
    (Finset.univ : Finset (Fin 3)) (fun a => ((sndPl a).view.set : Finset S3x16x16.Idx)) snd_disj
  rw [snd_cover, bigSep_fin3] at h
  exact h

omit [FloatOps F] in
theorem rcvPts_congr (a : Fin 3) (c : Dev nD) {f g : ScrC F} (h : ∀ i ∈ ((rcvPl a).view.set : Finset S3x16x16.Idx), f i = g i) : rcvPts a c f = rcvPts a c g := by
  unfold rcvPts; exact BI.Region.is_congr h
omit [FloatOps F] in
theorem sndPts_congr (a : Fin 3) (c : Dev nD) {f g : ScrC F} (h : ∀ i ∈ ((sndPl a).view.set : Finset S3x16x16.Idx), f i = g i) : sndPts a c f = sndPts a c g := by
  unfold sndPts; exact BI.Region.is_congr h

end Cert.KernelIdeal.Halo

end
-- ==== Proof.KernelIdeal.Data.lean ====
import proofs.«900805_g7700000000000806_dist_halo3d_v7x_xyz2x2x2_s16_f32_1_alg».proof.Proof.KernelIdeal.PlaneSplit

/-!
# Levels and the proof data

The barrier sits below the receive cells, so a device may wait for its barrier while it still owes its three
transfers; at the later waits it owes nothing. The ghost state a device's body starts from names its own seven
cells, its neighbours' barrier and receive cells, and the tokens of the nine duties it pays.
-/

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

theorem O₀_pos {c : Dev nD} {g : GSem nD τ sig} {u : Unit} (h : 0 < O₀ c g u) :
    (∃ a, g = recvCell a (nb a c)) ∨ (∃ a, g = barCell (nb a c)) := by
  unfold O₀ O₁ O₂ OX at h
  simp only [Pi.add_apply, Finsupp.add_apply, tallyAt_apply] at h
  by_contra hn
  rw [not_or, not_exists, not_exists] at hn
  rw [if_neg (fun h' => hn.1 2 h'.1), if_neg (fun h' => hn.1 1 h'.1), if_neg (fun h' => hn.1 0 h'.1),
    if_neg (fun h' => hn.2 2 h'.1), if_neg (fun h' => hn.2 1 h'.1), if_neg (fun h' => hn.2 0 h'.1)] at h
  exact Nat.lt_irrefl 0 h

theorem OX_pos {c : Dev nD} {g : GSem nD τ sig} {u : Unit} (h : 0 < OX c g u) : ∃ a, g = recvCell a (nb a c) := by
  unfold OX at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- A staging semaphore (level 0) may be waited for whatever is owed. -/
theorem mayWait_stage (c : Dev nD) (q : DmaSem sig) (hq : ∀ a, SemLoc.dma q ≠ .dma (recvS a)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> exact Finset.mem_singleton_self _)
      (fun p hp => by
        rw [Finset.mem_singleton.mp hp]; dsimp only [lv]
        rw [if_neg (fun h => by cases h), if_neg (fun h => by rcases h with h | h | h <;> exact hq _ h)])
      (fun g u hg => by
        rcases O₀_pos hg with ⟨a, rfl⟩ | ⟨a, rfl⟩
        · rw [lv_recv]; decide
        · rw [lv_bar]; decide)
  · rw [MayWait_zero]; iintro -; iempintro

omit [FloatOps F] in
/-- At its barrier wait a device owes its three transfers only: receive cells, above its barrier cell. -/
theorem mayWait_bar (c : Dev nD) : (levAts L lv : sProp 𝕄) ⊢ MayWait (c : Thread nD τ) (.reg barS) () (OX c) :=
  MayOwe.of_cut (L := L) (lev := lv) 1 (fun p hp => by rw [Finset.mem_singleton.mp hp, L_tc]; exact Finset.mem_singleton_self _)
    (fun g u hg => by obtain ⟨a, rfl⟩ := OX_pos hg; exact Finset.mem_singleton_self _)
    (fun p hp => by rw [Finset.mem_singleton.mp hp]; exact (lv_bar c).le)
    (fun g u hg => by obtain ⟨a, rfl⟩ := OX_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at. -/
def invs (K : Dev nD × Fin 7 → ℕ) (c : Dev nD) : sProp 𝕄 :=
  iprop(cellInv ER (haloRd m ρ) (K (c, 0)) (barCell c) ∗ cellInv ER (haloRd m ρ) (K (c, 1)) (sendCell 0 c) ∗ cellInv ER (haloRd m ρ) (K (c, 2)) (sendCell 1 c) ∗ cellInv ER (haloRd m ρ) (K (c, 3)) (sendCell 2 c) ∗ cellInv ER (haloRd m ρ) (K (c, 4)) (recvCell 0 c) ∗ cellInv ER (haloRd m ρ) (K (c, 5)) (recvCell 1 c) ∗ cellInv ER (haloRd m ρ) (K (c, 6)) (recvCell 2 c) ∗ cellInv ER (haloRd m ρ) (K (nb 0 c, 0)) (barCell (nb 0 c)) ∗ cellInv ER (haloRd m ρ) (K (nb 1 c, 0)) (barCell (nb 1 c)) ∗ cellInv ER (haloRd m ρ) (K (nb 2 c, 0)) (barCell (nb 2 c)) ∗ cellInv ER (haloRd m ρ) (K (nb 0 c, 4)) (recvCell 0 (nb 0 c)) ∗ cellInv ER (haloRd m ρ) (K (nb 1 c, 5)) (recvCell 1 (nb 1 c)) ∗ cellInv ER (haloRd m ρ) (K (nb 2 c, 6)) (recvCell 2 (nb 2 c)))

instance invs_persistent (K : Dev nD × Fin 7 → ℕ) (c : Dev nD) : BI.Persistent (invs m ρ K c) := by unfold invs; infer_instance

/-- The protocol's ghost state device `c` starts from. -/
def ghost (K : Dev nD × Fin 7 → ℕ) (c : Dev nD) : sProp 𝕄 :=
  iprop(invs m ρ K c ∗ atPos ER (barCell c) 0 ∅ 0 ∗ atPos ER (sendCell 0 c) 0 ∅ 0 ∗ atPos ER (sendCell 1 c) 0 ∅ 0 ∗ atPos ER (sendCell 2 c) 0 ∅ 0 ∗ atPos ER (recvCell 0 c) 0 ∅ 0 ∗ atPos ER (recvCell 1 c) 0 ∅ 0 ∗ atPos ER (recvCell 2 c) 0 ∅ 0 ∗ reached ER (barCell (nb 0 c)) 0 ∗ reached ER (barCell (nb 1 c)) 0 ∗ reached ER (barCell (nb 2 c)) 0 ∗ reached ER (recvCell 0 (nb 0 c)) 0 ∗ reached ER (recvCell 1 (nb 1 c)) 0 ∗ reached ER (recvCell 2 (nb 2 c)) 0 ∗ reached ER (sendCell 0 c) 0 ∗ reached ER (sendCell 1 c) 0 ∗ reached ER (sendCell 2 c) 0 ∗ reached ER (recvCell 0 c) 0 ∗ reached ER (recvCell 1 c) 0 ∗ reached ER (recvCell 2 c) 0 ∗ dutyTok ER (barCell (nb 0 c)) 0 0 ∗ dutyTok ER (barCell (nb 1 c)) 0 1 ∗ dutyTok ER (barCell (nb 2 c)) 0 2 ∗ dutyTok ER (recvCell 0 (nb 0 c)) 0 0 ∗ dutyTok ER (recvCell 1 (nb 1 c)) 0 1 ∗ dutyTok ER (recvCell 2 (nb 2 c)) 0 2 ∗ dutyTok ER (sendCell 0 c) 0 0 ∗ dutyTok ER (sendCell 1 c) 0 1 ∗ dutyTok ER (sendCell 2 c) 0 2)

/-- A whole scratch buffer of device `c` at contents `f`. -/
def sndW (c : Dev nD) (f : ScrC F) : sProp 𝕄 := (((c : Thread nD τ).loc cc0_scratch0) ↦{fullShare} f)
def rcvW (c : Dev nD) (f : ScrC F) : sProp 𝕄 := (((c : Thread nD τ).loc cc0_scratch1) ↦{fullShare} f)

/-- What device `c`'s body starts from besides its buffers. -/
def start (c : Dev nD) : sProp 𝕄 :=
  iprop((∃ K, ghost m ρ K c) ∗ cred (tallyAt (barCell c) () 3) ∗ cred (tallyAt (recvCell 0 c) () N) ∗ cred (tallyAt (recvCell 1 c) () N)
    ∗ cred (tallyAt (recvCell 2 c) () N) ∗ levAts L lv)

def Φ₀ (c : Dev nD) : sProp 𝕄 := iprop(start m ρ c ∗ (∃ f, sndW c f) ∗ (∃ f, rcvW c f))
/-- After the point: both scratch buffers whole at their final contents, the six own semaphores at zero. -/
def Φ₁ (c : Dev nD) : sProp 𝕄 :=
  iprop(sndW c (sendC (ublk m ρ c) c) ∗ rcvW c (recvC (ublk m ρ) c)
    ∗ semVal (sendCell 0 c) 0 ∗ semVal (sendCell 1 c) 0 ∗ semVal (sendCell 2 c) 0
    ∗ semVal (recvCell 0 c) 0 ∗ semVal (recvCell 1 c) 0 ∗ semVal (recvCell 2 c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => ublk m ρ c
    | ⟨1, _⟩ => outAt (ublk m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition at names `K`, and its postcondition. -/
def bodyPre (K : Dev nD × Fin 7 → ℕ) (c : Dev nD) : sProp 𝕄 :=
  iprop((ghost m ρ K c ∗ cred (tallyAt (barCell c) () 3) ∗ cred (tallyAt (recvCell 0 c) () N) ∗ cred (tallyAt (recvCell 1 c) () N)
      ∗ cred (tallyAt (recvCell 2 c) () N) ∗ levAts L lv ∗ (∃ f, sndW c f) ∗ (∃ f, rcvW c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (ublk m ρ c) ∗ stg c cc0_stg1_0 (outAt (ublk m ρ) c))

end Cert.KernelIdeal.Halo

end
-- ==== Proof.KernelIdeal.Launch.lean ====
import proofs.«900805_g7700000000000806_dist_halo3d_v7x_xyz2x2x2_s16_f32_1_alg».proof.Proof.KernelIdeal.Data
import Idealize.ShloMosaic.Lib.Pipeline.Launch
import Idealize.ShloMosaic.Lib.Pipeline.Kit
import Idealize.ShloMosaic.Lib.Pipeline.Cells
import Idealize.ShloMosaic.Lib.Tactic

/-!
# The launch

Every device's seven cells are funded at once: the round state and the owner's position of each cell, and one
token per duty. Under one update the cells' invariants are allocated for all devices, and the tokens are dealt to
the devices that pay the duties: the barrier token and the receive token of axis `a` go to the neighbour along
`a`, the send tokens stay. The units the three neighbours owe a device's barrier cell and its three receive
cells come back to it as credit. From there each device runs its body, and the run of the whole mesh ends with
every window's array at the contents the proof data name.
-/

noncomputable section

namespace Cert.KernelIdeal.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores, as the launch indexes them: the three send cells, then the three receive cells; -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- a device's seven cells: the barrier, the send cells, the receive cells. -/
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

/-- A number that tells a device's seven cells apart. -/
def semCode : SemLoc sig → ℕ
  | .reg _ => 0
  | .dma q => q.val + 1
theorem semCode_csem (k : Fin 7) : semCode (csem k) = if k.val = 0 then 0 else k.val + 2 := by fin_cases k <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : semCode (csem k) = semCode (csem k') := congrArg (fun g : GSem nD τ sig => semCode g.2) h
  rw [semCode_csem, semCode_csem] at h2
  have : k = k' := Fin.ext (by split_ifs at h2 <;> omega)
  subst this; rfl
def haloCells : Finset (GSem nD τ sig) := Finset.univ.map ⟨kcell, kcell_injective⟩

/-- A device's own cells' duty tokens as minted: the barrier's three, each send cell's one, each receive cell's one. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 1) | 5 => (sendCell 2 cj.1, 0, 2)
  | 6 => (recvCell 0 cj.1, 0, 0) | 7 => (recvCell 1 cj.1, 0, 1) | 8 => (recvCell 2 cj.1, 0, 2)
theorem tokOf_dev (c : Dev nD) (j : Fin 9) : (tokOf (c, j)).1.1.1 = c := by fin_cases j <;> rfl
theorem tokOf_code (c : Dev nD) (j : Fin 9) : 3 * semCode (tokOf (c, j)).1.2 + (tokOf (c, j)).2.2.val
    = if j.val < 3 then j.val else if j.val < 6 then 4 * j.val - 3 else 4 * j.val - 6 := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rwa [tokOf_dev, tokOf_dev] at this
  subst h1
  have h2 := congrArg (fun x : GSem nD τ sig × ℕ × Fin 3 => 3 * semCode x.1.2 + x.2.2.val) h
  simp only [tokOf_code] at h2
  have : j = j' := Fin.ext (by split_ifs at h2 <;> omega)
  subst this; rfl
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 1 ∗ dutyTok ER (sendCell 2 c) 0 2
    ∗ dutyTok ER (recvCell 0 c) 0 0 ∗ dutyTok ER (recvCell 1 c) 0 1 ∗ dutyTok ER (recvCell 2 c) 0 2)

/-- What the launch element deals device `c`. -/
def G (c : Dev nD) : sProp 𝕄 :=
  iprop((bigSep Finset.univ fun k : Fin 7 => roundState ER (haloRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records every device may read: each cell's invariant at its name, each cell at round 0. -/
def records (K : Dev nD × Fin 7 → ℕ) : sProp 𝕄 :=
  iprop((bigSep Finset.univ fun ck : Dev nD × Fin 7 => cellInv ER (haloRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (nb 0 c)) 0 0 ∗ dutyTok ER (barCell (nb 1 c)) 0 1 ∗ dutyTok ER (barCell (nb 2 c)) 0 2
    ∗ dutyTok ER (recvCell 0 (nb 0 c)) 0 0 ∗ dutyTok ER (recvCell 1 (nb 1 c)) 0 1 ∗ dutyTok ER (recvCell 2 (nb 2 c)) 0 2
    ∗ dutyTok ER (sendCell 0 c) 0 0 ∗ dutyTok ER (sendCell 1 c) 0 1 ∗ dutyTok ER (sendCell 2 c) 0 2)
def linear (c : Dev nD) : sProp 𝕄 :=
  iprop((atPos ER (barCell c) 0 ∅ 0 ∗ atPos ER (sendCell 0 c) 0 ∅ 0 ∗ atPos ER (sendCell 1 c) 0 ∅ 0 ∗ atPos ER (sendCell 2 c) 0 ∅ 0
      ∗ atPos ER (recvCell 0 c) 0 ∅ 0 ∗ atPos ER (recvCell 1 c) 0 ∅ 0 ∗ atPos ER (recvCell 2 c) 0 ∅ 0) ∗ payToks c)

omit [FloatOps F] in
theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, Ht0, Ht1, Ht2, Ht3, Ht4, Ht5, Ht6, Ht7, Ht8⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nb 0 c, 0)); iexact HI
    isplitr; · iapply (inv_at m ρ K (nb 1 c, 0)); iexact HI
    isplitr; · iapply (inv_at m ρ K (nb 2 c, 0)); iexact HI
    isplitr; · iapply (inv_at m ρ K (nb 0 c, 4)); iexact HI
    isplitr; · iapply (inv_at m ρ K (nb 1 c, 5)); iexact HI
    iapply (inv_at m ρ K (nb 2 c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (nb 0 c, 0)); iexact HR
  isplitr; · iapply (reached_at (F := F) (nb 1 c, 0)); iexact HR
  isplitr; · iapply (reached_at (F := F) (nb 2 c, 0)); iexact HR
  isplitr; · iapply (reached_at (F := F) (nb 0 c, 4)); iexact HR
  isplitr; · iapply (reached_at (F := F) (nb 1 c, 5)); iexact HR
  isplitr; · iapply (reached_at (F := F) (nb 2 c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  iexact Ht8

omit [FloatOps F] in
/-- The tokens dealt across the pairs: along each axis a device's barrier token and receive token of that axis go to
    its neighbour there, which hands its own back; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (nbEquiv 0) (fun c : Dev nD => (dutyTok ER (barCell c) 0 0 : sProp 𝕄)),
    bigSep_univ_equiv (nbEquiv 1) (fun c : Dev nD => (dutyTok ER (barCell c) 0 1 : sProp 𝕄)),
    bigSep_univ_equiv (nbEquiv 2) (fun c : Dev nD => (dutyTok ER (barCell c) 0 2 : sProp 𝕄)),
    bigSep_univ_equiv (nbEquiv 0) (fun c : Dev nD => (dutyTok ER (recvCell 0 c) 0 0 : sProp 𝕄)),
    bigSep_univ_equiv (nbEquiv 1) (fun c : Dev nD => (dutyTok ER (recvCell 1 c) 0 1 : sProp 𝕄)),
    bigSep_univ_equiv (nbEquiv 2) (fun c : Dev nD => (dutyTok ER (recvCell 2 c) 0 2 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (haloRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff (x : Fin 3) {a b : Dev nD} : Iff (recvCell x a = recvCell x b) (a = b) :=
  ⟨fun h => Fin.ext (congrArg (fun g : GSem nD τ sig => g.1.1.val) h), fun h => h ▸ rfl⟩

omit [FloatOps F] in
/-- The unit device `d` owes the barrier cell of its neighbour along `a`, read at device `c`'s barrier cell. -/
theorem bar_tally (a : Fin 3) (d c : Dev nD) :
    (tallyAt (barCell (nb a d)) () 1 : CellTallies nD τ sig Unit) (barCell c) () = if d = nb a c then 1 else 0 := by
  rw [tallyAt_apply]
  by_cases h : d = nb a c
  · subst h; rw [nb_nb, if_pos ⟨rfl, rfl⟩, if_pos rfl]
  · rw [if_neg (fun h' => h (by rw [bar_eq_iff.mp h'.1, nb_nb])), if_neg h]

omit [FloatOps F] in
/-- The credit device `d` owes the receive cell `a` of its neighbour along `a`, read at device `c`'s receive cell `b`. -/
theorem recv_tally (a b : Fin 3) (d c : Dev nD) :
    (tallyAt (recvCell a (nb a d)) () N : CellTallies nD τ sig Unit) (recvCell b c) () = if a = b ∧ d = nb b c then N else 0 := by
  rw [tallyAt_apply]
  by_cases hab : a = b
  · subst hab
    by_cases h : d = nb a c
    · subst h; rw [nb_nb, if_pos ⟨rfl, rfl⟩, if_pos ⟨rfl, rfl⟩]
    · rw [if_neg (fun h' => h (by rw [(recv_eq_iff a).mp h'.1, nb_nb])), if_neg (fun h' => h h'.2)]
  · rw [if_neg (fun h' => hab (recvS_inj (congrArg Prod.snd h'.1)).symm), if_neg (fun h' => hab h'.1)]

omit [FloatOps F] in
/-- What device `d` owes device `c`'s barrier cell: a unit along each axis on which they are neighbours. -/
theorem owed_bar (d c : Dev nD) :
    O₀ d (barCell c) () = (if d = nb 2 c then 1 else 0) + (if d = nb 1 c then 1 else 0) + (if d = nb 0 c then 1 else 0) := by
  unfold O₀ O₁ O₂ OX
  simp only [Pi.add_apply, Finsupp.add_apply]
  rw [tallyAt_ne_cell (fun h => recv_ne_bar 2 (congrArg Prod.snd h).symm), tallyAt_ne_cell (fun h => recv_ne_bar 1 (congrArg Prod.snd h).symm),
    tallyAt_ne_cell (fun h => recv_ne_bar 0 (congrArg Prod.snd h).symm), Finsupp.zero_apply, bar_tally, bar_tally, bar_tally]
  simp only [Nat.zero_add]

omit [FloatOps F] in
/-- What device `d` owes device `c`'s receive cell `b`: a plane's credit if it is `c`'s neighbour along `b`. -/
theorem owed_recv (b : Fin 3) (d c : Dev nD) : O₀ d (recvCell b c) () = if d = nb b c then N else 0 := by
  unfold O₀ O₁ O₂ OX
  simp only [Pi.add_apply, Finsupp.add_apply]
  rw [tallyAt_ne_cell (g := barCell (nb 0 d)) (fun h => recv_ne_bar b (congrArg Prod.snd h)),
    tallyAt_ne_cell (g := barCell (nb 1 d)) (fun h => recv_ne_bar b (congrArg Prod.snd h)),
    tallyAt_ne_cell (g := barCell (nb 2 d)) (fun h => recv_ne_bar b (congrArg Prod.snd h)), Finsupp.zero_apply,
    recv_tally, recv_tally, recv_tally]
  fin_cases b <;> simp

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]

omit [FloatOps F] in
theorem launch_recv (b : Fin 3) (c : Dev nD) :
    tallyOn (recvCell b c) (launchCredit (Pipeline.owing O₀) 0 (recvCell b c)) = (tallyAt (recvCell b c) () N : CellTallies nD τ sig Unit) := by
  unfold tallyAt; refine congrArg _ (Finsupp.ext fun u => ?_); cases u
  rw [Pipeline.launchCredit_owing, Finsupp.single_eq_same, Finset.sum_congr rfl fun d _ => owed_recv b d c, Finset.sum_ite_eq' Finset.univ (nb b c) fun _ => N,
    if_pos (Finset.mem_univ _)]

omit [FloatOps F] in
theorem recvS_ne {a b : Fin 3} (h : a ≠ b) : (SemLoc.dma (recvS a) : SemLoc sig) ≠ .dma (recvS b) := fun e => h (recvS_inj e)

omit [FloatOps F] in
theorem creds (c : Dev nD) :
    (Pipeline.launchCred O₀ c : sProp 𝕄) ⊢ iprop(cred (tallyAt (barCell c) () 3) ∗ cred (tallyAt (recvCell 0 c) () N)
      ∗ cred (tallyAt (recvCell 1 c) () N) ∗ cred (tallyAt (recvCell 2 c) () N)) := by
  unfold Pipeline.launchCred
  rw [bigSep_univ_at _ (SemLoc.reg barS), launch_bar]
  refine sep_mono_right ?_
  rw [bigSep_erase (i := SemLoc.dma (recvS 0)) (Finset.mem_erase.mpr ⟨recv_ne_bar 0, Finset.mem_univ _⟩), launch_recv]
  refine sep_mono_right ?_
  rw [bigSep_erase (i := SemLoc.dma (recvS 1)) (Finset.mem_erase.mpr ⟨recvS_ne (by decide), Finset.mem_erase.mpr ⟨recv_ne_bar 1, Finset.mem_univ _⟩⟩), launch_recv]
  refine sep_mono_right ?_
  rw [← launch_recv 2 c]
  exact bigSep_elim (Finset.mem_erase.mpr ⟨recvS_ne (by decide), Finset.mem_erase.mpr ⟨recvS_ne (by decide), Finset.mem_erase.mpr ⟨recv_ne_bar 2, Finset.mem_univ _⟩⟩⟩)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0]; · iexact HN0
    isplitl [HN1]; · iexact HN1
    isplitl [HN2]; · iexact HN2
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sndW rcvW
  iintro ⟨Hs, -, ⟨%f, Hf⟩, ⟨%g, Hg⟩⟩
  isplitl [Hs]; · iexact Hs
  isplitl [Hf]
  · iexists f; iexact Hf
  · iexists g; iexact Hg

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ sndW rcvW
  iintro ⟨Hs, Hr, HS0, HS1, HS2, HV0, HV1, HV2⟩
  isplitr; · iempintro
  isplitl [HS0 HS1 HS2 HV0 HV1 HV2]
  · isplitl [HS0]; · iexact HS0
    isplitl [HS1]; · iexact HS1
    isplitl [HS2]; · iexact HS2
    isplitl [HV0]; · iexact HV0
    isplitl [HV1]; · iexact HV1
    iexact HV2
  isplitl [Hs]
  · iexists (sendC (ublk m ρ c) c); iexact Hs
  · iexists (recvC (ublk m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by intro a; fin_cases w <;> fin_cases s <;> fin_cases a <;> decide) _ (by
      rcases t with ⟨_ | _, ht⟩
      · exact Or.inl rfl
      · exact Or.inr rfl)

/-! ### The run -/

/-- Every device's windows end at the contents the proof data name. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on device `c`, from the body's own triple. -/
theorem body_obligation_of
    (hbody : ∀ (K : Dev nD × Fin 7 → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hsnd, Hrcv⟩, Ho, Hx, Hout⟩
  iapply (hbody K c fun _ => bodyPost m ρ c)
  unfold bodyPre
  isplitr []
  · isplitl [Hg Hrest Hsnd Hrcv]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      isplitl [Hsnd]; · iexact Hsnd
      iexact Hrcv
    isplitl [Ho]; · iexact Ho
    isplitl [Hx] <;> iassumption
  · iintro H; iexact H

set_option maxRecDepth 8000 in
/-- At the compiled mesh of eight devices, for any float values, from any memory with zero counters: every weakly fair
    execution of the program — the eight kernels handshaking on the barrier semaphore, then exchanging their faces —
    terminates, and every final state has each device's arrays at the contents the proof data name. -/
theorem run_main
    (hbody : ∀ (K : Dev nD × Fin 7 → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation_of m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Halo.run_main' depends on axioms: [propext, Classical.choice, Quot.sound] -/
#guard_msgs in #print axioms run_main

/-! ### The final arrays -/

/-- A device's input block, as staged, is its argument array. -/
theorem ublk_eq (c : Dev nD) : ublk m ρ c = m ((c : Thread nD τ).loc main_arg0) :=
  Memref.read_access_unit_zero (Elt F) main_arg0 (funext fun a => Nat.zero_mul _) _ _

/-- The argument array after the run holds what it held. -/
theorem final_in (c : Dev nD) : (dats (F := F) m ρ 0 c).arrAt (0 : Fin 2) cfg0.N = m ((c : Thread nD τ).loc main_arg0) :=
  (dats (F := F) m ρ 0 c).arrAt_in (0 : Fin 2) rfl _

/-- The result array after the run holds what the body left in the output block at the one point. -/
theorem final_out (c : Dev nD) : (dats (F := F) m ρ 0 c).arrAt (1 : Fin 2) cfg0.N = outAt (ublk m ρ) c := by
  have h := (dats (F := F) m ρ 0 c).arrAt_succ (1 : Fin 2) t₀
  rw [if_pos (flush0_1 t₀)] at h
  exact h.trans (Memref.write_access_unit_zero_univ (Elt F) main_v1 (funext fun a => Nat.zero_mul _) _ _ _)

end Cert.KernelIdeal.Halo

end
-- ==== Proof.KernelIdeal.Planes.lean ====
import proofs.«900805_g7700000000000806_dist_halo3d_v7x_xyz2x2x2_s16_f32_1_alg».proof.Proof.KernelIdeal.Contents
import Idealize.ShloMosaic.Lib.Pipeline.Value

/-!
# The three planes of a scratch buffer

A scratch buffer is three 16 × 16 planes stacked along its first axis. An unmasked store of a plane-shaped vector
through plane `a` replaces exactly the entries whose first coordinate is `a`; three such stores, one per
plane, therefore replace the whole buffer. A transfer of plane `a` of one buffer into plane `a` of another
copies those entries and nothing else.
-/

noncomputable section

namespace Cert.KernelIdeal.Halo

open Cert.KernelIdeal Cert.KernelIdeal.Gen
open Idealize.ShloMosaic Idealize.ShloMosaic.TcCoe

variable {F : FTy → Type} [FloatOps F]

/-- An unmasked store through the plane at height `a` of the send buffer: an entry at height `a` takes the stored
    vector at its two in-plane coordinates, every other entry is kept. -/
theorem plane_write (a : ℕ) (inb : ∀ ax, (![a, 0, 0] : Fin 3 → ℕ) ax + S1x16x16.size ax ≤ S3x16x16.size ax)
    (f : ScrC F) (w : S1x16x16.Idx → F .f32) (i : S3x16x16.Idx) :
    (sndM.access (Rect.unit (s := S3x16x16) ![a, 0, 0] S1x16x16.size inb) : View sig .tc _ _ _).write (Elt F) f w Finset.univ i
      = if (i 0).val = a then w (ValueIdx.ix3 (0 : Fin 1) (i 1) (i 2)) else f i := by
  by_cases h : (i 0).val = a
  · rw [if_pos h]
    -- the entry is the image of its in-plane coordinates under the plane's placement
    have hx : (sndM.access (Rect.unit (s := S3x16x16) ![a, 0, 0] S1x16x16.size inb) : View sig .tc _ _ _).emb
        (ValueIdx.ix3 (0 : Fin 1) (i 1) (i 2)) = i := by
      funext ax
      refine Fin.ext ?_
      match ax with
      | ⟨0, _⟩ => show a + 1 * 0 = (i 0).val; omega
      | ⟨1, _⟩ => show 0 + 1 * (i 1).val = (i 1).val; omega
      | ⟨2, _⟩ => show 0 + 1 * (i 2).val = (i 2).val; omega
    have hw := View.write_emb_of_mem (v := (sndM.access (Rect.unit (s := S3x16x16) ![a, 0, 0] S1x16x16.size inb) : View sig .tc _ _ _))
      (Val := Elt F) f w (M := Finset.univ) (x := ValueIdx.ix3 (0 : Fin 1) (i 1) (i 2)) (Finset.mem_univ _)
    rw [hx] at hw
    exact hw.trans (cast_eq _ _)
  · rw [if_neg h]
    -- an entry at another height is outside the plane
    refine View.write_of_not_mem _ _ _ ?_
    intro hm
    rw [View.setOn_univ] at hm
    have hm' : i ∈ (Rect.unit (s := S3x16x16) ![a, 0, 0] S1x16x16.size inb).set := by
      rw [← View.set_slice_whole (sig := sig) (κ := .tc) cc0_scratch0]; exact hm
    have := (Rect.mem_set_unit.mp hm') 0
    apply h
    have h1 : (![a, 0, 0] : Fin 3 → ℕ) 0 = a := rfl
    have h2 : S1x16x16.size 0 = 1 := rfl
    omega

/-- Three unmasked stores, one per plane, overwrite the whole send buffer whatever it held. -/
theorem send_stores (u : BlkC F) (c : Dev nD) (f0 : ScrC F) :
    ((sndM.access rP2 : View sig .tc _ _ _).write (Elt F)
      ((sndM.access rP1 : View sig .tc _ _ _).write (Elt F)
        ((sndM.access rP0 : View sig .tc _ _ _).write (Elt F) f0 (k0_pay2 (mxW c) u) Finset.univ)
        (k0_pay3 (myW c) u) Finset.univ)
      (k0_pay4 (mzW c) u) Finset.univ) = sendC u c := by
  funext i
  refine (plane_write 2 inb_S3x16x16_S1x16x16_2_0_0 _ (k0_pay4 (mzW c) u) i).trans ?_
  rw [plane_write 1 inb_S3x16x16_S1x16x16_1_0_0 _ (k0_pay3 (myW c) u) i,
    plane_write 0 inb_S3x16x16_S1x16x16_0_0_0 _ (k0_pay2 (mxW c) u) i]
  unfold sendC
  have hi : (i 0).val < 3 := (i 0).isLt
  by_cases h0 : (i 0).val = 0
  · rw [if_neg (by omega), if_neg (by omega), if_pos h0, if_pos h0]
  · by_cases h1 : (i 0).val = 1
    · rw [if_neg (by omega), if_pos h1, if_neg h0, if_pos h1]
    · rw [if_pos (by omega), if_neg h0, if_neg h1]

/-- An entry lies under plane `a` of the receive buffer exactly when its first coordinate is `a`. -/
theorem mem_plane (a : Fin 3) (i) : i ∈ (rcvPl a).view.set ↔ (i 0).val = a.val := by
  show i ∈ ((rcvM.view.slice (rP a)).reshape S16x16 _).set ↔ _
  rw [View.set_reshape, View.set_slice_whole (sig := sig) (κ := .tc) cc0_scratch1, Rect.mem_set_unit]
  constructor
  · intro h
    have := h 0
    have h1 : (![a.val, 0, 0] : Fin 3 → ℕ) 0 = a.val := rfl
    have h2 : S1x16x16.size 0 = 1 := rfl
    omega
  · intro h ax
    match ax with
    | ⟨0, _⟩ => exact ⟨by show a.val ≤ (i 0).val; omega, by show (i 0).val < a.val + 1; omega⟩
    | ⟨1, _⟩ => exact ⟨Nat.zero_le _, by show (i 1).val < 0 + 16; have h16 : (i 1).val < 16 := (i 1).isLt; omega⟩
    | ⟨2, _⟩ => exact ⟨Nat.zero_le _, by show (i 2).val < 0 + 16; have h16 : (i 2).val < 16 := (i 2).isLt; omega⟩

/-- The same for the send buffer. -/
theorem mem_plane_snd (a : Fin 3) (i) : i ∈ (sndPl a).view.set ↔ (i 0).val = a.val := by
  show i ∈ ((sndM.view.slice (rP a)).reshape S16x16 _).set ↔ _
  rw [View.set_reshape, View.set_slice_whole (sig := sig) (κ := .tc) cc0_scratch0, Rect.mem_set_unit]
  constructor
  · intro h
    have := h 0
    have h1 : (![a.val, 0, 0] : Fin 3 → ℕ) 0 = a.val := rfl
    have h2 : S1x16x16.size 0 = 1 := rfl
    omega
  · intro h ax
    match ax with
    | ⟨0, _⟩ => exact ⟨by show a.val ≤ (i 0).val; omega, by show (i 0).val < a.val + 1; omega⟩
    | ⟨1, _⟩ => exact ⟨Nat.zero_le _, by show (i 1).val < 0 + 16; have h16 : (i 1).val < 16 := (i 1).isLt; omega⟩
    | ⟨2, _⟩ => exact ⟨Nat.zero_le _, by show (i 2).val < 0 + 16; have h16 : (i 2).val < 16 := (i 2).isLt; omega⟩

/-- A transfer of plane `a` of a buffer holding `fs` into plane `a` of another lands `fs`'s plane `a` there. -/
theorem landing (a : Fin 3) (fd fs : ScrC F) (i) (hi : i ∈ (rcvPl a).view.set) :
    (rcvPl a).view.write (Elt F) fd ((sndPl a).view.read (Elt F) fs) Finset.univ i = fs i := by
  obtain ⟨y, rfl⟩ := View.exists_emb_of_mem_set _ hi
  rw [View.write_emb_of_mem _ _ (Finset.mem_univ y), View.read_apply]
  rfl

/-- What lands in plane `a` of device `c`'s receive buffer is plane `a` of the send buffer of its neighbour along `a`. -/
theorem recv_landing (us : Dev nD → BlkC F) (a : Fin 3) (c : Dev nD) (fd : ScrC F) (i) (hi : i ∈ (rcvPl a).view.set) :
    (rcvPl a).view.write (Elt F) fd ((sndPl a).view.read (Elt F) (sendC (us (nb a c)) (nb a c))) Finset.univ i = recvC us c i := by
  rw [landing a fd _ i hi]
  have ha : i 0 = a := Fin.ext ((mem_plane a i).mp hi)
  unfold recvC
  rw [ha]

/-- info: 'Cert.KernelIdeal.Halo.recv_landing' depends on axioms: [propext, Classical.choice, Quot.sound] -/
#guard_msgs in #print axioms Cert.KernelIdeal.Halo.recv_landing

/-- info: 'Cert.KernelIdeal.Halo.send_stores' depends on axioms: [propext, Classical.choice, Quot.sound] -/
#guard_msgs in #print axioms Cert.KernelIdeal.Halo.send_stores

end Cert.KernelIdeal.Halo

end
-- ==== Proof.KernelIdeal.Body.lean ====
import proofs.«900805_g7700000000000806_dist_halo3d_v7x_xyz2x2x2_s16_f32_1_alg».proof.Proof.KernelIdeal.Data
import proofs.«900805_g7700000000000806_dist_halo3d_v7x_xyz2x2x2_s16_f32_1_alg».proof.Proof.KernelIdeal.Planes

/-!
# One device's body

From the ghost state, the credit dealt at launch and its four buffers, device `c` signals its three
neighbours, writes its three faces and the local stencil, waits for its barrier, transfers the faces,
and adds each received face as it lands; it ends with both scratch buffers whole again, its six own
semaphores at zero, and the output block at `outAt`.
-/

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The schedule's tables with the payloads spelt out as the buffers they hand over; at a neighbour's barrier cell the neighbour's neighbour is the device itself. -/

omit [FloatOps F] in
theorem duties_bar_nb (a : Fin 3) (c : Dev nD) : (haloRd (F := F) m ρ).duties (barCell (nb a c)) 0 = Finset.univ := duties_bar m ρ (nb a c)
omit [FloatOps F] in
theorem payload_bar_nb (a : Fin 3) (c : Dev nD) : (haloRd (F := F) m ρ).payload (barCell (nb a c)) 0 a
    = iprop((∃ f, ((rcvPl a).view.loc (c : Thread nD τ) ↦[(rcvPl a).view.set]{fullShare} f)) ∗ reached ER (recvCell a c) 0) := by
  rw [payload_bar]; unfold barPay rcvPts; rw [nb_nb]; rfl
omit [FloatOps F] in
theorem payload_bar_own (a : Fin 3) (c : Dev nD) : (haloRd (F := F) m ρ).payload (barCell c) 0 a
    = iprop((∃ f, ((rcvPl a).view.loc (nb a c : Thread nD τ) ↦[(rcvPl a).view.set]{fullShare} f)) ∗ reached ER (recvCell a (nb a c)) 0) := by
  rw [payload_bar]; unfold barPay rcvPts; rfl
omit [FloatOps F] in
theorem payload_send_pts (a : Fin 3) (c : Dev nD) : (haloRd (F := F) m ρ).payload (sendCell a c) 0 a
    = ((sndPl a).view.loc (c : Thread nD τ) ↦[(sndPl a).view.set]{fullShare} sendC (ublk m ρ c) c) := by
  rw [payload_send]; rfl
omit [FloatOps F] in
theorem payload_recv_pts (a : Fin 3) (c : Dev nD) : (haloRd (F := F) m ρ).payload (recvCell a c) 0 a
    = ((rcvPl a).view.loc (c : Thread nD τ) ↦[(rcvPl a).view.set]{fullShare} recvC (ublk m ρ) c) := by
  rw [payload_recv]; rfl
omit [FloatOps F] in
theorem amount_bar_nb (a : Fin 3) (c : Dev nD) (d : Fin 3) : (haloRd (F := F) m ρ).amount (barCell (nb a c)) 0 d = 1 := amount_bar m ρ (nb a c) d

attribute [local sl_rounds] duties_bar duties_bar_nb duties_send duties_recv amount_bar amount_bar_nb amount_send amount_recv
  expect_bar expect_send expect_recv payload_bar_nb payload_send_pts payload_recv_pts
attribute [local sl_canon] dev1_eq dev2_eq dev3_eq dev4_eq dev5_eq dev6_eq

omit [FloatOps F] in
/-- A whole buffer's points-to, spelt through its memref's view. -/
theorem pts_view (c : Dev nD) (b : Ref sig .tc) (f : Buf (Elt F) ((c : Thread nD τ).loc b)) :
    ((((c : Thread nD τ).loc b) ↦{fullShare} f : sProp 𝕄)) = ((View.loc (c : Thread nD τ) (Memref.whole b).view) ↦{fullShare} f) := rfl

omit [FloatOps F] in
/-- The barrier round's payloads, one per axis. -/
theorem bar_payloads (c : Dev nD) :
    bigSep Finset.univ (fun d => (haloRd (F := F) m ρ).payload (barCell c) 0 d) = iprop(barPay 0 c ∗ barPay 1 c ∗ barPay 2 c) := by
  rw [bigSep_fin3, payload_bar, payload_bar, payload_bar]

/-- After its three face stores the send buffer is `sendC`, plane by plane. -/
theorem snd_ready (c : Dev nD) (fs0 : ScrC F) :
    ((View.loc (c : Thread nD τ) (Memref.whole cc0_scratch0).view) ↦{fullShare}
        ((sndM.access rP2 : View sig .tc _ _ _).write (Elt F) ((sndM.access rP1 : View sig .tc _ _ _).write (Elt F)
          ((sndM.access rP0 : View sig .tc _ _ _).write (Elt F) fs0
            (k0_pay2 (mxW c) (View.readAt (Elt F) (Memref.whole cc0_stg0_0).view rW.toLoadRect (ublk m ρ c))) Finset.univ)
            (k0_pay3 (myW c) (View.readAt (Elt F) (Memref.whole cc0_stg0_0).view rW.toLoadRect (ublk m ρ c))) Finset.univ)
            (k0_pay4 (mzW c) (View.readAt (Elt F) (Memref.whole cc0_stg0_0).view rW.toLoadRect (ublk m ρ c))) Finset.univ) : sProp 𝕄)
      ⊢ iprop(sndPts 0 c (sendC (ublk m ρ c) c) ∗ sndPts 1 c (sendC (ublk m ρ c) c) ∗ sndPts 2 c (sendC (ublk m ρ c) c)) := by
  have hz : (![0, 0, 0] : Fin 3 → Nat) = fun _ => 0 := funext fun a => by fin_cases a <;> rfl
  rw [show View.readAt (Elt F) (Memref.whole cc0_stg0_0).view rW.toLoadRect (ublk m ρ c) = ublk m ρ c from
    Memref.readAt_unit_zero (Elt F) cc0_stg0_0 hz _ _, send_stores, ← pts_view, snd_split]

/-- A face landing in the neighbour's plane leaves that plane at the neighbour's `recvC`. -/
theorem land_entails (a : Fin 3) (c : Dev nD) (fd : ScrC F) :
    (((rcvPl a).view.loc (nb a c : Thread nD τ) ↦[(rcvPl a).view.set]{fullShare}
        ((rcvPl a).view.write (Elt F) fd ((sndPl a).view.read (Elt F) (sendC (ublk m ρ c) c)) Finset.univ)) : sProp 𝕄)
      ⊢ ((rcvPl a).view.loc (nb a c : Thread nD τ) ↦[(rcvPl a).view.set]{fullShare} recvC (ublk m ρ) (nb a c)) := by
  refine Entails.of_eq (BI.Region.is_congr fun i hi => ?_)
  have h := recv_landing (ublk m ρ) a (nb a c) fd i hi
  rw [nb_nb] at h
  exact h

/-! The planes at the three literal axes, and the tables at each axis. -/

abbrev sndPl0 : Memref sig .tc .vmem S16x16 .f32 := (sndM.slice rP0 (fun _ => rfl)).squeeze S16x16 squeezes_S1x16x16_S16x16
abbrev sndPl1 : Memref sig .tc .vmem S16x16 .f32 := (sndM.slice rP1 (fun _ => rfl)).squeeze S16x16 squeezes_S1x16x16_S16x16
abbrev sndPl2 : Memref sig .tc .vmem S16x16 .f32 := (sndM.slice rP2 (fun _ => rfl)).squeeze S16x16 squeezes_S1x16x16_S16x16
abbrev rcvPl0 : Memref sig .tc .vmem S16x16 .f32 := (rcvM.slice rP0 (fun _ => rfl)).squeeze S16x16 squeezes_S1x16x16_S16x16
abbrev rcvPl1 : Memref sig .tc .vmem S16x16 .f32 := (rcvM.slice rP1 (fun _ => rfl)).squeeze S16x16 squeezes_S1x16x16_S16x16
abbrev rcvPl2 : Memref sig .tc .vmem S16x16 .f32 := (rcvM.slice rP2 (fun _ => rfl)).squeeze S16x16 squeezes_S1x16x16_S16x16

theorem sndPl_0 : sndPl 0 = sndPl0 := rfl
theorem sndPl_1 : sndPl 1 = sndPl1 := rfl
theorem sndPl_2 : sndPl 2 = sndPl2 := rfl
theorem rcvPl_0 : rcvPl 0 = rcvPl0 := rfl
theorem rcvPl_1 : rcvPl 1 = rcvPl1 := rfl
theorem rcvPl_2 : rcvPl 2 = rcvPl2 := rfl

omit [FloatOps F] in
theorem dS0 (c : Dev nD) : (haloRd (F := F) m ρ).duties (sendCell 0 c) 0 = {0} := duties_send m ρ 0 c
omit [FloatOps F] in
theorem dR0 (c : Dev nD) : (haloRd (F := F) m ρ).duties (recvCell 0 c) 0 = {0} := duties_recv m ρ 0 c
omit [FloatOps F] in
theorem aS0 (c : Dev nD) (d : Fin 3) : (haloRd (F := F) m ρ).amount (sendCell 0 c) 0 d = N := amount_send m ρ 0 c d
omit [FloatOps F] in
theorem aR0 (c : Dev nD) (d : Fin 3) : (haloRd (F := F) m ρ).amount (recvCell 0 c) 0 d = N := amount_recv m ρ 0 c d
omit [FloatOps F] in
theorem eS0 (c : Dev nD) : (haloRd (F := F) m ρ).expect (sendCell 0 c) 0 = N := expect_send m ρ 0 c
omit [FloatOps F] in
theorem eR0 (c : Dev nD) : (haloRd (F := F) m ρ).expect (recvCell 0 c) 0 = N := expect_recv m ρ 0 c
omit [FloatOps F] in
theorem pS0 (c : Dev nD) : (haloRd (F := F) m ρ).payload (sendCell 0 c) 0 0
    = ((sndPl0).view.loc (c : Thread nD τ) ↦[(sndPl0).view.set]{fullShare} sendC (ublk m ρ c) c) := payload_send m ρ 0 c
omit [FloatOps F] in
theorem pR0 (c : Dev nD) : (haloRd (F := F) m ρ).payload (recvCell 0 c) 0 0
    = ((rcvPl0).view.loc (c : Thread nD τ) ↦[(rcvPl0).view.set]{fullShare} recvC (ublk m ρ) c) := payload_recv m ρ 0 c
omit [FloatOps F] in
theorem sndPts_0 (c : Dev nD) (f : ScrC F) : sndPts (F := F) 0 c f = ((sndPl0).view.loc (c : Thread nD τ) ↦[(sndPl0).view.set]{fullShare} f) := rfl
omit [FloatOps F] in
theorem rcvPts_0 (c : Dev nD) (f : ScrC F) : rcvPts (F := F) 0 c f = ((rcvPl0).view.loc (c : Thread nD τ) ↦[(rcvPl0).view.set]{fullShare} f) := rfl
/-- The face of `c` landing in plane 0 of its neighbour's receive buffer leaves that plane at the neighbour's `recvC`. -/
theorem land0 (c : Dev nD) (fd : ScrC F) :
    (((rcvPl0).view.loc (nb 0 c : Thread nD τ) ↦[(rcvPl0).view.set]{fullShare}
        ((rcvPl0).view.write (Elt F) fd ((sndPl0).view.read (Elt F) (sendC (ublk m ρ c) c)) Finset.univ)) : sProp 𝕄)
      ⊢ ((rcvPl0).view.loc (nb 0 c : Thread nD τ) ↦[(rcvPl0).view.set]{fullShare} recvC (ublk m ρ) (nb 0 c)) :=
  land_entails m ρ 0 c fd

omit [FloatOps F] in
theorem dS1 (c : Dev nD) : (haloRd (F := F) m ρ).duties (sendCell 1 c) 0 = {1} := duties_send m ρ 1 c
omit [FloatOps F] in
theorem dR1 (c : Dev nD) : (haloRd (F := F) m ρ).duties (recvCell 1 c) 0 = {1} := duties_recv m ρ 1 c
omit [FloatOps F] in
theorem aS1 (c : Dev nD) (d : Fin 3) : (haloRd (F := F) m ρ).amount (sendCell 1 c) 0 d = N := amount_send m ρ 1 c d
omit [FloatOps F] in
theorem aR1 (c : Dev nD) (d : Fin 3) : (haloRd (F := F) m ρ).amount (recvCell 1 c) 0 d = N := amount_recv m ρ 1 c d
omit [FloatOps F] in
theorem eS1 (c : Dev nD) : (haloRd (F := F) m ρ).expect (sendCell 1 c) 0 = N := expect_send m ρ 1 c
omit [FloatOps F] in
theorem eR1 (c : Dev nD) : (haloRd (F := F) m ρ).expect (recvCell 1 c) 0 = N := expect_recv m ρ 1 c
omit [FloatOps F] in
theorem pS1 (c : Dev nD) : (haloRd (F := F) m ρ).payload (sendCell 1 c) 0 1
    = ((sndPl1).view.loc (c : Thread nD τ) ↦[(sndPl1).view.set]{fullShare} sendC (ublk m ρ c) c) := payload_send m ρ 1 c
omit [FloatOps F] in
theorem pR1 (c : Dev nD) : (haloRd (F := F) m ρ).payload (recvCell 1 c) 0 1
    = ((rcvPl1).view.loc (c : Thread nD τ) ↦[(rcvPl1).view.set]{fullShare} recvC (ublk m ρ) c) := payload_recv m ρ 1 c
omit [FloatOps F] in
theorem sndPts_1 (c : Dev nD) (f : ScrC F) : sndPts (F := F) 1 c f = ((sndPl1).view.loc (c : Thread nD τ) ↦[(sndPl1).view.set]{fullShare} f) := rfl
omit [FloatOps F] in
theorem rcvPts_1 (c : Dev nD) (f : ScrC F) : rcvPts (F := F) 1 c f = ((rcvPl1).view.loc (c : Thread nD τ) ↦[(rcvPl1).view.set]{fullShare} f) := rfl
/-- The face of `c` landing in plane 1 of its neighbour's receive buffer leaves that plane at the neighbour's `recvC`. -/
theorem land1 (c : Dev nD) (fd : ScrC F) :
    (((rcvPl1).view.loc (nb 1 c : Thread nD τ) ↦[(rcvPl1).view.set]{fullShare}
        ((rcvPl1).view.write (Elt F) fd ((sndPl1).view.read (Elt F) (sendC (ublk m ρ c) c)) Finset.univ)) : sProp 𝕄)
      ⊢ ((rcvPl1).view.loc (nb 1 c : Thread nD τ) ↦[(rcvPl1).view.set]{fullShare} recvC (ublk m ρ) (nb 1 c)) :=
  land_entails m ρ 1 c fd

omit [FloatOps F] in
theorem dS2 (c : Dev nD) : (haloRd (F := F) m ρ).duties (sendCell 2 c) 0 = {2} := duties_send m ρ 2 c
omit [FloatOps F] in
theorem dR2 (c : Dev nD) : (haloRd (F := F) m ρ).duties (recvCell 2 c) 0 = {2} := duties_recv m ρ 2 c
omit [FloatOps F] in
theorem aS2 (c : Dev nD) (d : Fin 3) : (haloRd (F := F) m ρ).amount (sendCell 2 c) 0 d = N := amount_send m ρ 2 c d
omit [FloatOps F] in
theorem aR2 (c : Dev nD) (d : Fin 3) : (haloRd (F := F) m ρ).amount (recvCell 2 c) 0 d = N := amount_recv m ρ 2 c d
omit [FloatOps F] in
theorem eS2 (c : Dev nD) : (haloRd (F := F) m ρ).expect (sendCell 2 c) 0 = N := expect_send m ρ 2 c
omit [FloatOps F] in
theorem eR2 (c : Dev nD) : (haloRd (F := F) m ρ).expect (recvCell 2 c) 0 = N := expect_recv m ρ 2 c
omit [FloatOps F] in
theorem pS2 (c : Dev nD) : (haloRd (F := F) m ρ).payload (sendCell 2 c) 0 2
    = ((sndPl2).view.loc (c : Thread nD τ) ↦[(sndPl2).view.set]{fullShare} sendC (ublk m ρ c) c) := payload_send m ρ 2 c
omit [FloatOps F] in
theorem pR2 (c : Dev nD) : (haloRd (F := F) m ρ).payload (recvCell 2 c) 0 2
    = ((rcvPl2).view.loc (c : Thread nD τ) ↦[(rcvPl2).view.set]{fullShare} recvC (ublk m ρ) c) := payload_recv m ρ 2 c
omit [FloatOps F] in
theorem sndPts_2 (c : Dev nD) (f : ScrC F) : sndPts (F := F) 2 c f = ((sndPl2).view.loc (c : Thread nD τ) ↦[(sndPl2).view.set]{fullShare} f) := rfl
omit [FloatOps F] in
theorem rcvPts_2 (c : Dev nD) (f : ScrC F) : rcvPts (F := F) 2 c f = ((rcvPl2).view.loc (c : Thread nD τ) ↦[(rcvPl2).view.set]{fullShare} f) := rfl
/-- The face of `c` landing in plane 2 of its neighbour's receive buffer leaves that plane at the neighbour's `recvC`. -/
theorem land2 (c : Dev nD) (fd : ScrC F) :
    (((rcvPl2).view.loc (nb 2 c : Thread nD τ) ↦[(rcvPl2).view.set]{fullShare}
        ((rcvPl2).view.write (Elt F) fd ((sndPl2).view.read (Elt F) (sendC (ublk m ρ c) c)) Finset.univ)) : sProp 𝕄)
      ⊢ ((rcvPl2).view.loc (nb 2 c : Thread nD τ) ↦[(rcvPl2).view.set]{fullShare} recvC (ublk m ρ) (nb 2 c)) :=
  land_entails m ρ 2 c fd

attribute [local sl_rounds] dS0 dS1 dS2 dR0 dR1 dR2 aS0 aS1 aS2 aR0 aR1 aR2 eS0 eS1 eS2 eR0 eR1 eR2 pS0 pS1 pS2 pR0 pR1 pR2

omit [FloatOps F] in
/-- The barrier round's payloads, plane by plane. -/
theorem bar_payloads_lit (c : Dev nD) :
    bigSep Finset.univ (fun d => (haloRd (F := F) m ρ).payload (barCell c) 0 d)
      = iprop(((∃ f, ((rcvPl0).view.loc (nb 0 c : Thread nD τ) ↦[(rcvPl0).view.set]{fullShare} f)) ∗ reached ER (recvCell 0 (nb 0 c)) 0)
          ∗ ((∃ f, ((rcvPl1).view.loc (nb 1 c : Thread nD τ) ↦[(rcvPl1).view.set]{fullShare} f)) ∗ reached ER (recvCell 1 (nb 1 c)) 0)
          ∗ ((∃ f, ((rcvPl2).view.loc (nb 2 c : Thread nD τ) ↦[(rcvPl2).view.set]{fullShare} f)) ∗ reached ER (recvCell 2 (nb 2 c)) 0)) :=
  bar_payloads m ρ c

/-- The send buffer after the three face stores, as its three planes. -/
theorem snd_ready_lit (c : Dev nD) (fs0 : ScrC F) :
    ((View.loc (c : Thread nD τ) (Memref.whole cc0_scratch0).view) ↦{fullShare}
        ((sndM.access rP2 : View sig .tc _ _ _).write (Elt F) ((sndM.access rP1 : View sig .tc _ _ _).write (Elt F)
          ((sndM.access rP0 : View sig .tc _ _ _).write (Elt F) fs0
            (k0_pay2 (mxW c) (View.readAt (Elt F) (Memref.whole cc0_stg0_0).view rW.toLoadRect (ublk m ρ c))) Finset.univ)
            (k0_pay3 (myW c) (View.readAt (Elt F) (Memref.whole cc0_stg0_0).view rW.toLoadRect (ublk m ρ c))) Finset.univ)
            (k0_pay4 (mzW c) (View.readAt (Elt F) (Memref.whole cc0_stg0_0).view rW.toLoadRect (ublk m ρ c))) Finset.univ) : sProp 𝕄)
      ⊢ iprop(((sndPl0).view.loc (c : Thread nD τ) ↦[(sndPl0).view.set]{fullShare} sendC (ublk m ρ c) c)
          ∗ ((sndPl1).view.loc (c : Thread nD τ) ↦[(sndPl1).view.set]{fullShare} sendC (ublk m ρ c) c)
          ∗ ((sndPl2).view.loc (c : Thread nD τ) ↦[(sndPl2).view.set]{fullShare} sendC (ublk m ρ c) c)) :=
  snd_ready m ρ c fs0

set_option maxHeartbeats 2000000 in
/-- The transfer of face 0: plane 0 of `c`'s send buffer into plane 0 of the receive buffer of its neighbour along axis 0. -/
theorem wp_face0 (K : Dev nD × Fin 7 → ℕ) (c n : Dev nD) (hn : n = nb 0 c)
    {hsc : (rcvPl0 : Memref sig (Dev.tc n : Thread nD τ).2.kind .vmem S16x16 .f32).view.ref.isScScratch = false}
    {hsrc : (sndPl0 : Memref sig .tc .vmem S16x16 .f32).view.WordExact} {hdst : (rcvPl0 : Memref sig .tc .vmem S16x16 .f32).view.WordExact}
    {hsem : DmaTarget.Typed .vmem (.dma (recvS 0)) (.remote (Dev.tc n : Thread nD τ) (rcvPl0 : Memref sig .tc .vmem S16x16 .f32) (.dma (sendS 0)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 0 (nb 0 c)) () N) (W : Waits sig Unit) :
    iprop(cellInv ER (haloRd m ρ) (K (c, 1)) (sendCell 0 c) ∗ cellInv ER (haloRd m ρ) (K (nb 0 c, 4)) (recvCell 0 (nb 0 c))
        ∗ ((sndPl0).view.loc (c : Thread nD τ) ↦[(sndPl0).view.set]{fullShare} sendC (ublk m ρ c) c)
        ∗ ((rcvPl0).view.loc (nb 0 c : Thread nD τ) ↦[(rcvPl0).view.set]{fullShare} fn)
        ∗ owes (c : Thread nD τ) O₀' W
        ∗ dutyTok ER (sendCell 0 c) 0 0 ∗ reached ER (sendCell 0 c) 0
        ∗ dutyTok ER (recvCell 0 (nb 0 c)) 0 0 ∗ reached ER (recvCell 0 (nb 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl0 (.remote (Dev.tc n : Thread nD τ) rcvPl0 (.dma (sendS 0)) hsc) (.dma (recvS 0)) hsrc hdst hsem) k) Q) := by
  subst hn
  exact Rounds.wp_send_pointsTo 𝒱₀ ER (haloRd m ρ) (c : Thread nD τ) none (c' := (nb 0 c : Thread nD τ))
    (src := sndPl0) (dst := rcvPl0) (q := fullShare) (fs := sendC (ublk m ρ c) c) (κ₁ := K (c, 1)) (κ₂ := K (nb 0 c, 4))
    (r₁ := 0) (r₂ := 0) (d₁ := 0) (d₂ := 0) (fd := fn)
    (by rw [dS0]; exact Finset.mem_singleton_self _) (by rw [dR0]; exact Finset.mem_singleton_self _)
    () () N rfl (aS0 m ρ c 0) (aR0 m ρ (nb 0 c) 0) O hO (W := W)
    (by rw [pS0]) (by rw [pR0]; exact land0 m ρ c fn)

set_option maxHeartbeats 2000000 in
/-- The transfer of face 1: plane 1 of `c`'s send buffer into plane 1 of the receive buffer of its neighbour along axis 1. -/
theorem wp_face1 (K : Dev nD × Fin 7 → ℕ) (c n : Dev nD) (hn : n = nb 1 c)
    {hsc : (rcvPl1 : Memref sig (Dev.tc n : Thread nD τ).2.kind .vmem S16x16 .f32).view.ref.isScScratch = false}
    {hsrc : (sndPl1 : Memref sig .tc .vmem S16x16 .f32).view.WordExact} {hdst : (rcvPl1 : Memref sig .tc .vmem S16x16 .f32).view.WordExact}
    {hsem : DmaTarget.Typed .vmem (.dma (recvS 1)) (.remote (Dev.tc n : Thread nD τ) (rcvPl1 : Memref sig .tc .vmem S16x16 .f32) (.dma (sendS 1)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 1 (nb 1 c)) () N) (W : Waits sig Unit) :
    iprop(cellInv ER (haloRd m ρ) (K (c, 2)) (sendCell 1 c) ∗ cellInv ER (haloRd m ρ) (K (nb 1 c, 5)) (recvCell 1 (nb 1 c))
        ∗ ((sndPl1).view.loc (c : Thread nD τ) ↦[(sndPl1).view.set]{fullShare} sendC (ublk m ρ c) c)
        ∗ ((rcvPl1).view.loc (nb 1 c : Thread nD τ) ↦[(rcvPl1).view.set]{fullShare} fn)
        ∗ owes (c : Thread nD τ) O₀' W
        ∗ dutyTok ER (sendCell 1 c) 0 1 ∗ reached ER (sendCell 1 c) 0
        ∗ dutyTok ER (recvCell 1 (nb 1 c)) 0 1 ∗ reached ER (recvCell 1 (nb 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl1 (.remote (Dev.tc n : Thread nD τ) rcvPl1 (.dma (sendS 1)) hsc) (.dma (recvS 1)) hsrc hdst hsem) k) Q) := by
  subst hn
  exact Rounds.wp_send_pointsTo 𝒱₀ ER (haloRd m ρ) (c : Thread nD τ) none (c' := (nb 1 c : Thread nD τ))
    (src := sndPl1) (dst := rcvPl1) (q := fullShare) (fs := sendC (ublk m ρ c) c) (κ₁ := K (c, 2)) (κ₂ := K (nb 1 c, 5))
    (r₁ := 0) (r₂ := 0) (d₁ := 1) (d₂ := 1) (fd := fn)
    (by rw [dS1]; exact Finset.mem_singleton_self _) (by rw [dR1]; exact Finset.mem_singleton_self _)
    () () N rfl (aS1 m ρ c 1) (aR1 m ρ (nb 1 c) 1) O hO (W := W)
    (by rw [pS1]) (by rw [pR1]; exact land1 m ρ c fn)

set_option maxHeartbeats 2000000 in
/-- The transfer of face 2: plane 2 of `c`'s send buffer into plane 2 of the receive buffer of its neighbour along axis 2. -/
theorem wp_face2 (K : Dev nD × Fin 7 → ℕ) (c n : Dev nD) (hn : n = nb 2 c)
    {hsc : (rcvPl2 : Memref sig (Dev.tc n : Thread nD τ).2.kind .vmem S16x16 .f32).view.ref.isScScratch = false}
    {hsrc : (sndPl2 : Memref sig .tc .vmem S16x16 .f32).view.WordExact} {hdst : (rcvPl2 : Memref sig .tc .vmem S16x16 .f32).view.WordExact}
    {hsem : DmaTarget.Typed .vmem (.dma (recvS 2)) (.remote (Dev.tc n : Thread nD τ) (rcvPl2 : Memref sig .tc .vmem S16x16 .f32) (.dma (sendS 2)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 2 (nb 2 c)) () N) (W : Waits sig Unit) :
    iprop(cellInv ER (haloRd m ρ) (K (c, 3)) (sendCell 2 c) ∗ cellInv ER (haloRd m ρ) (K (nb 2 c, 6)) (recvCell 2 (nb 2 c))
        ∗ ((sndPl2).view.loc (c : Thread nD τ) ↦[(sndPl2).view.set]{fullShare} sendC (ublk m ρ c) c)
        ∗ ((rcvPl2).view.loc (nb 2 c : Thread nD τ) ↦[(rcvPl2).view.set]{fullShare} fn)
        ∗ owes (c : Thread nD τ) O₀' W
        ∗ dutyTok ER (sendCell 2 c) 0 2 ∗ reached ER (sendCell 2 c) 0
        ∗ dutyTok ER (recvCell 2 (nb 2 c)) 0 2 ∗ reached ER (recvCell 2 (nb 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl2 (.remote (Dev.tc n : Thread nD τ) rcvPl2 (.dma (sendS 2)) hsc) (.dma (recvS 2)) hsrc hdst hsem) k) Q) := by
  subst hn
  exact Rounds.wp_send_pointsTo 𝒱₀ ER (haloRd m ρ) (c : Thread nD τ) none (c' := (nb 2 c : Thread nD τ))
    (src := sndPl2) (dst := rcvPl2) (q := fullShare) (fs := sendC (ublk m ρ c) c) (κ₁ := K (c, 3)) (κ₂ := K (nb 2 c, 6))
    (r₁ := 0) (r₂ := 0) (d₁ := 2) (d₂ := 2) (fd := fn)
    (by rw [dS2]; exact Finset.mem_singleton_self _) (by rw [dR2]; exact Finset.mem_singleton_self _)
    () () N rfl (aS2 m ρ c 2) (aR2 m ρ (nb 2 c) 2) O hO (W := W)
    (by rw [pS2]) (by rw [pR2]; exact land2 m ρ c fn)

omit [FloatOps F] in
/-- Receive cell 0's round hands back plane 0 of the receive buffer at its final contents. -/
theorem recv_pay0 (c : Dev nD) :
    bigSep ((haloRd (F := F) m ρ).duties (recvCell 0 c) 0) (fun d => (haloRd (F := F) m ρ).payload (recvCell 0 c) 0 d)
      = ((rcvPl0).view.loc (c : Thread nD τ) ↦[(rcvPl0).view.set]{fullShare} recvC (ublk m ρ) c) := by
  rw [dR0, bigSep_singleton, pR0]
omit [FloatOps F] in
theorem send_pay0 (c : Dev nD) :
    bigSep ((haloRd (F := F) m ρ).duties (sendCell 0 c) 0) (fun d => (haloRd (F := F) m ρ).payload (sendCell 0 c) 0 d)
      = ((sndPl0).view.loc (c : Thread nD τ) ↦[(sndPl0).view.set]{fullShare} sendC (ublk m ρ c) c) := by
  rw [dS0, bigSep_singleton, pS0]
/-- A load of plane 0 through the whole receive buffer touches plane 0 only. -/
theorem load_sub0 (c : Dev nD) : (rcvM.view.setOn rP0.toLoadRect.set : Finset (Idx ((rcvM : Memref sig .tc .vmem S3x16x16 .f32).view.loc (c : Thread nD τ)))) ⊆ (rcvPl0).view.set := by
  have hs : ((rcvPl0).view.set : Finset S3x16x16.Idx) = rP0.set := by
    show (((View.whole cc0_scratch1).slice rP0).reshape S16x16 _).set = _
    rw [View.set_reshape, View.set_slice_whole]
  show (View.whole cc0_scratch1).setOn rP0.toLoadRect.set ⊆ ((rcvPl0).view.set : Finset S3x16x16.Idx)
  rw [hs]; unfold View.setOn; rw [View.emb_whole, Finset.map_refl]

omit [FloatOps F] in
/-- Receive cell 1's round hands back plane 1 of the receive buffer at its final contents. -/
theorem recv_pay1 (c : Dev nD) :
    bigSep ((haloRd (F := F) m ρ).duties (recvCell 1 c) 0) (fun d => (haloRd (F := F) m ρ).payload (recvCell 1 c) 0 d)
      = ((rcvPl1).view.loc (c : Thread nD τ) ↦[(rcvPl1).view.set]{fullShare} recvC (ublk m ρ) c) := by
  rw [dR1, bigSep_singleton, pR1]
omit [FloatOps F] in
theorem send_pay1 (c : Dev nD) :
    bigSep ((haloRd (F := F) m ρ).duties (sendCell 1 c) 0) (fun d => (haloRd (F := F) m ρ).payload (sendCell 1 c) 0 d)
      = ((sndPl1).view.loc (c : Thread nD τ) ↦[(sndPl1).view.set]{fullShare} sendC (ublk m ρ c) c) := by
  rw [dS1, bigSep_singleton, pS1]
/-- A load of plane 1 through the whole receive buffer touches plane 1 only. -/
theorem load_sub1 (c : Dev nD) : (rcvM.view.setOn rP1.toLoadRect.set : Finset (Idx ((rcvM : Memref sig .tc .vmem S3x16x16 .f32).view.loc (c : Thread nD τ)))) ⊆ (rcvPl1).view.set := by
  have hs : ((rcvPl1).view.set : Finset S3x16x16.Idx) = rP1.set := by
    show (((View.whole cc0_scratch1).slice rP1).reshape S16x16 _).set = _
    rw [View.set_reshape, View.set_slice_whole]
  show (View.whole cc0_scratch1).setOn rP1.toLoadRect.set ⊆ ((rcvPl1).view.set : Finset S3x16x16.Idx)
  rw [hs]; unfold View.setOn; rw [View.emb_whole, Finset.map_refl]

omit [FloatOps F] in
/-- Receive cell 2's round hands back plane 2 of the receive buffer at its final contents. -/
theorem recv_pay2 (c : Dev nD) :
    bigSep ((haloRd (F := F) m ρ).duties (recvCell 2 c) 0) (fun d => (haloRd (F := F) m ρ).payload (recvCell 2 c) 0 d)
      = ((rcvPl2).view.loc (c : Thread nD τ) ↦[(rcvPl2).view.set]{fullShare} recvC (ublk m ρ) c) := by
  rw [dR2, bigSep_singleton, pR2]
omit [FloatOps F] in
theorem send_pay2 (c : Dev nD) :
    bigSep ((haloRd (F := F) m ρ).duties (sendCell 2 c) 0) (fun d => (haloRd (F := F) m ρ).payload (sendCell 2 c) 0 d)
      = ((sndPl2).view.loc (c : Thread nD τ) ↦[(sndPl2).view.set]{fullShare} sendC (ublk m ρ c) c) := by
  rw [dS2, bigSep_singleton, pS2]
/-- A load of plane 2 through the whole receive buffer touches plane 2 only. -/
theorem load_sub2 (c : Dev nD) : (rcvM.view.setOn rP2.toLoadRect.set : Finset (Idx ((rcvM : Memref sig .tc .vmem S3x16x16 .f32).view.loc (c : Thread nD τ)))) ⊆ (rcvPl2).view.set := by
  have hs : ((rcvPl2).view.set : Finset S3x16x16.Idx) = rP2.set := by
    show (((View.whole cc0_scratch1).slice rP2).reshape S16x16 _).set = _
    rw [View.set_reshape, View.set_slice_whole]
  show (View.whole cc0_scratch1).setOn rP2.toLoadRect.set ⊆ ((rcvPl2).view.set : Finset S3x16x16.Idx)
  rw [hs]; unfold View.setOn; rw [View.emb_whole, Finset.map_refl]

/-! The output block as the four stores leave it over any prior contents `j`, each load reading what the stores before it left. -/

abbrev uRead (c : Dev nD) : BlkC F := View.readAt (Elt F) (Memref.whole cc0_stg0_0).view rW.toLoadRect (ublk m ρ c)
def w1 (c : Dev nD) (j : BlkC F) : BlkC F :=
  (outM.access rW : View sig .tc _ _ _).write (Elt F) j
    (k0_pay10 (mxW c) (myW c) (mzW c) (k0_pay1 (uRead m ρ c)) (k0_pay5 (F := F)) (k0_pay6 (uRead m ρ c)) (k0_pay7 (uRead m ρ c))) Finset.univ
def w2 (c : Dev nD) (j : BlkC F) : BlkC F :=
  (outM.access (rX c) : View sig .tc _ _ _).write (Elt F) (w1 m ρ c j)
    (k0_pay14 (k0_pay12 (myW c) (mzW c) rowIota) (View.readAt (Elt F) outM.view (rX c).toLoadRect (w1 m ρ c j))
      (View.readAt (Elt F) rcvM.view rP0.toLoadRect (recvC (ublk m ρ) c))) Finset.univ
def w3 (c : Dev nD) (j : BlkC F) : BlkC F :=
  (outM.access (rY c) : View sig .tc _ _ _).write (Elt F) (w2 m ρ c j)
    (k0_pay15 (k0_pay13 (mxW c) (mzW c) rowIota) (View.readAt (Elt F) outM.view (rY c).toLoadRect (w2 m ρ c j))
      (View.readAt (Elt F) rcvM.view rP1.toLoadRect (recvC (ublk m ρ) c))) Finset.univ
def w4 (c : Dev nD) (j : BlkC F) : BlkC F :=
  (outM.access rW : View sig .tc _ _ _).write (Elt F) (w3 m ρ c j)
    (k0_pay16 (k0_pay8 (mxW c)) (k0_pay9 (myW c)) (Scalar.muli (Scalar.subi 1#32 (mzW c)) 15#32)
      (View.readAt (Elt F) outM.view rW.toLoadRect (w3 m ρ c j))
      (View.readAt (Elt F) rcvM.view rP2.toLoadRect (recvC (ublk m ρ) c))) Finset.univ

theorem hz3 : (![0, 0, 0] : Fin 3 → Nat) = fun _ => 0 := funext fun a => by fin_cases a <;> rfl

theorem w1_eq (c : Dev nD) (j : BlkC F) : w1 m ρ c j = out1 (ublk m ρ c) c := by
  unfold w1 out1
  rw [show uRead m ρ c = ublk m ρ c from Memref.readAt_unit_zero (Elt F) cc0_stg0_0 hz3 _ _]
  exact Memref.write_access_unit_zero_univ (Elt F) cc0_stg1_0 hz3 _ _ _
theorem w2_eq (c : Dev nD) (j : BlkC F) : w2 m ρ c j = out2 (ublk m ρ) c := by unfold w2 out2; rw [w1_eq]
theorem w3_eq (c : Dev nD) (j : BlkC F) : w3 m ρ c j = out3 (ublk m ρ) c := by unfold w3 out3; rw [w2_eq]
/-- The four stores leave `outAt`. -/
theorem w4_eq (c : Dev nD) (j : BlkC F) : w4 m ρ c j = outAt (ublk m ρ) c := by
  unfold w4 outAt; rw [w3_eq]
  refine (Memref.write_access_unit_zero_univ (Elt F) cc0_stg1_0 hz3 _ _ _).trans ?_
  rw [show View.readAt (Elt F) outM.view rW.toLoadRect (out3 (ublk m ρ) c) = out3 (ublk m ρ) c from
    Memref.readAt_unit_zero (Elt F) cc0_stg1_0 hz3 _ _]

omit [FloatOps F] in
theorem rcvPts_lit0 (c : Dev nD) (f : ScrC F) :
    rcvPts (F := F) 0 c f = ((View.loc (c : Thread nD τ) rcvM.view) ↦[(rcvPl0).view.set]{fullShare} f) := rfl
omit [FloatOps F] in
theorem rcvPts_lit1 (c : Dev nD) (f : ScrC F) :
    rcvPts (F := F) 1 c f = ((View.loc (c : Thread nD τ) rcvM.view) ↦[(rcvPl1).view.set]{fullShare} f) := rfl
omit [FloatOps F] in
theorem rcvPts_lit2 (c : Dev nD) (f : ScrC F) :
    rcvPts (F := F) 2 c f = ((View.loc (c : Thread nD τ) rcvM.view) ↦[(rcvPl2).view.set]{fullShare} f) := rfl

set_option maxHeartbeats 4000000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨#HIbar, #HIs0, #HIs1, #HIs2, #HIr0, #HIr1, #HIr2, #HIbn0, #HIbn1, #HIbn2, #HIrn0, #HIrn1, #HIrn2⟩, HatB, HatS0, HatS1, HatS2, HatR0, HatR1, HatR2, #HrBn0, #HrBn1, #HrBn2, #HrRn0, #HrRn1, #HrRn2, #HrS0, #HrS1, #HrS2, #HrR0, #HrR1, #HrR2, HtBn0, HtBn1, HtBn2, HtRn0, HtRn1, HtRn2, HtS0, HtS1, HtS2⟩, HcB, HcR0, HcR1, HcR2, #Hlev, ⟨%fs0, Hsnd⟩, ⟨%fr0, Hrcv⟩⟩,
    Ho, ⟨%d0, %g0, %hg0, Hx⟩, ⟨%d1, %g1, %hg1, Hout⟩⟩, Hk⟩
  have hx : g0 = ublk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold sndW rcvW
  ihave Hr := (Entails.of_eq (rcv_split c fr0)) $$ Hrcv
  unfold rcvPts
  icases Hr with ⟨Hr0, Hr1, Hr2⟩
  unfold O₀ O₁ O₂
  ihave Hx := (Entails.of_eq (pts_view c cc0_stg0_0 (ublk m ρ c))) $$ Hx
  ihave Hout := (Entails.of_eq (pts_view c cc0_stg1_0 g1)) $$ Hout
  ihave Hsnd := (Entails.of_eq (pts_view c cc0_scratch0 fs0)) $$ Hsnd
  have hmb := mayWait_bar (F := F) c
  sl_unfold [cc0_body]
  sl_exec
  ihave Hp := (Entails.of_eq (bar_payloads_lit m ρ c)) $$ HatB_pay1
  icases Hp with ⟨⟨⟨%fn0, Hn0⟩, #Hrn0'⟩, ⟨⟨%fn1, Hn1⟩, #Hrn1'⟩, ⟨⟨%fn2, Hn2⟩, #Hrn2'⟩⟩
  sl_unfold_words
  ihave Hs : iprop(((sndPl0).view.loc (c : Thread nD τ) ↦[(sndPl0).view.set]{fullShare} sendC (ublk m ρ c) c)
          ∗ ((sndPl1).view.loc (c : Thread nD τ) ↦[(sndPl1).view.set]{fullShare} sendC (ublk m ρ c) c)
          ∗ ((sndPl2).view.loc (c : Thread nD τ) ↦[(sndPl2).view.set]{fullShare} sendC (ublk m ρ c) c)) $$ [Hsnd]
  · iapply (snd_ready_lit m ρ c fs0); iexact Hsnd
  icases Hs with ⟨Hs0, Hs1, Hs2⟩
  unfold OX
  iapply (wp_face0 m ρ K c _ (dev4_eq c) fn0 _ (tallyAt (recvCell 2 (nb 2 c)) () N + tallyAt (recvCell 1 (nb 1 c)) () N) rfl _) $$ [Hs0 Hn0 HO HtS0 HtRn0]
  · isplitr; · iexact HIs0
    isplitr; · iexact HIrn0
    isplitl [Hs0]; · iexact Hs0
    isplitl [Hn0]; · iexact Hn0
    isplitl [HO]; · iexact HO
    isplitl [HtS0]; · iexact HtS0
    isplitr; · iexact HrS0
    isplitl [HtRn0]; · iexact HtRn0
    iexact HrRn0
  iintro ⟨HcS0, HO⟩
  sl_exec
  iapply (wp_face1 m ρ K c _ (dev5_eq c) fn1 _ (tallyAt (recvCell 2 (nb 2 c)) () N) rfl _) $$ [Hs1 Hn1 HO HtS1 HtRn1]
  · isplitr; · iexact HIs1
    isplitr; · iexact HIrn1
    isplitl [Hs1]; · iexact Hs1
    isplitl [Hn1]; · iexact Hn1
    isplitl [HO]; · iexact HO
    isplitl [HtS1]; · iexact HtS1
    isplitr; · iexact HrS1
    isplitl [HtRn1]; · iexact HtRn1
    iexact HrRn1
  iintro ⟨HcS1, HO⟩
  sl_exec
  iapply (wp_face2 m ρ K c _ (dev6_eq c) fn2 _ (0) (zero_add _).symm _) $$ [Hs2 Hn2 HO HtS2 HtRn2]
  · isplitr; · iexact HIs2
    isplitr; · iexact HIrn2
    isplitl [Hs2]; · iexact Hs2
    isplitl [Hn2]; · iexact Hn2
    isplitl [HO]; · iexact HO
    isplitl [HtS2]; · iexact HtS2
    isplitr; · iexact HrS2
    isplitl [HtRn2]; · iexact HtRn2
    iexact HrRn2
  iintro ⟨HcS2, HO⟩
  sl_exec
  ihave Hq0 := (Entails.of_eq (recv_pay0 m ρ c)) $$ HatR0_pay1
  iapply (wp_load 𝒱₀ (c : Thread nD τ) none Set.univ (m := rcvM) (r := rP0.toLoadRect) (load_sub0 c)) $$ Hq0; iintro Hq0
  sl_exec
  ihave Hq1 := (Entails.of_eq (recv_pay1 m ρ c)) $$ HatR1_pay1
  iapply (wp_load 𝒱₀ (c : Thread nD τ) none Set.univ (m := rcvM) (r := rP1.toLoadRect) (load_sub1 c)) $$ Hq1; iintro Hq1
  sl_exec
  ihave Hq2 := (Entails.of_eq (recv_pay2 m ρ c)) $$ HatR2_pay1
  iapply (wp_load 𝒱₀ (c : Thread nD τ) none Set.univ (m := rcvM) (r := rP2.toLoadRect) (load_sub2 c)) $$ Hq2; iintro Hq2
  sl_exec
  ihave Hp0 := (Entails.of_eq (send_pay0 m ρ c)) $$ HatS0_pay1
  ihave Hp1 := (Entails.of_eq (send_pay1 m ρ c)) $$ HatS1_pay1
  ihave Hp2 := (Entails.of_eq (send_pay2 m ρ c)) $$ HatS2_pay1
  imod (Rounds.cell_close ER (haloRd m ρ) (Set.mem_univ (K (c, 1))) (fun h => h) (R := 1) (duties_later m ρ (sendCell 0 c))) $$ [HatS0] with HzS0
  · isplitr; · iexact HIs0
    iexact HatS0
  imod (Rounds.cell_close ER (haloRd m ρ) (Set.mem_univ (K (c, 2))) (fun h => h) (R := 1) (duties_later m ρ (sendCell 1 c))) $$ [HatS1] with HzS1
  · isplitr; · iexact HIs1
    iexact HatS1
  imod (Rounds.cell_close ER (haloRd m ρ) (Set.mem_univ (K (c, 3))) (fun h => h) (R := 1) (duties_later m ρ (sendCell 2 c))) $$ [HatS2] with HzS2
  · isplitr; · iexact HIs2
    iexact HatS2
  imod (Rounds.cell_close ER (haloRd m ρ) (Set.mem_univ (K (c, 4))) (fun h => h) (R := 1) (duties_later m ρ (recvCell 0 c))) $$ [HatR0] with HzR0
  · isplitr; · iexact HIr0
    iexact HatR0
  imod (Rounds.cell_close ER (haloRd m ρ) (Set.mem_univ (K (c, 5))) (fun h => h) (R := 1) (duties_later m ρ (recvCell 1 c))) $$ [HatR1] with HzR1
  · isplitr; · iexact HIr1
    iexact HatR1
  imod (Rounds.cell_close ER (haloRd m ρ) (Set.mem_univ (K (c, 6))) (fun h => h) (R := 1) (duties_later m ρ (recvCell 2 c))) $$ [HatR2] with HzR2
  · isplitr; · iexact HIr2
    iexact HatR2
  ihave Hsw : sndW c (sendC (ublk m ρ c) c) $$ [Hp0 Hp1 Hp2]
  · unfold sndW; rw [snd_split, sndPts_0, sndPts_1, sndPts_2]
    isplitl [Hp0]; · iexact Hp0
    isplitl [Hp1]; · iexact Hp1
    iexact Hp2
  ihave Hrw : rcvW c (recvC (ublk m ρ) c) $$ [Hq0 Hq1 Hq2]
  · unfold rcvW; rw [rcv_split, rcvPts_lit0, rcvPts_lit1, rcvPts_lit2]
    isplitl [Hq0]; · iexact Hq0
    isplitl [Hq1]; · iexact Hq1
    iexact Hq2
  sl_unfold_words
  ihave Ho : stg c cc0_stg1_0 (outAt (ublk m ρ) c) $$ [Hout]
  · iexists (outAt (ublk m ρ) c)
    isplitr; · (ipureintro; rfl)
    iapply (Entails.of_eq (congrArg (fun f => ((View.loc (c : Thread nD τ) (Memref.whole cc0_stg1_0).view ↦{fullShare} f : sProp 𝕄))) (w4_eq m ρ c _)))
    iexact Hout
  rw [wp_ret]; imodintro
  iapply Hk
  unfold bodyPost Φ₁ Dat.owesAt Pipeline.owesWithin
  rw [show (dats m ρ 0 c).owed t₀.succ = 0 from rfl]
  isplitl [Hsw Hrw HzS0 HzS1 HzS2 HzR0 HzR1 HzR2]
  · isplitl [Hsw]; · iexact Hsw
    isplitl [Hrw]; · iexact Hrw
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 1), ()) (insert (SemLoc.dma (sendS 0), ())
      (insert (SemLoc.dma (recvS 2), ()) (insert (SemLoc.dma (recvS 1), ()) (insert (SemLoc.dma (recvS 0), ())
        (insert (SemLoc.reg barS, ()) W)))))))
    isplitr; · ipureintro; exact fun _ _ => Or.inl trivial
    iexact HO
  isplitl [Hx]
  · iexists _; isplitr; · (ipureintro; rfl)
    iexact Hx
  iexact Ho

/-- info: 'Cert.KernelIdeal.Halo.sound_body' depends on axioms: [propext, Classical.choice, Quot.sound] -/
#guard_msgs in #print axioms sound_body

end Cert.KernelIdeal.Halo

end
-- ==== Proof.Kernel.Mesh.lean ====
import proofs.«900805_g7700000000000806_dist_halo3d_v7x_xyz2x2x2_s16_f32_1_alg».proof.Proof.Gen.Kernel
import proofs.«900805_g7700000000000806_dist_halo3d_v7x_xyz2x2x2_s16_f32_1_alg».proof.Proof.Gen.Kernel.Skeleton

/-!
# The mesh: eight devices on the corners of a cube

Device `c` sits at mesh coordinates `(c / 4, c / 2 % 2, c % 2)`. Its neighbour along axis `a` is the corner
that differs from it in coordinate `a` only; taking the neighbour twice along one axis returns to the start,
so along each axis the devices pair off. Every device id the kernel computes — three for its barrier
signals, three for its transfers — is one of these three neighbours.
-/

namespace Cert.Kernel.Halo

open Cert.Kernel Cert.Kernel.Gen
open Idealize.ShloMosaic

/-- The neighbour of `c` along mesh axis `a`: coordinate `a` flipped. -/
def nb : Fin 3 → Dev nD → Dev nD
  | 0, c => ⟨(c.val + 4) % 8, Nat.mod_lt _ (by decide)⟩
  | 1, c => ⟨if (c.val / 2) % 2 = 0 then c.val + 2 else c.val - 2, by have h8 : c.val < 8 := c.isLt; show _ < 8; split <;> omega⟩
  | 2, c => ⟨if c.val % 2 = 0 then c.val + 1 else c.val - 1, by have h8 : c.val < 8 := c.isLt; show _ < 8; split <;> omega⟩

theorem nb_nb (a : Fin 3) (c : Dev nD) : nb a (nb a c) = c := by revert a c; decide
theorem nb_ne (a : Fin 3) (c : Dev nD) : nb a c ≠ c := by revert a c; decide
theorem nb_axis_inj (c : Dev nD) {a b : Fin 3} (h : nb a c = nb b c) : a = b := by revert a b c; decide
theorem nb_inj (a : Fin 3) {c d : Dev nD} (h : nb a c = nb a d) : c = d := by
  have := congrArg (nb a) h; rwa [nb_nb, nb_nb] at this

/-- Along each axis the devices pair off: the neighbour map is a permutation that is its own inverse. -/
def nbEquiv (a : Fin 3) : Dev nD ≃ Dev nD := ⟨nb a, nb a, nb_nb a, nb_nb a⟩

/-- The kernel's device-id chains: the barrier signals and the transfers name the x-, y- and z-neighbour, in that order. -/
theorem dev1_eq (c : Dev nD) : (⟨k0_dev1 c, k0_dev1_lt c⟩ : Dev nD) = nb 0 c := Fin.ext ((k0_dev1_eq c).trans (by revert c; decide))
theorem dev2_eq (c : Dev nD) : (⟨k0_dev2 c, k0_dev2_lt c⟩ : Dev nD) = nb 1 c := Fin.ext ((k0_dev2_eq c).trans (by revert c; decide))
theorem dev3_eq (c : Dev nD) : (⟨k0_dev3 c, k0_dev3_lt c⟩ : Dev nD) = nb 2 c := Fin.ext ((k0_dev3_eq c).trans (by revert c; decide))
theorem dev4_eq (c : Dev nD) : (⟨k0_dev4 c, k0_dev4_lt c⟩ : Dev nD) = nb 0 c := Fin.ext ((k0_dev4_eq c).trans (by revert c; decide))
theorem dev5_eq (c : Dev nD) : (⟨k0_dev5 c, k0_dev5_lt c⟩ : Dev nD) = nb 1 c := Fin.ext ((k0_dev5_eq c).trans (by revert c; decide))
theorem dev6_eq (c : Dev nD) : (⟨k0_dev6 c, k0_dev6_lt c⟩ : Dev nD) = nb 2 c := Fin.ext ((k0_dev6_eq c).trans (by revert c; decide))

/-- A device's mesh coordinates as the kernel computes them from its id: words that are `0` or `1`. -/
def mxW (c : Dev nD) : BitVec 32 := Scalar.remsi (Scalar.divsi (Dev.word c) 4#32) 2#32
def myW (c : Dev nD) : BitVec 32 := Scalar.remsi (Scalar.divsi (Dev.word c) 2#32) 2#32
def mzW (c : Dev nD) : BitVec 32 := Scalar.remsi (Scalar.divsi (Dev.word c) 1#32) 2#32

theorem mxW_eq (c : Dev nD) : mxW c = BitVec.ofNat 32 (c.val / 4) := by revert c; decide
theorem myW_eq (c : Dev nD) : myW c = BitVec.ofNat 32 (c.val / 2 % 2) := by revert c; decide
theorem mzW_eq (c : Dev nD) : mzW c = BitVec.ofNat 32 (c.val % 2) := by revert c; decide

end Cert.Kernel.Halo
-- ==== Proof.Kernel.Contents.lean ====
import proofs.«900805_g7700000000000806_dist_halo3d_v7x_xyz2x2x2_s16_f32_1_alg».proof.Proof.Kernel.Mesh
import Idealize.ShloMosaic.Lib.ValueIdx

/-!
# What the buffers hold

Per device `c`, with `u c` its block of the input:

* the SEND buffer (three 16 × 16 planes) holds, in plane `a`, the face of `u c` that touches the neighbour
  along axis `a`: the last plane of the block on that axis when `c`'s coordinate there is `0`, the first
  when it is `1`;
* the RECEIVE buffer holds, in plane `a`, plane `a` of the send buffer of the neighbour along axis `a`;
* the OUTPUT block is built in four steps: the stencil of the block alone, with zeros for the neighbours
  that lie outside it, masked to the interior of the whole cube; then the received x-face added into the
  plane `x = 15·(1 − mx)`, the received y-face into the plane `y = 15·(1 − my)`, and the received z-face
  into the plane `z = 15·(1 − mz)`, each under the interior mask of the two other coordinates.
-/

noncomputable section

namespace Cert.Kernel.Halo

open Cert.Kernel Cert.Kernel.Gen
open Idealize.ShloMosaic Idealize.ShloMosaic.TcCoe

variable {F : FTy → Type} [FloatOps F]

/-- A block of the input or of the output; a scratch buffer of three planes. -/
abbrev BlkC (F : FTy → Type) : Type := (cc0_stg0_0 : Ref sig .tc).ty.Contents (Elt F)
abbrev ScrC (F : FTy → Type) : Type := (cc0_scratch0 : Ref sig .tc).ty.Contents (Elt F)

/-- The four buffers the body sees. -/
abbrev inM : Memref sig .tc .vmem S16x16x16 .f32 := Memref.whole cc0_stg0_0
abbrev outM : Memref sig .tc .vmem S16x16x16 .f32 := Memref.whole cc0_stg1_0
abbrev sndM : Memref sig .tc .vmem S3x16x16 .f32 := Memref.whole cc0_scratch0
abbrev rcvM : Memref sig .tc .vmem S3x16x16 .f32 := Memref.whole cc0_scratch1

/-- The whole block; plane `a` of a scratch buffer; the x- and y-planes the received faces are added into. -/
abbrev rW : Rect S16x16x16 := Rect.unit (s := S16x16x16) ![0, 0, 0] S16x16x16.size inb_S16x16x16_S16x16x16_0_0_0
abbrev rP0 : Rect S3x16x16 := Rect.unit (s := S3x16x16) ![0, 0, 0] S1x16x16.size inb_S3x16x16_S1x16x16_0_0_0
abbrev rP1 : Rect S3x16x16 := Rect.unit (s := S3x16x16) ![1, 0, 0] S1x16x16.size inb_S3x16x16_S1x16x16_1_0_0
abbrev rP2 : Rect S3x16x16 := Rect.unit (s := S3x16x16) ![2, 0, 0] S1x16x16.size inb_S3x16x16_S1x16x16_2_0_0
abbrev rX (c : Dev nD) : Rect S16x16x16 := Rect.unit (s := S16x16x16) (k0_off1 c) S1x16x16.size (k0_off1_inb c)
abbrev rY (c : Dev nD) : Rect S16x16x16 := Rect.unit (s := S16x16x16) (k0_off2 c) S16x1x16.size (k0_off2_inb c)

/-- Plane `a` of a scratch buffer as a rectangle, and as the 16 × 16 memref a transfer moves. -/
abbrev rP (a : Fin 3) : Rect S3x16x16 :=
  Rect.unit (s := S3x16x16) ![a.val, 0, 0] S1x16x16.size (by intro b; fin_cases a <;> fin_cases b <;> decide)
abbrev sndPl (a : Fin 3) : Memref sig .tc .vmem S16x16 .f32 :=
  (sndM.slice (rP a) (fun _ => rfl)).squeeze S16x16 squeezes_S1x16x16_S16x16
abbrev rcvPl (a : Fin 3) : Memref sig .tc .vmem S16x16 .f32 :=
  (rcvM.slice (rP a) (fun _ => rfl)).squeeze S16x16 squeezes_S1x16x16_S16x16

/-- The send buffer of device `c` whose input block is `u`: plane `a` is the face towards the neighbour along `a`. -/
def sendC (u : BlkC F) (c : Dev nD) : ScrC F := fun i =>
  if (i 0).val = 0 then k0_pay2 (mxW c) u (ValueIdx.ix3 (0 : Fin 1) (i 1) (i 2))
  else if (i 0).val = 1 then k0_pay3 (myW c) u (ValueIdx.ix3 (0 : Fin 1) (i 1) (i 2))
  else k0_pay4 (mzW c) u (ValueIdx.ix3 (0 : Fin 1) (i 1) (i 2))

/-- The receive buffer of device `c`, every device `d` holding the input block `us d`: plane `a` is plane `a`
    of the send buffer of the neighbour along `a`. -/
def recvC (us : Dev nD → BlkC F) (c : Dev nD) : ScrC F := fun i => sendC (us (nb (i 0) c)) (nb (i 0) c) i

/-- The row-index vector the two face masks are computed from. -/
abbrev rowIota : IVec S16x16 32 := iota .tc S16x16 32 [0] iota_S16x16_d0_w32

/-- The output block after the local stencil. -/
def out1 (u : BlkC F) (c : Dev nD) : BlkC F :=
  k0_pay10 (mxW c) (myW c) (mzW c) (k0_pay1 u) (k0_pay5 (F := F)) (k0_pay6 u) (k0_pay7 u)

/-- … after the x-face is added, -/
def out2 (us : Dev nD → BlkC F) (c : Dev nD) : BlkC F :=
  ((outM.access (rX c) : View sig .tc _ _ _).write (Elt F) (out1 (us c) c)
    (k0_pay14 (k0_pay12 (myW c) (mzW c) rowIota)
      (outM.view.readAt (Elt F) (rX c).toLoadRect (out1 (us c) c))
      (rcvM.view.readAt (Elt F) rP0.toLoadRect (recvC us c))) Finset.univ)

/-- … after the y-face, -/
def out3 (us : Dev nD → BlkC F) (c : Dev nD) : BlkC F :=
  ((outM.access (rY c) : View sig .tc _ _ _).write (Elt F) (out2 us c)
    (k0_pay15 (k0_pay13 (mxW c) (mzW c) rowIota)
      (outM.view.readAt (Elt F) (rY c).toLoadRect (out2 us c))
      (rcvM.view.readAt (Elt F) rP1.toLoadRect (recvC us c))) Finset.univ)

/-- … and after the z-face: what device `c` returns. -/
def outAt (us : Dev nD → BlkC F) (c : Dev nD) : BlkC F :=
  k0_pay16 (k0_pay8 (mxW c)) (k0_pay9 (myW c)) (Scalar.muli (Scalar.subi 1#32 (mzW c)) 15#32) (out3 us c)
    (rcvM.view.readAt (Elt F) rP2.toLoadRect (recvC us c))

end Cert.Kernel.Halo

end
-- ==== Proof.Kernel.Sched.lean ====
import proofs.«900805_g7700000000000806_dist_halo3d_v7x_xyz2x2x2_s16_f32_1_alg».proof.Proof.Kernel.Contents
import proofs.«900805_g7700000000000806_dist_halo3d_v7x_xyz2x2x2_s16_f32_1_alg».proof.Proof.Gen.Kernel.Launch
import proofs.«900805_g7700000000000806_dist_halo3d_v7x_xyz2x2x2_s16_f32_1_alg».proof.Proof.Gen.Kernel.Points
import Idealize.ShloMosaic.Lib.Pipeline.Launch
import Idealize.ShloMosaic.Lib.Pipeline.Kit
import Idealize.ShloMosaic.Lib.Tactic

/-!
# The protocol

Each device owns seven semaphore cells: the barrier, and per axis `a` a send cell and a receive cell.

* BARRIER of `c`: one round of three unit duties, duty `a` paid by the neighbour along `a`, which hands `c`
  plane `a` of ITS OWN receive buffer (at whatever it holds) together with the fact that its receive cell `a`
  stands at round `0`: exactly what `c` needs to transfer its face into that plane.
* RECEIVE cell `a` of `c`: one duty, paid by the transfer of the neighbour along `a`; it hands `c` plane `a` of
  its receive buffer back, now holding that neighbour's face.
* SEND cell `a` of `c`: one duty, paid by `c`'s own transfer; it hands plane `a` of the send buffer back.

A device signals its three neighbours, then waits for its own barrier while still owing the three
transfers: the barrier lies below the receive cells. At every later wait it owes nothing.
-/

noncomputable section

namespace Cert.Kernel.Halo

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's, whose duties are named by axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## Semaphores, cells, planes -/

abbrev barS : Sem sig := (SemArray.scalar (sig.barrier 0 rfl) : Sems sig S_).sem

/-- The send and receive semaphore of axis `a`, as the body slices them out of its two semaphore arrays. -/
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

theorem sendS_val (a : Fin 3) : (sendS a).val = 2 + a.val := by fin_cases a <;> rfl
theorem recvS_val (a : Fin 3) : (recvS a).val = 5 + a.val := by fin_cases a <;> rfl

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

/-- The credit of one plane's transfer. -/
abbrev N : ℕ := (rcvPl 0).view.dmaCredit

/-! ## Contents -/

/-- Device `c`'s block of the input, as its staging buffer holds it. -/
def ublk (c : Dev nD) : BlkC F :=
  (win0_0.blk (0 : Fin 1)).view.read (Elt F) ((st0 m ρ).mem ((c : Thread nD τ).loc main_arg0))

/-- Plane `a` of device `c`'s send buffer at contents `f`; of its receive buffer. -/
def sndPts (a : Fin 3) (c : Dev nD) (f : ScrC F) : sProp 𝕄 :=
  (sndPl a).view.loc (c : Thread nD τ) ↦[(sndPl a).view.set]{fullShare} f
def rcvPts (a : Fin 3) (c : Dev nD) (f : ScrC F) : sProp 𝕄 :=
  (rcvPl a).view.loc (c : Thread nD τ) ↦[(rcvPl a).view.set]{fullShare} f

omit [FloatOps F] in
instance sndPts_storable (a : Fin 3) (c : Dev nD) (f : ScrC F) : BI.Storable (upEmb : UEmb _ 𝕄) (sndPts (F := F) a c f) := by unfold sndPts; infer_instance
omit [FloatOps F] in
instance rcvPts_storable (a : Fin 3) (c : Dev nD) (f : ScrC F) : BI.Storable (upEmb : UEmb _ 𝕄) (rcvPts (F := F) a c f) := by unfold rcvPts; infer_instance

/-! ## The schedule -/

/-- What the neighbour along `a` hands `c` with its barrier signal: plane `a` of its own receive buffer, and that its
    receive cell `a` stands at round `0`. -/
def barPay (a : Fin 3) (c : Dev nD) : sProp 𝕄 := iprop((∃ f, rcvPts a (nb a c) f) ∗ reached ER (recvCell a (nb a c)) 0)
def recvPay (a : Fin 3) (c : Dev nD) : sProp 𝕄 := rcvPts a c (recvC (ublk m ρ) c)
def sendPay (a : Fin 3) (c : Dev nD) : sProp 𝕄 := sndPts a c (sendC (ublk m ρ c) c)

/-- One round. A barrier cell has the three unit duties, one per axis; the send and the receive cell of axis `a` have
    the one duty `a`, of a plane's credit. -/
def haloRd : Rounds.Schedule (GSem nD τ sig) (Fin 3) 𝕄 where
  duties g r :=
    if r = 0 ∧ g.1.2 = .tc then
      (if g.2 = .reg barS then Finset.univ
       else Finset.univ.filter fun a => g.2 = .dma (sendS a) ∨ g.2 = .dma (recvS a))
    else ∅
  unitless _ := False
  amount g _ _ := if g.2 = .reg barS then 1 else N
  payload g _ d :=
    if g.2 = .reg barS then barPay d g.1.1
    else if g.2 = .dma (recvS d) then recvPay m ρ d g.1.1
    else if g.2 = .dma (sendS d) then sendPay m ρ d g.1.1
    else iprop(emp)
  amount_pos g _ _ _ := by
    by_cases h : g.2 = .reg barS
    · rw [if_pos h]; exact Nat.one_pos
    · rw [if_neg h]; exact View.dmaCredit_pos _ (by decide)

theorem N_pos : 0 < N := View.dmaCredit_pos _ (by decide)

instance haloRd_payload_storable (g : GSem nD τ sig) (r : ℕ) (d : Fin 3) :
    BI.Storable (upEmb : UEmb _ 𝕄) ((haloRd (F := F) m ρ).payload g r d) := by
  show BI.Storable upEmb (if g.2 = .reg barS then barPay d g.1.1 else if g.2 = .dma (recvS d) then recvPay m ρ d g.1.1
    else if g.2 = .dma (sendS d) then sendPay m ρ d g.1.1 else iprop(emp))
  unfold barPay recvPay sendPay
  (repeat' split) <;> infer_instance

section Tables
variable (a : Fin 3) (c : Dev nD)

theorem send_ne_bar : (SemLoc.dma (sendS a) : SemLoc sig) ≠ .reg barS := fun h => by cases h
theorem recv_ne_bar : (SemLoc.dma (recvS a) : SemLoc sig) ≠ .reg barS := fun h => by cases h
theorem send_ne_recv (b : Fin 3) : (SemLoc.dma (sendS a) : SemLoc sig) ≠ .dma (recvS b) := by
  intro h; have := congrArg (fun s : SemLoc sig => match s with | .dma q => q.val | _ => 0) h
  simp only [sendS_val, recvS_val] at this; omega
theorem recv_ne_send (b : Fin 3) : (SemLoc.dma (recvS a) : SemLoc sig) ≠ .dma (sendS b) := fun h => send_ne_recv b a h.symm
theorem sendS_inj {a b : Fin 3} (h : (SemLoc.dma (sendS a) : SemLoc sig) = .dma (sendS b)) : a = b := by
  have := congrArg (fun s : SemLoc sig => match s with | .dma q => q.val | _ => 0) h
  simp only [sendS_val] at this; exact Fin.ext (by omega)
theorem recvS_inj {a b : Fin 3} (h : (SemLoc.dma (recvS a) : SemLoc sig) = .dma (recvS b)) : a = b := by
  have := congrArg (fun s : SemLoc sig => match s with | .dma q => q.val | _ => 0) h
  simp only [recvS_val] at this; exact Fin.ext (by omega)

omit [FloatOps F] in
theorem duties_bar : (haloRd (F := F) m ρ).duties (barCell c) 0 = Finset.univ := by
  dsimp only [haloRd]; rw [if_pos ⟨rfl, rfl⟩, if_pos rfl]
omit [FloatOps F] in
theorem duties_send : (haloRd (F := F) m ρ).duties (sendCell a c) 0 = {a} := by
  dsimp only [haloRd]; rw [if_pos ⟨rfl, rfl⟩, if_neg (send_ne_bar a)]
  ext b; simp only [Finset.mem_filter, Finset.mem_univ, true_and, Finset.mem_singleton]
  exact ⟨fun h => h.elim (fun h => (sendS_inj h).symm) (fun h => absurd h (send_ne_recv a b)), fun h => .inl (h ▸ rfl)⟩
omit [FloatOps F] in
theorem duties_recv : (haloRd (F := F) m ρ).duties (recvCell a c) 0 = {a} := by
  dsimp only [haloRd]; rw [if_pos ⟨rfl, rfl⟩, if_neg (recv_ne_bar a)]
  ext b; simp only [Finset.mem_filter, Finset.mem_univ, true_and, Finset.mem_singleton]
  exact ⟨fun h => h.elim (fun h => absurd h (recv_ne_send a b)) (fun h => (recvS_inj h).symm), fun h => .inr (h ▸ rfl)⟩
omit [FloatOps F] in
theorem duties_later (g : GSem nD τ sig) : ∀ r, 1 ≤ r → (haloRd (F := F) m ρ).duties g r = ∅ :=
  fun r hr => by dsimp only [haloRd]; rw [if_neg fun h => by omega]

omit [FloatOps F] in
theorem amount_bar (d : Fin 3) : (haloRd (F := F) m ρ).amount (barCell c) 0 d = 1 := by dsimp only [haloRd]; exact if_pos rfl
omit [FloatOps F] in
theorem amount_send (d : Fin 3) : (haloRd (F := F) m ρ).amount (sendCell a c) 0 d = N := by dsimp only [haloRd]; exact if_neg (send_ne_bar a)
omit [FloatOps F] in
theorem amount_recv (d : Fin 3) : (haloRd (F := F) m ρ).amount (recvCell a c) 0 d = N := by dsimp only [haloRd]; exact if_neg (recv_ne_bar a)

omit [FloatOps F] in
theorem expect_bar : (haloRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (haloRd (F := F) m ρ).expect (sendCell a c) 0 = N := by
  unfold Schedule.expect Schedule.amountOf; rw [duties_send, Finset.sum_singleton, amount_send]
omit [FloatOps F] in
theorem expect_recv : (haloRd (F := F) m ρ).expect (recvCell a c) 0 = N := by
  unfold Schedule.expect Schedule.amountOf; rw [duties_recv, Finset.sum_singleton, amount_recv]

omit [FloatOps F] in
theorem payload_bar (d : Fin 3) : (haloRd (F := F) m ρ).payload (barCell c) 0 d = barPay d c := by dsimp only [haloRd]; rw [if_pos rfl]
omit [FloatOps F] in
theorem payload_send : (haloRd (F := F) m ρ).payload (sendCell a c) 0 a = sendPay m ρ a c := by
  dsimp only [haloRd]; rw [if_neg (send_ne_bar a), if_neg (send_ne_recv a a), if_pos rfl]
omit [FloatOps F] in
theorem payload_recv : (haloRd (F := F) m ρ).payload (recvCell a c) 0 a = recvPay m ρ a c := by
  dsimp only [haloRd]; rw [if_neg (recv_ne_bar a), if_pos rfl]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole of the barrier cell's round: the three neighbours' planes. -/
theorem rest_bar : bigSep ((haloRd (F := F) m ρ).duties (barCell c) 0 \ ∅) (fun d => (haloRd (F := F) m ρ).payload (barCell c) 0 d)
    = iprop(barPay 0 c ∗ barPay 1 c ∗ barPay 2 c) := by
  rw [Finset.sdiff_empty, duties_bar, bigSep_fin3, payload_bar, payload_bar, payload_bar]
omit [FloatOps F] in
theorem rest_send : bigSep ((haloRd (F := F) m ρ).duties (sendCell a c) 0 \ ∅) (fun d => (haloRd (F := F) m ρ).payload (sendCell a c) 0 d) = sendPay m ρ a c := by
  rw [Finset.sdiff_empty, duties_send, bigSep_singleton, payload_send]
omit [FloatOps F] in
theorem rest_recv : bigSep ((haloRd (F := F) m ρ).duties (recvCell a c) 0 \ ∅) (fun d => (haloRd (F := F) m ρ).payload (recvCell a c) 0 d) = recvPay m ρ a c := by
  rw [Finset.sdiff_empty, duties_recv, bigSep_singleton, payload_recv]

end Tables

/-! ## What each device owes at launch; the levels -/

/-- The three transfers' credit on the neighbours' receive cells: what is still owed at the barrier wait. -/
def OX (c : Dev nD) : CellTallies nD τ sig Unit :=
  tallyAt (recvCell 2 (nb 2 c)) () N + tallyAt (recvCell 1 (nb 1 c)) () N + tallyAt (recvCell 0 (nb 0 c)) () N
/-- … and before it the three barrier units, summed so that each signal peels the last summand. -/
def O₂ (c : Dev nD) : CellTallies nD τ sig Unit := OX c + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (recvS 0) ∨ g.2 = .dma (recvS 1) ∨ g.2 = .dma (recvS 2) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [if_pos rfl]
theorem lv_recv (a : Fin 3) (c : Dev nD) : lv (recvCell a c) () = 2 := by
  dsimp only [lv]; rw [if_neg (recv_ne_bar a), if_pos (by fin_cases a <;> simp)]

end Cert.Kernel.Halo

end
-- ==== Proof.Kernel.PlaneSplit.lean ====
import proofs.«900805_g7700000000000806_dist_halo3d_v7x_xyz2x2x2_s16_f32_1_alg».proof.Proof.Kernel.Sched

/-!
# A scratch buffer is its three planes

Holding a whole three-plane buffer is holding its three planes at the same contents, and a plane held at one
contents is held at any other that agrees with it on the plane.
-/

noncomputable section

namespace Cert.Kernel.Halo

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The planes of a scratch buffer -/

/-- An element lies in plane `a` exactly when its first coordinate is `a`. -/
theorem mem_rcvPl (a : Fin 3) (i : S3x16x16.Idx) : Iff (i ∈ ((rcvPl a).view.set : Finset S3x16x16.Idx)) ((i 0).val = a.val) := by
  have hs : ((rcvPl a).view.set : Finset S3x16x16.Idx) = (rP a).set := by
    show (((View.whole cc0_scratch1).slice (rP a)).reshape S16x16 _).set = _
    rw [View.set_reshape, View.set_slice_whole]
  rw [hs, Rect.mem_set_unit]
  constructor
  · intro h; have h0 := h 0
    have e0 : (![a.val, 0, 0] : Fin 3 → Nat) 0 = a.val := rfl
    have e1 : S1x16x16.size 0 = 1 := rfl
    rw [e0, e1] at h0; omega
  · intro h b
    have e1 : S1x16x16.size 0 = 1 := rfl
    fin_cases b
    · show a.val ≤ (i 0).val ∧ (i 0).val < a.val + S1x16x16.size 0; omega
    · have h16 : (i 1).val < 16 := (i 1).isLt; exact ⟨Nat.zero_le _, by show (i 1).val < 0 + 16; omega⟩
    · have h16 : (i 2).val < 16 := (i 2).isLt; exact ⟨Nat.zero_le _, by show (i 2).val < 0 + 16; omega⟩
theorem mem_sndPl (a : Fin 3) (i : S3x16x16.Idx) : Iff (i ∈ ((sndPl a).view.set : Finset S3x16x16.Idx)) ((i 0).val = a.val) := by
  have hs : ((sndPl a).view.set : Finset S3x16x16.Idx) = (rP a).set := by
    show (((View.whole cc0_scratch0).slice (rP a)).reshape S16x16 _).set = _
    rw [View.set_reshape, View.set_slice_whole]
  rw [hs, Rect.mem_set_unit]
  constructor
  · intro h; have h0 := h 0
    have e0 : (![a.val, 0, 0] : Fin 3 → Nat) 0 = a.val := rfl
    have e1 : S1x16x16.size 0 = 1 := rfl
    rw [e0, e1] at h0; omega
  · intro h b
    have e1 : S1x16x16.size 0 = 1 := rfl
    fin_cases b
    · show a.val ≤ (i 0).val ∧ (i 0).val < a.val + S1x16x16.size 0; omega
    · have h16 : (i 1).val < 16 := (i 1).isLt; exact ⟨Nat.zero_le _, by show (i 1).val < 0 + 16; omega⟩
    · have h16 : (i 2).val < 16 := (i 2).isLt; exact ⟨Nat.zero_le _, by show (i 2).val < 0 + 16; omega⟩

theorem rcv_cover : Finset.biUnion (β := S3x16x16.Idx) (Finset.univ : Finset (Fin 3)) (fun a => (rcvPl a).view.set) = Finset.univ := by
  ext i; simp only [Finset.mem_biUnion, Finset.mem_univ, true_and, iff_true]
  exact ⟨i 0, (mem_rcvPl _ i).mpr rfl⟩
theorem snd_cover : Finset.biUnion (β := S3x16x16.Idx) (Finset.univ : Finset (Fin 3)) (fun a => (sndPl a).view.set) = Finset.univ := by
  ext i; simp only [Finset.mem_biUnion, Finset.mem_univ, true_and, iff_true]
  exact ⟨i 0, (mem_sndPl _ i).mpr rfl⟩
theorem rcv_disj : ∀ a ∈ (Finset.univ : Finset (Fin 3)), ∀ b ∈ (Finset.univ : Finset (Fin 3)), a ≠ b →
    Disjoint ((rcvPl a).view.set : Finset S3x16x16.Idx) ((rcvPl b).view.set : Finset S3x16x16.Idx) :=
  fun a _ b _ hab => Finset.disjoint_left.mpr fun i ha hb => hab (Fin.ext (((mem_rcvPl a i).mp ha).symm.trans ((mem_rcvPl b i).mp hb)))
theorem snd_disj : ∀ a ∈ (Finset.univ : Finset (Fin 3)), ∀ b ∈ (Finset.univ : Finset (Fin 3)), a ≠ b →
    Disjoint ((sndPl a).view.set : Finset S3x16x16.Idx) ((sndPl b).view.set : Finset S3x16x16.Idx) :=
  fun a _ b _ hab => Finset.disjoint_left.mpr fun i ha hb => hab (Fin.ext (((mem_sndPl a i).mp ha).symm.trans ((mem_sndPl b i).mp hb)))

omit [FloatOps F] in
set_option maxHeartbeats 1000000 in
theorem rcv_split (c : Dev nD) (f : ScrC F) :
    ((((c : Thread nD τ).loc cc0_scratch1) ↦{fullShare} f : sProp 𝕄)) = iprop(rcvPts 0 c f ∗ rcvPts 1 c f ∗ rcvPts 2 c f) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f)
    (Finset.univ : Finset (Fin 3)) (fun a => ((rcvPl a).view.set : Finset S3x16x16.Idx)) rcv_disj
  rw [rcv_cover, bigSep_fin3] at h
  exact h
omit [FloatOps F] in
set_option maxHeartbeats 1000000 in
theorem snd_split (c : Dev nD) (f : ScrC F) :
    ((((c : Thread nD τ).loc cc0_scratch0) ↦{fullShare} f : sProp 𝕄)) = iprop(sndPts 0 c f ∗ sndPts 1 c f ∗ sndPts 2 c f) := by
  have h := pointsTo_biUnion (nD := nD) (τ := τ) (sig := sig) (Ix := Unit) (Val := Elt F) (Name := ℕ) (U := UU) (Lvl := ℕ)
    (ℓ := (c : Thread nD τ).loc cc0_scratch0) (q := fullShare) (f := f)
    (Finset.univ : Finset (Fin 3)) (fun a => ((sndPl a).view.set : Finset S3x16x16.Idx)) snd_disj
  rw [snd_cover, bigSep_fin3] at h
  exact h

omit [FloatOps F] in
theorem rcvPts_congr (a : Fin 3) (c : Dev nD) {f g : ScrC F} (h : ∀ i ∈ ((rcvPl a).view.set : Finset S3x16x16.Idx), f i = g i) : rcvPts a c f = rcvPts a c g := by
  unfold rcvPts; exact BI.Region.is_congr h
omit [FloatOps F] in
theorem sndPts_congr (a : Fin 3) (c : Dev nD) {f g : ScrC F} (h : ∀ i ∈ ((sndPl a).view.set : Finset S3x16x16.Idx), f i = g i) : sndPts a c f = sndPts a c g := by
  unfold sndPts; exact BI.Region.is_congr h

end Cert.Kernel.Halo

end
-- ==== Proof.Kernel.Data.lean ====
import proofs.«900805_g7700000000000806_dist_halo3d_v7x_xyz2x2x2_s16_f32_1_alg».proof.Proof.Kernel.PlaneSplit

/-!
# Levels and the proof data

The barrier sits below the receive cells, so a device may wait for its barrier while it still owes its three
transfers; at the later waits it owes nothing. The ghost state a device's body starts from names its own seven
cells, its neighbours' barrier and receive cells, and the tokens of the nine duties it pays.
-/

noncomputable section

namespace Cert.Kernel.Halo

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

theorem O₀_pos {c : Dev nD} {g : GSem nD τ sig} {u : Unit} (h : 0 < O₀ c g u) :
    (∃ a, g = recvCell a (nb a c)) ∨ (∃ a, g = barCell (nb a c)) := by
  unfold O₀ O₁ O₂ OX at h
  simp only [Pi.add_apply, Finsupp.add_apply, tallyAt_apply] at h
  by_contra hn
  rw [not_or, not_exists, not_exists] at hn
  rw [if_neg (fun h' => hn.1 2 h'.1), if_neg (fun h' => hn.1 1 h'.1), if_neg (fun h' => hn.1 0 h'.1),
    if_neg (fun h' => hn.2 2 h'.1), if_neg (fun h' => hn.2 1 h'.1), if_neg (fun h' => hn.2 0 h'.1)] at h
  exact Nat.lt_irrefl 0 h

theorem OX_pos {c : Dev nD} {g : GSem nD τ sig} {u : Unit} (h : 0 < OX c g u) : ∃ a, g = recvCell a (nb a c) := by
  unfold OX at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- A staging semaphore (level 0) may be waited for whatever is owed. -/
theorem mayWait_stage (c : Dev nD) (q : DmaSem sig) (hq : ∀ a, SemLoc.dma q ≠ .dma (recvS a)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> exact Finset.mem_singleton_self _)
      (fun p hp => by
        rw [Finset.mem_singleton.mp hp]; dsimp only [lv]
        rw [if_neg (fun h => by cases h), if_neg (fun h => by rcases h with h | h | h <;> exact hq _ h)])
      (fun g u hg => by
        rcases O₀_pos hg with ⟨a, rfl⟩ | ⟨a, rfl⟩
        · rw [lv_recv]; decide
        · rw [lv_bar]; decide)
  · rw [MayWait_zero]; iintro -; iempintro

omit [FloatOps F] in
/-- At its barrier wait a device owes its three transfers only: receive cells, above its barrier cell. -/
theorem mayWait_bar (c : Dev nD) : (levAts L lv : sProp 𝕄) ⊢ MayWait (c : Thread nD τ) (.reg barS) () (OX c) :=
  MayOwe.of_cut (L := L) (lev := lv) 1 (fun p hp => by rw [Finset.mem_singleton.mp hp, L_tc]; exact Finset.mem_singleton_self _)
    (fun g u hg => by obtain ⟨a, rfl⟩ := OX_pos hg; exact Finset.mem_singleton_self _)
    (fun p hp => by rw [Finset.mem_singleton.mp hp]; exact (lv_bar c).le)
    (fun g u hg => by obtain ⟨a, rfl⟩ := OX_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at. -/
def invs (K : Dev nD × Fin 7 → ℕ) (c : Dev nD) : sProp 𝕄 :=
  iprop(cellInv ER (haloRd m ρ) (K (c, 0)) (barCell c) ∗ cellInv ER (haloRd m ρ) (K (c, 1)) (sendCell 0 c) ∗ cellInv ER (haloRd m ρ) (K (c, 2)) (sendCell 1 c) ∗ cellInv ER (haloRd m ρ) (K (c, 3)) (sendCell 2 c) ∗ cellInv ER (haloRd m ρ) (K (c, 4)) (recvCell 0 c) ∗ cellInv ER (haloRd m ρ) (K (c, 5)) (recvCell 1 c) ∗ cellInv ER (haloRd m ρ) (K (c, 6)) (recvCell 2 c) ∗ cellInv ER (haloRd m ρ) (K (nb 0 c, 0)) (barCell (nb 0 c)) ∗ cellInv ER (haloRd m ρ) (K (nb 1 c, 0)) (barCell (nb 1 c)) ∗ cellInv ER (haloRd m ρ) (K (nb 2 c, 0)) (barCell (nb 2 c)) ∗ cellInv ER (haloRd m ρ) (K (nb 0 c, 4)) (recvCell 0 (nb 0 c)) ∗ cellInv ER (haloRd m ρ) (K (nb 1 c, 5)) (recvCell 1 (nb 1 c)) ∗ cellInv ER (haloRd m ρ) (K (nb 2 c, 6)) (recvCell 2 (nb 2 c)))

instance invs_persistent (K : Dev nD × Fin 7 → ℕ) (c : Dev nD) : BI.Persistent (invs m ρ K c) := by unfold invs; infer_instance

/-- The protocol's ghost state device `c` starts from. -/
def ghost (K : Dev nD × Fin 7 → ℕ) (c : Dev nD) : sProp 𝕄 :=
  iprop(invs m ρ K c ∗ atPos ER (barCell c) 0 ∅ 0 ∗ atPos ER (sendCell 0 c) 0 ∅ 0 ∗ atPos ER (sendCell 1 c) 0 ∅ 0 ∗ atPos ER (sendCell 2 c) 0 ∅ 0 ∗ atPos ER (recvCell 0 c) 0 ∅ 0 ∗ atPos ER (recvCell 1 c) 0 ∅ 0 ∗ atPos ER (recvCell 2 c) 0 ∅ 0 ∗ reached ER (barCell (nb 0 c)) 0 ∗ reached ER (barCell (nb 1 c)) 0 ∗ reached ER (barCell (nb 2 c)) 0 ∗ reached ER (recvCell 0 (nb 0 c)) 0 ∗ reached ER (recvCell 1 (nb 1 c)) 0 ∗ reached ER (recvCell 2 (nb 2 c)) 0 ∗ reached ER (sendCell 0 c) 0 ∗ reached ER (sendCell 1 c) 0 ∗ reached ER (sendCell 2 c) 0 ∗ reached ER (recvCell 0 c) 0 ∗ reached ER (recvCell 1 c) 0 ∗ reached ER (recvCell 2 c) 0 ∗ dutyTok ER (barCell (nb 0 c)) 0 0 ∗ dutyTok ER (barCell (nb 1 c)) 0 1 ∗ dutyTok ER (barCell (nb 2 c)) 0 2 ∗ dutyTok ER (recvCell 0 (nb 0 c)) 0 0 ∗ dutyTok ER (recvCell 1 (nb 1 c)) 0 1 ∗ dutyTok ER (recvCell 2 (nb 2 c)) 0 2 ∗ dutyTok ER (sendCell 0 c) 0 0 ∗ dutyTok ER (sendCell 1 c) 0 1 ∗ dutyTok ER (sendCell 2 c) 0 2)

/-- A whole scratch buffer of device `c` at contents `f`. -/
def sndW (c : Dev nD) (f : ScrC F) : sProp 𝕄 := (((c : Thread nD τ).loc cc0_scratch0) ↦{fullShare} f)
def rcvW (c : Dev nD) (f : ScrC F) : sProp 𝕄 := (((c : Thread nD τ).loc cc0_scratch1) ↦{fullShare} f)

/-- What device `c`'s body starts from besides its buffers. -/
def start (c : Dev nD) : sProp 𝕄 :=
  iprop((∃ K, ghost m ρ K c) ∗ cred (tallyAt (barCell c) () 3) ∗ cred (tallyAt (recvCell 0 c) () N) ∗ cred (tallyAt (recvCell 1 c) () N)
    ∗ cred (tallyAt (recvCell 2 c) () N) ∗ levAts L lv)

def Φ₀ (c : Dev nD) : sProp 𝕄 := iprop(start m ρ c ∗ (∃ f, sndW c f) ∗ (∃ f, rcvW c f))
/-- After the point: both scratch buffers whole at their final contents, the six own semaphores at zero. -/
def Φ₁ (c : Dev nD) : sProp 𝕄 :=
  iprop(sndW c (sendC (ublk m ρ c) c) ∗ rcvW c (recvC (ublk m ρ) c)
    ∗ semVal (sendCell 0 c) 0 ∗ semVal (sendCell 1 c) 0 ∗ semVal (sendCell 2 c) 0
    ∗ semVal (recvCell 0 c) 0 ∗ semVal (recvCell 1 c) 0 ∗ semVal (recvCell 2 c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => ublk m ρ c
    | ⟨1, _⟩ => outAt (ublk m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition at names `K`, and its postcondition. -/
def bodyPre (K : Dev nD × Fin 7 → ℕ) (c : Dev nD) : sProp 𝕄 :=
  iprop((ghost m ρ K c ∗ cred (tallyAt (barCell c) () 3) ∗ cred (tallyAt (recvCell 0 c) () N) ∗ cred (tallyAt (recvCell 1 c) () N)
      ∗ cred (tallyAt (recvCell 2 c) () N) ∗ levAts L lv ∗ (∃ f, sndW c f) ∗ (∃ f, rcvW c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (ublk m ρ c) ∗ stg c cc0_stg1_0 (outAt (ublk m ρ) c))

end Cert.Kernel.Halo

end
-- ==== Proof.Kernel.Launch.lean ====
import proofs.«900805_g7700000000000806_dist_halo3d_v7x_xyz2x2x2_s16_f32_1_alg».proof.Proof.Kernel.Data
import Idealize.ShloMosaic.Lib.Pipeline.Launch
import Idealize.ShloMosaic.Lib.Pipeline.Kit
import Idealize.ShloMosaic.Lib.Pipeline.Cells
import Idealize.ShloMosaic.Lib.Tactic

/-!
# The launch

Every device's seven cells are funded at once: the round state and the owner's position of each cell, and one
token per duty. Under one update the cells' invariants are allocated for all devices, and the tokens are dealt to
the devices that pay the duties: the barrier token and the receive token of axis `a` go to the neighbour along
`a`, the send tokens stay. The units the three neighbours owe a device's barrier cell and its three receive
cells come back to it as credit. From there each device runs its body, and the run of the whole mesh ends with
every window's array at the contents the proof data name.
-/

noncomputable section

namespace Cert.Kernel.Halo

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores, as the launch indexes them: the three send cells, then the three receive cells; -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- a device's seven cells: the barrier, the send cells, the receive cells. -/
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

/-- A number that tells a device's seven cells apart. -/
def semCode : SemLoc sig → ℕ
  | .reg _ => 0
  | .dma q => q.val + 1
theorem semCode_csem (k : Fin 7) : semCode (csem k) = if k.val = 0 then 0 else k.val + 2 := by fin_cases k <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : semCode (csem k) = semCode (csem k') := congrArg (fun g : GSem nD τ sig => semCode g.2) h
  rw [semCode_csem, semCode_csem] at h2
  have : k = k' := Fin.ext (by split_ifs at h2 <;> omega)
  subst this; rfl
def haloCells : Finset (GSem nD τ sig) := Finset.univ.map ⟨kcell, kcell_injective⟩

/-- A device's own cells' duty tokens as minted: the barrier's three, each send cell's one, each receive cell's one. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 1) | 5 => (sendCell 2 cj.1, 0, 2)
  | 6 => (recvCell 0 cj.1, 0, 0) | 7 => (recvCell 1 cj.1, 0, 1) | 8 => (recvCell 2 cj.1, 0, 2)
theorem tokOf_dev (c : Dev nD) (j : Fin 9) : (tokOf (c, j)).1.1.1 = c := by fin_cases j <;> rfl
theorem tokOf_code (c : Dev nD) (j : Fin 9) : 3 * semCode (tokOf (c, j)).1.2 + (tokOf (c, j)).2.2.val
    = if j.val < 3 then j.val else if j.val < 6 then 4 * j.val - 3 else 4 * j.val - 6 := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rwa [tokOf_dev, tokOf_dev] at this
  subst h1
  have h2 := congrArg (fun x : GSem nD τ sig × ℕ × Fin 3 => 3 * semCode x.1.2 + x.2.2.val) h
  simp only [tokOf_code] at h2
  have : j = j' := Fin.ext (by split_ifs at h2 <;> omega)
  subst this; rfl
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 1 ∗ dutyTok ER (sendCell 2 c) 0 2
    ∗ dutyTok ER (recvCell 0 c) 0 0 ∗ dutyTok ER (recvCell 1 c) 0 1 ∗ dutyTok ER (recvCell 2 c) 0 2)

/-- What the launch element deals device `c`. -/
def G (c : Dev nD) : sProp 𝕄 :=
  iprop((bigSep Finset.univ fun k : Fin 7 => roundState ER (haloRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records every device may read: each cell's invariant at its name, each cell at round 0. -/
def records (K : Dev nD × Fin 7 → ℕ) : sProp 𝕄 :=
  iprop((bigSep Finset.univ fun ck : Dev nD × Fin 7 => cellInv ER (haloRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (nb 0 c)) 0 0 ∗ dutyTok ER (barCell (nb 1 c)) 0 1 ∗ dutyTok ER (barCell (nb 2 c)) 0 2
    ∗ dutyTok ER (recvCell 0 (nb 0 c)) 0 0 ∗ dutyTok ER (recvCell 1 (nb 1 c)) 0 1 ∗ dutyTok ER (recvCell 2 (nb 2 c)) 0 2
    ∗ dutyTok ER (sendCell 0 c) 0 0 ∗ dutyTok ER (sendCell 1 c) 0 1 ∗ dutyTok ER (sendCell 2 c) 0 2)
def linear (c : Dev nD) : sProp 𝕄 :=
  iprop((atPos ER (barCell c) 0 ∅ 0 ∗ atPos ER (sendCell 0 c) 0 ∅ 0 ∗ atPos ER (sendCell 1 c) 0 ∅ 0 ∗ atPos ER (sendCell 2 c) 0 ∅ 0
      ∗ atPos ER (recvCell 0 c) 0 ∅ 0 ∗ atPos ER (recvCell 1 c) 0 ∅ 0 ∗ atPos ER (recvCell 2 c) 0 ∅ 0) ∗ payToks c)

omit [FloatOps F] in
theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, Ht0, Ht1, Ht2, Ht3, Ht4, Ht5, Ht6, Ht7, Ht8⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nb 0 c, 0)); iexact HI
    isplitr; · iapply (inv_at m ρ K (nb 1 c, 0)); iexact HI
    isplitr; · iapply (inv_at m ρ K (nb 2 c, 0)); iexact HI
    isplitr; · iapply (inv_at m ρ K (nb 0 c, 4)); iexact HI
    isplitr; · iapply (inv_at m ρ K (nb 1 c, 5)); iexact HI
    iapply (inv_at m ρ K (nb 2 c, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (nb 0 c, 0)); iexact HR
  isplitr; · iapply (reached_at (F := F) (nb 1 c, 0)); iexact HR
  isplitr; · iapply (reached_at (F := F) (nb 2 c, 0)); iexact HR
  isplitr; · iapply (reached_at (F := F) (nb 0 c, 4)); iexact HR
  isplitr; · iapply (reached_at (F := F) (nb 1 c, 5)); iexact HR
  isplitr; · iapply (reached_at (F := F) (nb 2 c, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  iexact Ht8

omit [FloatOps F] in
/-- The tokens dealt across the pairs: along each axis a device's barrier token and receive token of that axis go to
    its neighbour there, which hands its own back; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (nbEquiv 0) (fun c : Dev nD => (dutyTok ER (barCell c) 0 0 : sProp 𝕄)),
    bigSep_univ_equiv (nbEquiv 1) (fun c : Dev nD => (dutyTok ER (barCell c) 0 1 : sProp 𝕄)),
    bigSep_univ_equiv (nbEquiv 2) (fun c : Dev nD => (dutyTok ER (barCell c) 0 2 : sProp 𝕄)),
    bigSep_univ_equiv (nbEquiv 0) (fun c : Dev nD => (dutyTok ER (recvCell 0 c) 0 0 : sProp 𝕄)),
    bigSep_univ_equiv (nbEquiv 1) (fun c : Dev nD => (dutyTok ER (recvCell 1 c) 0 1 : sProp 𝕄)),
    bigSep_univ_equiv (nbEquiv 2) (fun c : Dev nD => (dutyTok ER (recvCell 2 c) 0 2 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (haloRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff (x : Fin 3) {a b : Dev nD} : Iff (recvCell x a = recvCell x b) (a = b) :=
  ⟨fun h => Fin.ext (congrArg (fun g : GSem nD τ sig => g.1.1.val) h), fun h => h ▸ rfl⟩

omit [FloatOps F] in
/-- The unit device `d` owes the barrier cell of its neighbour along `a`, read at device `c`'s barrier cell. -/
theorem bar_tally (a : Fin 3) (d c : Dev nD) :
    (tallyAt (barCell (nb a d)) () 1 : CellTallies nD τ sig Unit) (barCell c) () = if d = nb a c then 1 else 0 := by
  rw [tallyAt_apply]
  by_cases h : d = nb a c
  · subst h; rw [nb_nb, if_pos ⟨rfl, rfl⟩, if_pos rfl]
  · rw [if_neg (fun h' => h (by rw [bar_eq_iff.mp h'.1, nb_nb])), if_neg h]

omit [FloatOps F] in
/-- The credit device `d` owes the receive cell `a` of its neighbour along `a`, read at device `c`'s receive cell `b`. -/
theorem recv_tally (a b : Fin 3) (d c : Dev nD) :
    (tallyAt (recvCell a (nb a d)) () N : CellTallies nD τ sig Unit) (recvCell b c) () = if a = b ∧ d = nb b c then N else 0 := by
  rw [tallyAt_apply]
  by_cases hab : a = b
  · subst hab
    by_cases h : d = nb a c
    · subst h; rw [nb_nb, if_pos ⟨rfl, rfl⟩, if_pos ⟨rfl, rfl⟩]
    · rw [if_neg (fun h' => h (by rw [(recv_eq_iff a).mp h'.1, nb_nb])), if_neg (fun h' => h h'.2)]
  · rw [if_neg (fun h' => hab (recvS_inj (congrArg Prod.snd h'.1)).symm), if_neg (fun h' => hab h'.1)]

omit [FloatOps F] in
/-- What device `d` owes device `c`'s barrier cell: a unit along each axis on which they are neighbours. -/
theorem owed_bar (d c : Dev nD) :
    O₀ d (barCell c) () = (if d = nb 2 c then 1 else 0) + (if d = nb 1 c then 1 else 0) + (if d = nb 0 c then 1 else 0) := by
  unfold O₀ O₁ O₂ OX
  simp only [Pi.add_apply, Finsupp.add_apply]
  rw [tallyAt_ne_cell (fun h => recv_ne_bar 2 (congrArg Prod.snd h).symm), tallyAt_ne_cell (fun h => recv_ne_bar 1 (congrArg Prod.snd h).symm),
    tallyAt_ne_cell (fun h => recv_ne_bar 0 (congrArg Prod.snd h).symm), Finsupp.zero_apply, bar_tally, bar_tally, bar_tally]
  simp only [Nat.zero_add]

omit [FloatOps F] in
/-- What device `d` owes device `c`'s receive cell `b`: a plane's credit if it is `c`'s neighbour along `b`. -/
theorem owed_recv (b : Fin 3) (d c : Dev nD) : O₀ d (recvCell b c) () = if d = nb b c then N else 0 := by
  unfold O₀ O₁ O₂ OX
  simp only [Pi.add_apply, Finsupp.add_apply]
  rw [tallyAt_ne_cell (g := barCell (nb 0 d)) (fun h => recv_ne_bar b (congrArg Prod.snd h)),
    tallyAt_ne_cell (g := barCell (nb 1 d)) (fun h => recv_ne_bar b (congrArg Prod.snd h)),
    tallyAt_ne_cell (g := barCell (nb 2 d)) (fun h => recv_ne_bar b (congrArg Prod.snd h)), Finsupp.zero_apply,
    recv_tally, recv_tally, recv_tally]
  fin_cases b <;> simp

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]

omit [FloatOps F] in
theorem launch_recv (b : Fin 3) (c : Dev nD) :
    tallyOn (recvCell b c) (launchCredit (Pipeline.owing O₀) 0 (recvCell b c)) = (tallyAt (recvCell b c) () N : CellTallies nD τ sig Unit) := by
  unfold tallyAt; refine congrArg _ (Finsupp.ext fun u => ?_); cases u
  rw [Pipeline.launchCredit_owing, Finsupp.single_eq_same, Finset.sum_congr rfl fun d _ => owed_recv b d c, Finset.sum_ite_eq' Finset.univ (nb b c) fun _ => N,
    if_pos (Finset.mem_univ _)]

omit [FloatOps F] in
theorem recvS_ne {a b : Fin 3} (h : a ≠ b) : (SemLoc.dma (recvS a) : SemLoc sig) ≠ .dma (recvS b) := fun e => h (recvS_inj e)

omit [FloatOps F] in
theorem creds (c : Dev nD) :
    (Pipeline.launchCred O₀ c : sProp 𝕄) ⊢ iprop(cred (tallyAt (barCell c) () 3) ∗ cred (tallyAt (recvCell 0 c) () N)
      ∗ cred (tallyAt (recvCell 1 c) () N) ∗ cred (tallyAt (recvCell 2 c) () N)) := by
  unfold Pipeline.launchCred
  rw [bigSep_univ_at _ (SemLoc.reg barS), launch_bar]
  refine sep_mono_right ?_
  rw [bigSep_erase (i := SemLoc.dma (recvS 0)) (Finset.mem_erase.mpr ⟨recv_ne_bar 0, Finset.mem_univ _⟩), launch_recv]
  refine sep_mono_right ?_
  rw [bigSep_erase (i := SemLoc.dma (recvS 1)) (Finset.mem_erase.mpr ⟨recvS_ne (by decide), Finset.mem_erase.mpr ⟨recv_ne_bar 1, Finset.mem_univ _⟩⟩), launch_recv]
  refine sep_mono_right ?_
  rw [← launch_recv 2 c]
  exact bigSep_elim (Finset.mem_erase.mpr ⟨recvS_ne (by decide), Finset.mem_erase.mpr ⟨recvS_ne (by decide), Finset.mem_erase.mpr ⟨recv_ne_bar 2, Finset.mem_univ _⟩⟩⟩)

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0]; · iexact HN0
    isplitl [HN1]; · iexact HN1
    isplitl [HN2]; · iexact HN2
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sndW rcvW
  iintro ⟨Hs, -, ⟨%f, Hf⟩, ⟨%g, Hg⟩⟩
  isplitl [Hs]; · iexact Hs
  isplitl [Hf]
  · iexists f; iexact Hf
  · iexists g; iexact Hg

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ sndW rcvW
  iintro ⟨Hs, Hr, HS0, HS1, HS2, HV0, HV1, HV2⟩
  isplitr; · iempintro
  isplitl [HS0 HS1 HS2 HV0 HV1 HV2]
  · isplitl [HS0]; · iexact HS0
    isplitl [HS1]; · iexact HS1
    isplitl [HS2]; · iexact HS2
    isplitl [HV0]; · iexact HV0
    isplitl [HV1]; · iexact HV1
    iexact HV2
  isplitl [Hs]
  · iexists (sendC (ublk m ρ c) c); iexact Hs
  · iexists (recvC (ublk m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by intro a; fin_cases w <;> fin_cases s <;> fin_cases a <;> decide) _ (by
      rcases t with ⟨_ | _, ht⟩
      · exact Or.inl rfl
      · exact Or.inr rfl)

/-! ### The run -/

/-- Every device's windows end at the contents the proof data name. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on device `c`, from the body's own triple. -/
theorem body_obligation_of
    (hbody : ∀ (K : Dev nD × Fin 7 → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hsnd, Hrcv⟩, Ho, Hx, Hout⟩
  iapply (hbody K c fun _ => bodyPost m ρ c)
  unfold bodyPre
  isplitr []
  · isplitl [Hg Hrest Hsnd Hrcv]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      isplitl [Hsnd]; · iexact Hsnd
      iexact Hrcv
    isplitl [Ho]; · iexact Ho
    isplitl [Hx] <;> iassumption
  · iintro H; iexact H

set_option maxRecDepth 8000 in
/-- At the compiled mesh of eight devices, for any float values, from any memory with zero counters: every weakly fair
    execution of the program — the eight kernels handshaking on the barrier semaphore, then exchanging their faces —
    terminates, and every final state has each device's arrays at the contents the proof data name. -/
theorem run_main
    (hbody : ∀ (K : Dev nD × Fin 7 → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation_of m ρ hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Halo.run_main' depends on axioms: [propext, Classical.choice, Quot.sound] -/
#guard_msgs in #print axioms run_main

/-! ### The final arrays -/

/-- A device's input block, as staged, is its argument array. -/
theorem ublk_eq (c : Dev nD) : ublk m ρ c = m ((c : Thread nD τ).loc main_arg0) :=
  Memref.read_access_unit_zero (Elt F) main_arg0 (funext fun a => Nat.zero_mul _) _ _

/-- The argument array after the run holds what it held. -/
theorem final_in (c : Dev nD) : (dats (F := F) m ρ 0 c).arrAt (0 : Fin 2) cfg0.N = m ((c : Thread nD τ).loc main_arg0) :=
  (dats (F := F) m ρ 0 c).arrAt_in (0 : Fin 2) rfl _

/-- The result array after the run holds what the body left in the output block at the one point. -/
theorem final_out (c : Dev nD) : (dats (F := F) m ρ 0 c).arrAt (1 : Fin 2) cfg0.N = outAt (ublk m ρ) c := by
  have h := (dats (F := F) m ρ 0 c).arrAt_succ (1 : Fin 2) t₀
  rw [if_pos (flush0_1 t₀)] at h
  exact h.trans (Memref.write_access_unit_zero_univ (Elt F) main_v1 (funext fun a => Nat.zero_mul _) _ _ _)

end Cert.Kernel.Halo

end
-- ==== Proof.Kernel.Planes.lean ====
import proofs.«900805_g7700000000000806_dist_halo3d_v7x_xyz2x2x2_s16_f32_1_alg».proof.Proof.Kernel.Contents
import Idealize.ShloMosaic.Lib.Pipeline.Value

/-!
# The three planes of a scratch buffer

A scratch buffer is three 16 × 16 planes stacked along its first axis. An unmasked store of a plane-shaped vector
through plane `a` replaces exactly the entries whose first coordinate is `a`; three such stores, one per
plane, therefore replace the whole buffer. A transfer of plane `a` of one buffer into plane `a` of another
copies those entries and nothing else.
-/

noncomputable section

namespace Cert.Kernel.Halo

open Cert.Kernel Cert.Kernel.Gen
open Idealize.ShloMosaic Idealize.ShloMosaic.TcCoe

variable {F : FTy → Type} [FloatOps F]

/-- An unmasked store through the plane at height `a` of the send buffer: an entry at height `a` takes the stored
    vector at its two in-plane coordinates, every other entry is kept. -/
theorem plane_write (a : ℕ) (inb : ∀ ax, (![a, 0, 0] : Fin 3 → ℕ) ax + S1x16x16.size ax ≤ S3x16x16.size ax)
    (f : ScrC F) (w : S1x16x16.Idx → F .f32) (i : S3x16x16.Idx) :
    (sndM.access (Rect.unit (s := S3x16x16) ![a, 0, 0] S1x16x16.size inb) : View sig .tc _ _ _).write (Elt F) f w Finset.univ i
      = if (i 0).val = a then w (ValueIdx.ix3 (0 : Fin 1) (i 1) (i 2)) else f i := by
  by_cases h : (i 0).val = a
  · rw [if_pos h]
    -- the entry is the image of its in-plane coordinates under the plane's placement
    have hx : (sndM.access (Rect.unit (s := S3x16x16) ![a, 0, 0] S1x16x16.size inb) : View sig .tc _ _ _).emb
        (ValueIdx.ix3 (0 : Fin 1) (i 1) (i 2)) = i := by
      funext ax
      refine Fin.ext ?_
      match ax with
      | ⟨0, _⟩ => show a + 1 * 0 = (i 0).val; omega
      | ⟨1, _⟩ => show 0 + 1 * (i 1).val = (i 1).val; omega
      | ⟨2, _⟩ => show 0 + 1 * (i 2).val = (i 2).val; omega
    have hw := View.write_emb_of_mem (v := (sndM.access (Rect.unit (s := S3x16x16) ![a, 0, 0] S1x16x16.size inb) : View sig .tc _ _ _))
      (Val := Elt F) f w (M := Finset.univ) (x := ValueIdx.ix3 (0 : Fin 1) (i 1) (i 2)) (Finset.mem_univ _)
    rw [hx] at hw
    exact hw.trans (cast_eq _ _)
  · rw [if_neg h]
    -- an entry at another height is outside the plane
    refine View.write_of_not_mem _ _ _ ?_
    intro hm
    rw [View.setOn_univ] at hm
    have hm' : i ∈ (Rect.unit (s := S3x16x16) ![a, 0, 0] S1x16x16.size inb).set := by
      rw [← View.set_slice_whole (sig := sig) (κ := .tc) cc0_scratch0]; exact hm
    have := (Rect.mem_set_unit.mp hm') 0
    apply h
    have h1 : (![a, 0, 0] : Fin 3 → ℕ) 0 = a := rfl
    have h2 : S1x16x16.size 0 = 1 := rfl
    omega

/-- Three unmasked stores, one per plane, overwrite the whole send buffer whatever it held. -/
theorem send_stores (u : BlkC F) (c : Dev nD) (f0 : ScrC F) :
    ((sndM.access rP2 : View sig .tc _ _ _).write (Elt F)
      ((sndM.access rP1 : View sig .tc _ _ _).write (Elt F)
        ((sndM.access rP0 : View sig .tc _ _ _).write (Elt F) f0 (k0_pay2 (mxW c) u) Finset.univ)
        (k0_pay3 (myW c) u) Finset.univ)
      (k0_pay4 (mzW c) u) Finset.univ) = sendC u c := by
  funext i
  refine (plane_write 2 inb_S3x16x16_S1x16x16_2_0_0 _ (k0_pay4 (mzW c) u) i).trans ?_
  rw [plane_write 1 inb_S3x16x16_S1x16x16_1_0_0 _ (k0_pay3 (myW c) u) i,
    plane_write 0 inb_S3x16x16_S1x16x16_0_0_0 _ (k0_pay2 (mxW c) u) i]
  unfold sendC
  have hi : (i 0).val < 3 := (i 0).isLt
  by_cases h0 : (i 0).val = 0
  · rw [if_neg (by omega), if_neg (by omega), if_pos h0, if_pos h0]
  · by_cases h1 : (i 0).val = 1
    · rw [if_neg (by omega), if_pos h1, if_neg h0, if_pos h1]
    · rw [if_pos (by omega), if_neg h0, if_neg h1]

/-- An entry lies under plane `a` of the receive buffer exactly when its first coordinate is `a`. -/
theorem mem_plane (a : Fin 3) (i) : i ∈ (rcvPl a).view.set ↔ (i 0).val = a.val := by
  show i ∈ ((rcvM.view.slice (rP a)).reshape S16x16 _).set ↔ _
  rw [View.set_reshape, View.set_slice_whole (sig := sig) (κ := .tc) cc0_scratch1, Rect.mem_set_unit]
  constructor
  · intro h
    have := h 0
    have h1 : (![a.val, 0, 0] : Fin 3 → ℕ) 0 = a.val := rfl
    have h2 : S1x16x16.size 0 = 1 := rfl
    omega
  · intro h ax
    match ax with
    | ⟨0, _⟩ => exact ⟨by show a.val ≤ (i 0).val; omega, by show (i 0).val < a.val + 1; omega⟩
    | ⟨1, _⟩ => exact ⟨Nat.zero_le _, by show (i 1).val < 0 + 16; have h16 : (i 1).val < 16 := (i 1).isLt; omega⟩
    | ⟨2, _⟩ => exact ⟨Nat.zero_le _, by show (i 2).val < 0 + 16; have h16 : (i 2).val < 16 := (i 2).isLt; omega⟩

/-- The same for the send buffer. -/
theorem mem_plane_snd (a : Fin 3) (i) : i ∈ (sndPl a).view.set ↔ (i 0).val = a.val := by
  show i ∈ ((sndM.view.slice (rP a)).reshape S16x16 _).set ↔ _
  rw [View.set_reshape, View.set_slice_whole (sig := sig) (κ := .tc) cc0_scratch0, Rect.mem_set_unit]
  constructor
  · intro h
    have := h 0
    have h1 : (![a.val, 0, 0] : Fin 3 → ℕ) 0 = a.val := rfl
    have h2 : S1x16x16.size 0 = 1 := rfl
    omega
  · intro h ax
    match ax with
    | ⟨0, _⟩ => exact ⟨by show a.val ≤ (i 0).val; omega, by show (i 0).val < a.val + 1; omega⟩
    | ⟨1, _⟩ => exact ⟨Nat.zero_le _, by show (i 1).val < 0 + 16; have h16 : (i 1).val < 16 := (i 1).isLt; omega⟩
    | ⟨2, _⟩ => exact ⟨Nat.zero_le _, by show (i 2).val < 0 + 16; have h16 : (i 2).val < 16 := (i 2).isLt; omega⟩

/-- A transfer of plane `a` of a buffer holding `fs` into plane `a` of another lands `fs`'s plane `a` there. -/
theorem landing (a : Fin 3) (fd fs : ScrC F) (i) (hi : i ∈ (rcvPl a).view.set) :
    (rcvPl a).view.write (Elt F) fd ((sndPl a).view.read (Elt F) fs) Finset.univ i = fs i := by
  obtain ⟨y, rfl⟩ := View.exists_emb_of_mem_set _ hi
  rw [View.write_emb_of_mem _ _ (Finset.mem_univ y), View.read_apply]
  rfl

/-- What lands in plane `a` of device `c`'s receive buffer is plane `a` of the send buffer of its neighbour along `a`. -/
theorem recv_landing (us : Dev nD → BlkC F) (a : Fin 3) (c : Dev nD) (fd : ScrC F) (i) (hi : i ∈ (rcvPl a).view.set) :
    (rcvPl a).view.write (Elt F) fd ((sndPl a).view.read (Elt F) (sendC (us (nb a c)) (nb a c))) Finset.univ i = recvC us c i := by
  rw [landing a fd _ i hi]
  have ha : i 0 = a := Fin.ext ((mem_plane a i).mp hi)
  unfold recvC
  rw [ha]

/-- info: 'Cert.Kernel.Halo.recv_landing' depends on axioms: [propext, Classical.choice, Quot.sound] -/
#guard_msgs in #print axioms Cert.Kernel.Halo.recv_landing

/-- info: 'Cert.Kernel.Halo.send_stores' depends on axioms: [propext, Classical.choice, Quot.sound] -/
#guard_msgs in #print axioms Cert.Kernel.Halo.send_stores

end Cert.Kernel.Halo

end
-- ==== Proof.Kernel.Body.lean ====
import proofs.«900805_g7700000000000806_dist_halo3d_v7x_xyz2x2x2_s16_f32_1_alg».proof.Proof.Kernel.Data
import proofs.«900805_g7700000000000806_dist_halo3d_v7x_xyz2x2x2_s16_f32_1_alg».proof.Proof.Kernel.Planes

/-!
# One device's body

From the ghost state, the credit dealt at launch and its four buffers, device `c` signals its three
neighbours, writes its three faces and the local stencil, waits for its barrier, transfers the faces,
and adds each received face as it lands; it ends with both scratch buffers whole again, its six own
semaphores at zero, and the output block at `outAt`.
-/

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The schedule's tables with the payloads spelt out as the buffers they hand over; at a neighbour's barrier cell the neighbour's neighbour is the device itself. -/

omit [FloatOps F] in
theorem duties_bar_nb (a : Fin 3) (c : Dev nD) : (haloRd (F := F) m ρ).duties (barCell (nb a c)) 0 = Finset.univ := duties_bar m ρ (nb a c)
omit [FloatOps F] in
theorem payload_bar_nb (a : Fin 3) (c : Dev nD) : (haloRd (F := F) m ρ).payload (barCell (nb a c)) 0 a
    = iprop((∃ f, ((rcvPl a).view.loc (c : Thread nD τ) ↦[(rcvPl a).view.set]{fullShare} f)) ∗ reached ER (recvCell a c) 0) := by
  rw [payload_bar]; unfold barPay rcvPts; rw [nb_nb]; rfl
omit [FloatOps F] in
theorem payload_bar_own (a : Fin 3) (c : Dev nD) : (haloRd (F := F) m ρ).payload (barCell c) 0 a
    = iprop((∃ f, ((rcvPl a).view.loc (nb a c : Thread nD τ) ↦[(rcvPl a).view.set]{fullShare} f)) ∗ reached ER (recvCell a (nb a c)) 0) := by
  rw [payload_bar]; unfold barPay rcvPts; rfl
omit [FloatOps F] in
theorem payload_send_pts (a : Fin 3) (c : Dev nD) : (haloRd (F := F) m ρ).payload (sendCell a c) 0 a
    = ((sndPl a).view.loc (c : Thread nD τ) ↦[(sndPl a).view.set]{fullShare} sendC (ublk m ρ c) c) := by
  rw [payload_send]; rfl
omit [FloatOps F] in
theorem payload_recv_pts (a : Fin 3) (c : Dev nD) : (haloRd (F := F) m ρ).payload (recvCell a c) 0 a
    = ((rcvPl a).view.loc (c : Thread nD τ) ↦[(rcvPl a).view.set]{fullShare} recvC (ublk m ρ) c) := by
  rw [payload_recv]; rfl
omit [FloatOps F] in
theorem amount_bar_nb (a : Fin 3) (c : Dev nD) (d : Fin 3) : (haloRd (F := F) m ρ).amount (barCell (nb a c)) 0 d = 1 := amount_bar m ρ (nb a c) d

attribute [local sl_rounds] duties_bar duties_bar_nb duties_send duties_recv amount_bar amount_bar_nb amount_send amount_recv
  expect_bar expect_send expect_recv payload_bar_nb payload_send_pts payload_recv_pts
attribute [local sl_canon] dev1_eq dev2_eq dev3_eq dev4_eq dev5_eq dev6_eq

omit [FloatOps F] in
/-- A whole buffer's points-to, spelt through its memref's view. -/
theorem pts_view (c : Dev nD) (b : Ref sig .tc) (f : Buf (Elt F) ((c : Thread nD τ).loc b)) :
    ((((c : Thread nD τ).loc b) ↦{fullShare} f : sProp 𝕄)) = ((View.loc (c : Thread nD τ) (Memref.whole b).view) ↦{fullShare} f) := rfl

omit [FloatOps F] in
/-- The barrier round's payloads, one per axis. -/
theorem bar_payloads (c : Dev nD) :
    bigSep Finset.univ (fun d => (haloRd (F := F) m ρ).payload (barCell c) 0 d) = iprop(barPay 0 c ∗ barPay 1 c ∗ barPay 2 c) := by
  rw [bigSep_fin3, payload_bar, payload_bar, payload_bar]

/-- After its three face stores the send buffer is `sendC`, plane by plane. -/
theorem snd_ready (c : Dev nD) (fs0 : ScrC F) :
    ((View.loc (c : Thread nD τ) (Memref.whole cc0_scratch0).view) ↦{fullShare}
        ((sndM.access rP2 : View sig .tc _ _ _).write (Elt F) ((sndM.access rP1 : View sig .tc _ _ _).write (Elt F)
          ((sndM.access rP0 : View sig .tc _ _ _).write (Elt F) fs0
            (k0_pay2 (mxW c) (View.readAt (Elt F) (Memref.whole cc0_stg0_0).view rW.toLoadRect (ublk m ρ c))) Finset.univ)
            (k0_pay3 (myW c) (View.readAt (Elt F) (Memref.whole cc0_stg0_0).view rW.toLoadRect (ublk m ρ c))) Finset.univ)
            (k0_pay4 (mzW c) (View.readAt (Elt F) (Memref.whole cc0_stg0_0).view rW.toLoadRect (ublk m ρ c))) Finset.univ) : sProp 𝕄)
      ⊢ iprop(sndPts 0 c (sendC (ublk m ρ c) c) ∗ sndPts 1 c (sendC (ublk m ρ c) c) ∗ sndPts 2 c (sendC (ublk m ρ c) c)) := by
  have hz : (![0, 0, 0] : Fin 3 → Nat) = fun _ => 0 := funext fun a => by fin_cases a <;> rfl
  rw [show View.readAt (Elt F) (Memref.whole cc0_stg0_0).view rW.toLoadRect (ublk m ρ c) = ublk m ρ c from
    Memref.readAt_unit_zero (Elt F) cc0_stg0_0 hz _ _, send_stores, ← pts_view, snd_split]

/-- A face landing in the neighbour's plane leaves that plane at the neighbour's `recvC`. -/
theorem land_entails (a : Fin 3) (c : Dev nD) (fd : ScrC F) :
    (((rcvPl a).view.loc (nb a c : Thread nD τ) ↦[(rcvPl a).view.set]{fullShare}
        ((rcvPl a).view.write (Elt F) fd ((sndPl a).view.read (Elt F) (sendC (ublk m ρ c) c)) Finset.univ)) : sProp 𝕄)
      ⊢ ((rcvPl a).view.loc (nb a c : Thread nD τ) ↦[(rcvPl a).view.set]{fullShare} recvC (ublk m ρ) (nb a c)) := by
  refine Entails.of_eq (BI.Region.is_congr fun i hi => ?_)
  have h := recv_landing (ublk m ρ) a (nb a c) fd i hi
  rw [nb_nb] at h
  exact h

/-! The planes at the three literal axes, and the tables at each axis. -/

abbrev sndPl0 : Memref sig .tc .vmem S16x16 .f32 := (sndM.slice rP0 (fun _ => rfl)).squeeze S16x16 squeezes_S1x16x16_S16x16
abbrev sndPl1 : Memref sig .tc .vmem S16x16 .f32 := (sndM.slice rP1 (fun _ => rfl)).squeeze S16x16 squeezes_S1x16x16_S16x16
abbrev sndPl2 : Memref sig .tc .vmem S16x16 .f32 := (sndM.slice rP2 (fun _ => rfl)).squeeze S16x16 squeezes_S1x16x16_S16x16
abbrev rcvPl0 : Memref sig .tc .vmem S16x16 .f32 := (rcvM.slice rP0 (fun _ => rfl)).squeeze S16x16 squeezes_S1x16x16_S16x16
abbrev rcvPl1 : Memref sig .tc .vmem S16x16 .f32 := (rcvM.slice rP1 (fun _ => rfl)).squeeze S16x16 squeezes_S1x16x16_S16x16
abbrev rcvPl2 : Memref sig .tc .vmem S16x16 .f32 := (rcvM.slice rP2 (fun _ => rfl)).squeeze S16x16 squeezes_S1x16x16_S16x16

theorem sndPl_0 : sndPl 0 = sndPl0 := rfl
theorem sndPl_1 : sndPl 1 = sndPl1 := rfl
theorem sndPl_2 : sndPl 2 = sndPl2 := rfl
theorem rcvPl_0 : rcvPl 0 = rcvPl0 := rfl
theorem rcvPl_1 : rcvPl 1 = rcvPl1 := rfl
theorem rcvPl_2 : rcvPl 2 = rcvPl2 := rfl

omit [FloatOps F] in
theorem dS0 (c : Dev nD) : (haloRd (F := F) m ρ).duties (sendCell 0 c) 0 = {0} := duties_send m ρ 0 c
omit [FloatOps F] in
theorem dR0 (c : Dev nD) : (haloRd (F := F) m ρ).duties (recvCell 0 c) 0 = {0} := duties_recv m ρ 0 c
omit [FloatOps F] in
theorem aS0 (c : Dev nD) (d : Fin 3) : (haloRd (F := F) m ρ).amount (sendCell 0 c) 0 d = N := amount_send m ρ 0 c d
omit [FloatOps F] in
theorem aR0 (c : Dev nD) (d : Fin 3) : (haloRd (F := F) m ρ).amount (recvCell 0 c) 0 d = N := amount_recv m ρ 0 c d
omit [FloatOps F] in
theorem eS0 (c : Dev nD) : (haloRd (F := F) m ρ).expect (sendCell 0 c) 0 = N := expect_send m ρ 0 c
omit [FloatOps F] in
theorem eR0 (c : Dev nD) : (haloRd (F := F) m ρ).expect (recvCell 0 c) 0 = N := expect_recv m ρ 0 c
omit [FloatOps F] in
theorem pS0 (c : Dev nD) : (haloRd (F := F) m ρ).payload (sendCell 0 c) 0 0
    = ((sndPl0).view.loc (c : Thread nD τ) ↦[(sndPl0).view.set]{fullShare} sendC (ublk m ρ c) c) := payload_send m ρ 0 c
omit [FloatOps F] in
theorem pR0 (c : Dev nD) : (haloRd (F := F) m ρ).payload (recvCell 0 c) 0 0
    = ((rcvPl0).view.loc (c : Thread nD τ) ↦[(rcvPl0).view.set]{fullShare} recvC (ublk m ρ) c) := payload_recv m ρ 0 c
omit [FloatOps F] in
theorem sndPts_0 (c : Dev nD) (f : ScrC F) : sndPts (F := F) 0 c f = ((sndPl0).view.loc (c : Thread nD τ) ↦[(sndPl0).view.set]{fullShare} f) := rfl
omit [FloatOps F] in
theorem rcvPts_0 (c : Dev nD) (f : ScrC F) : rcvPts (F := F) 0 c f = ((rcvPl0).view.loc (c : Thread nD τ) ↦[(rcvPl0).view.set]{fullShare} f) := rfl
/-- The face of `c` landing in plane 0 of its neighbour's receive buffer leaves that plane at the neighbour's `recvC`. -/
theorem land0 (c : Dev nD) (fd : ScrC F) :
    (((rcvPl0).view.loc (nb 0 c : Thread nD τ) ↦[(rcvPl0).view.set]{fullShare}
        ((rcvPl0).view.write (Elt F) fd ((sndPl0).view.read (Elt F) (sendC (ublk m ρ c) c)) Finset.univ)) : sProp 𝕄)
      ⊢ ((rcvPl0).view.loc (nb 0 c : Thread nD τ) ↦[(rcvPl0).view.set]{fullShare} recvC (ublk m ρ) (nb 0 c)) :=
  land_entails m ρ 0 c fd

omit [FloatOps F] in
theorem dS1 (c : Dev nD) : (haloRd (F := F) m ρ).duties (sendCell 1 c) 0 = {1} := duties_send m ρ 1 c
omit [FloatOps F] in
theorem dR1 (c : Dev nD) : (haloRd (F := F) m ρ).duties (recvCell 1 c) 0 = {1} := duties_recv m ρ 1 c
omit [FloatOps F] in
theorem aS1 (c : Dev nD) (d : Fin 3) : (haloRd (F := F) m ρ).amount (sendCell 1 c) 0 d = N := amount_send m ρ 1 c d
omit [FloatOps F] in
theorem aR1 (c : Dev nD) (d : Fin 3) : (haloRd (F := F) m ρ).amount (recvCell 1 c) 0 d = N := amount_recv m ρ 1 c d
omit [FloatOps F] in
theorem eS1 (c : Dev nD) : (haloRd (F := F) m ρ).expect (sendCell 1 c) 0 = N := expect_send m ρ 1 c
omit [FloatOps F] in
theorem eR1 (c : Dev nD) : (haloRd (F := F) m ρ).expect (recvCell 1 c) 0 = N := expect_recv m ρ 1 c
omit [FloatOps F] in
theorem pS1 (c : Dev nD) : (haloRd (F := F) m ρ).payload (sendCell 1 c) 0 1
    = ((sndPl1).view.loc (c : Thread nD τ) ↦[(sndPl1).view.set]{fullShare} sendC (ublk m ρ c) c) := payload_send m ρ 1 c
omit [FloatOps F] in
theorem pR1 (c : Dev nD) : (haloRd (F := F) m ρ).payload (recvCell 1 c) 0 1
    = ((rcvPl1).view.loc (c : Thread nD τ) ↦[(rcvPl1).view.set]{fullShare} recvC (ublk m ρ) c) := payload_recv m ρ 1 c
omit [FloatOps F] in
theorem sndPts_1 (c : Dev nD) (f : ScrC F) : sndPts (F := F) 1 c f = ((sndPl1).view.loc (c : Thread nD τ) ↦[(sndPl1).view.set]{fullShare} f) := rfl
omit [FloatOps F] in
theorem rcvPts_1 (c : Dev nD) (f : ScrC F) : rcvPts (F := F) 1 c f = ((rcvPl1).view.loc (c : Thread nD τ) ↦[(rcvPl1).view.set]{fullShare} f) := rfl
/-- The face of `c` landing in plane 1 of its neighbour's receive buffer leaves that plane at the neighbour's `recvC`. -/
theorem land1 (c : Dev nD) (fd : ScrC F) :
    (((rcvPl1).view.loc (nb 1 c : Thread nD τ) ↦[(rcvPl1).view.set]{fullShare}
        ((rcvPl1).view.write (Elt F) fd ((sndPl1).view.read (Elt F) (sendC (ublk m ρ c) c)) Finset.univ)) : sProp 𝕄)
      ⊢ ((rcvPl1).view.loc (nb 1 c : Thread nD τ) ↦[(rcvPl1).view.set]{fullShare} recvC (ublk m ρ) (nb 1 c)) :=
  land_entails m ρ 1 c fd

omit [FloatOps F] in
theorem dS2 (c : Dev nD) : (haloRd (F := F) m ρ).duties (sendCell 2 c) 0 = {2} := duties_send m ρ 2 c
omit [FloatOps F] in
theorem dR2 (c : Dev nD) : (haloRd (F := F) m ρ).duties (recvCell 2 c) 0 = {2} := duties_recv m ρ 2 c
omit [FloatOps F] in
theorem aS2 (c : Dev nD) (d : Fin 3) : (haloRd (F := F) m ρ).amount (sendCell 2 c) 0 d = N := amount_send m ρ 2 c d
omit [FloatOps F] in
theorem aR2 (c : Dev nD) (d : Fin 3) : (haloRd (F := F) m ρ).amount (recvCell 2 c) 0 d = N := amount_recv m ρ 2 c d
omit [FloatOps F] in
theorem eS2 (c : Dev nD) : (haloRd (F := F) m ρ).expect (sendCell 2 c) 0 = N := expect_send m ρ 2 c
omit [FloatOps F] in
theorem eR2 (c : Dev nD) : (haloRd (F := F) m ρ).expect (recvCell 2 c) 0 = N := expect_recv m ρ 2 c
omit [FloatOps F] in
theorem pS2 (c : Dev nD) : (haloRd (F := F) m ρ).payload (sendCell 2 c) 0 2
    = ((sndPl2).view.loc (c : Thread nD τ) ↦[(sndPl2).view.set]{fullShare} sendC (ublk m ρ c) c) := payload_send m ρ 2 c
omit [FloatOps F] in
theorem pR2 (c : Dev nD) : (haloRd (F := F) m ρ).payload (recvCell 2 c) 0 2
    = ((rcvPl2).view.loc (c : Thread nD τ) ↦[(rcvPl2).view.set]{fullShare} recvC (ublk m ρ) c) := payload_recv m ρ 2 c
omit [FloatOps F] in
theorem sndPts_2 (c : Dev nD) (f : ScrC F) : sndPts (F := F) 2 c f = ((sndPl2).view.loc (c : Thread nD τ) ↦[(sndPl2).view.set]{fullShare} f) := rfl
omit [FloatOps F] in
theorem rcvPts_2 (c : Dev nD) (f : ScrC F) : rcvPts (F := F) 2 c f = ((rcvPl2).view.loc (c : Thread nD τ) ↦[(rcvPl2).view.set]{fullShare} f) := rfl
/-- The face of `c` landing in plane 2 of its neighbour's receive buffer leaves that plane at the neighbour's `recvC`. -/
theorem land2 (c : Dev nD) (fd : ScrC F) :
    (((rcvPl2).view.loc (nb 2 c : Thread nD τ) ↦[(rcvPl2).view.set]{fullShare}
        ((rcvPl2).view.write (Elt F) fd ((sndPl2).view.read (Elt F) (sendC (ublk m ρ c) c)) Finset.univ)) : sProp 𝕄)
      ⊢ ((rcvPl2).view.loc (nb 2 c : Thread nD τ) ↦[(rcvPl2).view.set]{fullShare} recvC (ublk m ρ) (nb 2 c)) :=
  land_entails m ρ 2 c fd

attribute [local sl_rounds] dS0 dS1 dS2 dR0 dR1 dR2 aS0 aS1 aS2 aR0 aR1 aR2 eS0 eS1 eS2 eR0 eR1 eR2 pS0 pS1 pS2 pR0 pR1 pR2

omit [FloatOps F] in
/-- The barrier round's payloads, plane by plane. -/
theorem bar_payloads_lit (c : Dev nD) :
    bigSep Finset.univ (fun d => (haloRd (F := F) m ρ).payload (barCell c) 0 d)
      = iprop(((∃ f, ((rcvPl0).view.loc (nb 0 c : Thread nD τ) ↦[(rcvPl0).view.set]{fullShare} f)) ∗ reached ER (recvCell 0 (nb 0 c)) 0)
          ∗ ((∃ f, ((rcvPl1).view.loc (nb 1 c : Thread nD τ) ↦[(rcvPl1).view.set]{fullShare} f)) ∗ reached ER (recvCell 1 (nb 1 c)) 0)
          ∗ ((∃ f, ((rcvPl2).view.loc (nb 2 c : Thread nD τ) ↦[(rcvPl2).view.set]{fullShare} f)) ∗ reached ER (recvCell 2 (nb 2 c)) 0)) :=
  bar_payloads m ρ c

/-- The send buffer after the three face stores, as its three planes. -/
theorem snd_ready_lit (c : Dev nD) (fs0 : ScrC F) :
    ((View.loc (c : Thread nD τ) (Memref.whole cc0_scratch0).view) ↦{fullShare}
        ((sndM.access rP2 : View sig .tc _ _ _).write (Elt F) ((sndM.access rP1 : View sig .tc _ _ _).write (Elt F)
          ((sndM.access rP0 : View sig .tc _ _ _).write (Elt F) fs0
            (k0_pay2 (mxW c) (View.readAt (Elt F) (Memref.whole cc0_stg0_0).view rW.toLoadRect (ublk m ρ c))) Finset.univ)
            (k0_pay3 (myW c) (View.readAt (Elt F) (Memref.whole cc0_stg0_0).view rW.toLoadRect (ublk m ρ c))) Finset.univ)
            (k0_pay4 (mzW c) (View.readAt (Elt F) (Memref.whole cc0_stg0_0).view rW.toLoadRect (ublk m ρ c))) Finset.univ) : sProp 𝕄)
      ⊢ iprop(((sndPl0).view.loc (c : Thread nD τ) ↦[(sndPl0).view.set]{fullShare} sendC (ublk m ρ c) c)
          ∗ ((sndPl1).view.loc (c : Thread nD τ) ↦[(sndPl1).view.set]{fullShare} sendC (ublk m ρ c) c)
          ∗ ((sndPl2).view.loc (c : Thread nD τ) ↦[(sndPl2).view.set]{fullShare} sendC (ublk m ρ c) c)) :=
  snd_ready m ρ c fs0

set_option maxHeartbeats 2000000 in
/-- The transfer of face 0: plane 0 of `c`'s send buffer into plane 0 of the receive buffer of its neighbour along axis 0. -/
theorem wp_face0 (K : Dev nD × Fin 7 → ℕ) (c n : Dev nD) (hn : n = nb 0 c)
    {hsc : (rcvPl0 : Memref sig (Dev.tc n : Thread nD τ).2.kind .vmem S16x16 .f32).view.ref.isScScratch = false}
    {hsrc : (sndPl0 : Memref sig .tc .vmem S16x16 .f32).view.WordExact} {hdst : (rcvPl0 : Memref sig .tc .vmem S16x16 .f32).view.WordExact}
    {hsem : DmaTarget.Typed .vmem (.dma (recvS 0)) (.remote (Dev.tc n : Thread nD τ) (rcvPl0 : Memref sig .tc .vmem S16x16 .f32) (.dma (sendS 0)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 0 (nb 0 c)) () N) (W : Waits sig Unit) :
    iprop(cellInv ER (haloRd m ρ) (K (c, 1)) (sendCell 0 c) ∗ cellInv ER (haloRd m ρ) (K (nb 0 c, 4)) (recvCell 0 (nb 0 c))
        ∗ ((sndPl0).view.loc (c : Thread nD τ) ↦[(sndPl0).view.set]{fullShare} sendC (ublk m ρ c) c)
        ∗ ((rcvPl0).view.loc (nb 0 c : Thread nD τ) ↦[(rcvPl0).view.set]{fullShare} fn)
        ∗ owes (c : Thread nD τ) O₀' W
        ∗ dutyTok ER (sendCell 0 c) 0 0 ∗ reached ER (sendCell 0 c) 0
        ∗ dutyTok ER (recvCell 0 (nb 0 c)) 0 0 ∗ reached ER (recvCell 0 (nb 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl0 (.remote (Dev.tc n : Thread nD τ) rcvPl0 (.dma (sendS 0)) hsc) (.dma (recvS 0)) hsrc hdst hsem) k) Q) := by
  subst hn
  exact Rounds.wp_send_pointsTo 𝒱₀ ER (haloRd m ρ) (c : Thread nD τ) none (c' := (nb 0 c : Thread nD τ))
    (src := sndPl0) (dst := rcvPl0) (q := fullShare) (fs := sendC (ublk m ρ c) c) (κ₁ := K (c, 1)) (κ₂ := K (nb 0 c, 4))
    (r₁ := 0) (r₂ := 0) (d₁ := 0) (d₂ := 0) (fd := fn)
    (by rw [dS0]; exact Finset.mem_singleton_self _) (by rw [dR0]; exact Finset.mem_singleton_self _)
    () () N rfl (aS0 m ρ c 0) (aR0 m ρ (nb 0 c) 0) O hO (W := W)
    (by rw [pS0]) (by rw [pR0]; exact land0 m ρ c fn)

set_option maxHeartbeats 2000000 in
/-- The transfer of face 1: plane 1 of `c`'s send buffer into plane 1 of the receive buffer of its neighbour along axis 1. -/
theorem wp_face1 (K : Dev nD × Fin 7 → ℕ) (c n : Dev nD) (hn : n = nb 1 c)
    {hsc : (rcvPl1 : Memref sig (Dev.tc n : Thread nD τ).2.kind .vmem S16x16 .f32).view.ref.isScScratch = false}
    {hsrc : (sndPl1 : Memref sig .tc .vmem S16x16 .f32).view.WordExact} {hdst : (rcvPl1 : Memref sig .tc .vmem S16x16 .f32).view.WordExact}
    {hsem : DmaTarget.Typed .vmem (.dma (recvS 1)) (.remote (Dev.tc n : Thread nD τ) (rcvPl1 : Memref sig .tc .vmem S16x16 .f32) (.dma (sendS 1)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 1 (nb 1 c)) () N) (W : Waits sig Unit) :
    iprop(cellInv ER (haloRd m ρ) (K (c, 2)) (sendCell 1 c) ∗ cellInv ER (haloRd m ρ) (K (nb 1 c, 5)) (recvCell 1 (nb 1 c))
        ∗ ((sndPl1).view.loc (c : Thread nD τ) ↦[(sndPl1).view.set]{fullShare} sendC (ublk m ρ c) c)
        ∗ ((rcvPl1).view.loc (nb 1 c : Thread nD τ) ↦[(rcvPl1).view.set]{fullShare} fn)
        ∗ owes (c : Thread nD τ) O₀' W
        ∗ dutyTok ER (sendCell 1 c) 0 1 ∗ reached ER (sendCell 1 c) 0
        ∗ dutyTok ER (recvCell 1 (nb 1 c)) 0 1 ∗ reached ER (recvCell 1 (nb 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl1 (.remote (Dev.tc n : Thread nD τ) rcvPl1 (.dma (sendS 1)) hsc) (.dma (recvS 1)) hsrc hdst hsem) k) Q) := by
  subst hn
  exact Rounds.wp_send_pointsTo 𝒱₀ ER (haloRd m ρ) (c : Thread nD τ) none (c' := (nb 1 c : Thread nD τ))
    (src := sndPl1) (dst := rcvPl1) (q := fullShare) (fs := sendC (ublk m ρ c) c) (κ₁ := K (c, 2)) (κ₂ := K (nb 1 c, 5))
    (r₁ := 0) (r₂ := 0) (d₁ := 1) (d₂ := 1) (fd := fn)
    (by rw [dS1]; exact Finset.mem_singleton_self _) (by rw [dR1]; exact Finset.mem_singleton_self _)
    () () N rfl (aS1 m ρ c 1) (aR1 m ρ (nb 1 c) 1) O hO (W := W)
    (by rw [pS1]) (by rw [pR1]; exact land1 m ρ c fn)

set_option maxHeartbeats 2000000 in
/-- The transfer of face 2: plane 2 of `c`'s send buffer into plane 2 of the receive buffer of its neighbour along axis 2. -/
theorem wp_face2 (K : Dev nD × Fin 7 → ℕ) (c n : Dev nD) (hn : n = nb 2 c)
    {hsc : (rcvPl2 : Memref sig (Dev.tc n : Thread nD τ).2.kind .vmem S16x16 .f32).view.ref.isScScratch = false}
    {hsrc : (sndPl2 : Memref sig .tc .vmem S16x16 .f32).view.WordExact} {hdst : (rcvPl2 : Memref sig .tc .vmem S16x16 .f32).view.WordExact}
    {hsem : DmaTarget.Typed .vmem (.dma (recvS 2)) (.remote (Dev.tc n : Thread nD τ) (rcvPl2 : Memref sig .tc .vmem S16x16 .f32) (.dma (sendS 2)) hsc)}
    {α : Type} {Q : α → sProp 𝕄} {k : PUnit → Prog (TpuEff nD τ sig (Elt F) Λ₀ .tc) α}
    (fn : ScrC F) (O₀' O : CellTallies nD τ sig Unit) (hO : O₀' = O + tallyAt (recvCell 2 (nb 2 c)) () N) (W : Waits sig Unit) :
    iprop(cellInv ER (haloRd m ρ) (K (c, 3)) (sendCell 2 c) ∗ cellInv ER (haloRd m ρ) (K (nb 2 c, 6)) (recvCell 2 (nb 2 c))
        ∗ ((sndPl2).view.loc (c : Thread nD τ) ↦[(sndPl2).view.set]{fullShare} sendC (ublk m ρ c) c)
        ∗ ((rcvPl2).view.loc (nb 2 c : Thread nD τ) ↦[(rcvPl2).view.set]{fullShare} fn)
        ∗ owes (c : Thread nD τ) O₀' W
        ∗ dutyTok ER (sendCell 2 c) 0 2 ∗ reached ER (sendCell 2 c) 0
        ∗ dutyTok ER (recvCell 2 (nb 2 c)) 0 2 ∗ reached ER (recvCell 2 (nb 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndPl2 (.remote (Dev.tc n : Thread nD τ) rcvPl2 (.dma (sendS 2)) hsc) (.dma (recvS 2)) hsrc hdst hsem) k) Q) := by
  subst hn
  exact Rounds.wp_send_pointsTo 𝒱₀ ER (haloRd m ρ) (c : Thread nD τ) none (c' := (nb 2 c : Thread nD τ))
    (src := sndPl2) (dst := rcvPl2) (q := fullShare) (fs := sendC (ublk m ρ c) c) (κ₁ := K (c, 3)) (κ₂ := K (nb 2 c, 6))
    (r₁ := 0) (r₂ := 0) (d₁ := 2) (d₂ := 2) (fd := fn)
    (by rw [dS2]; exact Finset.mem_singleton_self _) (by rw [dR2]; exact Finset.mem_singleton_self _)
    () () N rfl (aS2 m ρ c 2) (aR2 m ρ (nb 2 c) 2) O hO (W := W)
    (by rw [pS2]) (by rw [pR2]; exact land2 m ρ c fn)

omit [FloatOps F] in
/-- Receive cell 0's round hands back plane 0 of the receive buffer at its final contents. -/
theorem recv_pay0 (c : Dev nD) :
    bigSep ((haloRd (F := F) m ρ).duties (recvCell 0 c) 0) (fun d => (haloRd (F := F) m ρ).payload (recvCell 0 c) 0 d)
      = ((rcvPl0).view.loc (c : Thread nD τ) ↦[(rcvPl0).view.set]{fullShare} recvC (ublk m ρ) c) := by
  rw [dR0, bigSep_singleton, pR0]
omit [FloatOps F] in
theorem send_pay0 (c : Dev nD) :
    bigSep ((haloRd (F := F) m ρ).duties (sendCell 0 c) 0) (fun d => (haloRd (F := F) m ρ).payload (sendCell 0 c) 0 d)
      = ((sndPl0).view.loc (c : Thread nD τ) ↦[(sndPl0).view.set]{fullShare} sendC (ublk m ρ c) c) := by
  rw [dS0, bigSep_singleton, pS0]
/-- A load of plane 0 through the whole receive buffer touches plane 0 only. -/
theorem load_sub0 (c : Dev nD) : (rcvM.view.setOn rP0.toLoadRect.set : Finset (Idx ((rcvM : Memref sig .tc .vmem S3x16x16 .f32).view.loc (c : Thread nD τ)))) ⊆ (rcvPl0).view.set := by
  have hs : ((rcvPl0).view.set : Finset S3x16x16.Idx) = rP0.set := by
    show (((View.whole cc0_scratch1).slice rP0).reshape S16x16 _).set = _
    rw [View.set_reshape, View.set_slice_whole]
  show (View.whole cc0_scratch1).setOn rP0.toLoadRect.set ⊆ ((rcvPl0).view.set : Finset S3x16x16.Idx)
  rw [hs]; unfold View.setOn; rw [View.emb_whole, Finset.map_refl]

omit [FloatOps F] in
/-- Receive cell 1's round hands back plane 1 of the receive buffer at its final contents. -/
theorem recv_pay1 (c : Dev nD) :
    bigSep ((haloRd (F := F) m ρ).duties (recvCell 1 c) 0) (fun d => (haloRd (F := F) m ρ).payload (recvCell 1 c) 0 d)
      = ((rcvPl1).view.loc (c : Thread nD τ) ↦[(rcvPl1).view.set]{fullShare} recvC (ublk m ρ) c) := by
  rw [dR1, bigSep_singleton, pR1]
omit [FloatOps F] in
theorem send_pay1 (c : Dev nD) :
    bigSep ((haloRd (F := F) m ρ).duties (sendCell 1 c) 0) (fun d => (haloRd (F := F) m ρ).payload (sendCell 1 c) 0 d)
      = ((sndPl1).view.loc (c : Thread nD τ) ↦[(sndPl1).view.set]{fullShare} sendC (ublk m ρ c) c) := by
  rw [dS1, bigSep_singleton, pS1]
/-- A load of plane 1 through the whole receive buffer touches plane 1 only. -/
theorem load_sub1 (c : Dev nD) : (rcvM.view.setOn rP1.toLoadRect.set : Finset (Idx ((rcvM : Memref sig .tc .vmem S3x16x16 .f32).view.loc (c : Thread nD τ)))) ⊆ (rcvPl1).view.set := by
  have hs : ((rcvPl1).view.set : Finset S3x16x16.Idx) = rP1.set := by
    show (((View.whole cc0_scratch1).slice rP1).reshape S16x16 _).set = _
    rw [View.set_reshape, View.set_slice_whole]
  show (View.whole cc0_scratch1).setOn rP1.toLoadRect.set ⊆ ((rcvPl1).view.set : Finset S3x16x16.Idx)
  rw [hs]; unfold View.setOn; rw [View.emb_whole, Finset.map_refl]

omit [FloatOps F] in
/-- Receive cell 2's round hands back plane 2 of the receive buffer at its final contents. -/
theorem recv_pay2 (c : Dev nD) :
    bigSep ((haloRd (F := F) m ρ).duties (recvCell 2 c) 0) (fun d => (haloRd (F := F) m ρ).payload (recvCell 2 c) 0 d)
      = ((rcvPl2).view.loc (c : Thread nD τ) ↦[(rcvPl2).view.set]{fullShare} recvC (ublk m ρ) c) := by
  rw [dR2, bigSep_singleton, pR2]
omit [FloatOps F] in
theorem send_pay2 (c : Dev nD) :
    bigSep ((haloRd (F := F) m ρ).duties (sendCell 2 c) 0) (fun d => (haloRd (F := F) m ρ).payload (sendCell 2 c) 0 d)
      = ((sndPl2).view.loc (c : Thread nD τ) ↦[(sndPl2).view.set]{fullShare} sendC (ublk m ρ c) c) := by
  rw [dS2, bigSep_singleton, pS2]
/-- A load of plane 2 through the whole receive buffer touches plane 2 only. -/
theorem load_sub2 (c : Dev nD) : (rcvM.view.setOn rP2.toLoadRect.set : Finset (Idx ((rcvM : Memref sig .tc .vmem S3x16x16 .f32).view.loc (c : Thread nD τ)))) ⊆ (rcvPl2).view.set := by
  have hs : ((rcvPl2).view.set : Finset S3x16x16.Idx) = rP2.set := by
    show (((View.whole cc0_scratch1).slice rP2).reshape S16x16 _).set = _
    rw [View.set_reshape, View.set_slice_whole]
  show (View.whole cc0_scratch1).setOn rP2.toLoadRect.set ⊆ ((rcvPl2).view.set : Finset S3x16x16.Idx)
  rw [hs]; unfold View.setOn; rw [View.emb_whole, Finset.map_refl]

/-! The output block as the four stores leave it over any prior contents `j`, each load reading what the stores before it left. -/

abbrev uRead (c : Dev nD) : BlkC F := View.readAt (Elt F) (Memref.whole cc0_stg0_0).view rW.toLoadRect (ublk m ρ c)
def w1 (c : Dev nD) (j : BlkC F) : BlkC F :=
  (outM.access rW : View sig .tc _ _ _).write (Elt F) j
    (k0_pay10 (mxW c) (myW c) (mzW c) (k0_pay1 (uRead m ρ c)) (k0_pay5 (F := F)) (k0_pay6 (uRead m ρ c)) (k0_pay7 (uRead m ρ c))) Finset.univ
def w2 (c : Dev nD) (j : BlkC F) : BlkC F :=
  (outM.access (rX c) : View sig .tc _ _ _).write (Elt F) (w1 m ρ c j)
    (k0_pay14 (k0_pay12 (myW c) (mzW c) rowIota) (View.readAt (Elt F) outM.view (rX c).toLoadRect (w1 m ρ c j))
      (View.readAt (Elt F) rcvM.view rP0.toLoadRect (recvC (ublk m ρ) c))) Finset.univ
def w3 (c : Dev nD) (j : BlkC F) : BlkC F :=
  (outM.access (rY c) : View sig .tc _ _ _).write (Elt F) (w2 m ρ c j)
    (k0_pay15 (k0_pay13 (mxW c) (mzW c) rowIota) (View.readAt (Elt F) outM.view (rY c).toLoadRect (w2 m ρ c j))
      (View.readAt (Elt F) rcvM.view rP1.toLoadRect (recvC (ublk m ρ) c))) Finset.univ
def w4 (c : Dev nD) (j : BlkC F) : BlkC F :=
  (outM.access rW : View sig .tc _ _ _).write (Elt F) (w3 m ρ c j)
    (k0_pay16 (k0_pay8 (mxW c)) (k0_pay9 (myW c)) (Scalar.muli (Scalar.subi 1#32 (mzW c)) 15#32)
      (View.readAt (Elt F) outM.view rW.toLoadRect (w3 m ρ c j))
      (View.readAt (Elt F) rcvM.view rP2.toLoadRect (recvC (ublk m ρ) c))) Finset.univ

theorem hz3 : (![0, 0, 0] : Fin 3 → Nat) = fun _ => 0 := funext fun a => by fin_cases a <;> rfl

theorem w1_eq (c : Dev nD) (j : BlkC F) : w1 m ρ c j = out1 (ublk m ρ c) c := by
  unfold w1 out1
  rw [show uRead m ρ c = ublk m ρ c from Memref.readAt_unit_zero (Elt F) cc0_stg0_0 hz3 _ _]
  exact Memref.write_access_unit_zero_univ (Elt F) cc0_stg1_0 hz3 _ _ _
theorem w2_eq (c : Dev nD) (j : BlkC F) : w2 m ρ c j = out2 (ublk m ρ) c := by unfold w2 out2; rw [w1_eq]
theorem w3_eq (c : Dev nD) (j : BlkC F) : w3 m ρ c j = out3 (ublk m ρ) c := by unfold w3 out3; rw [w2_eq]
/-- The four stores leave `outAt`. -/
theorem w4_eq (c : Dev nD) (j : BlkC F) : w4 m ρ c j = outAt (ublk m ρ) c := by
  unfold w4 outAt; rw [w3_eq]
  refine (Memref.write_access_unit_zero_univ (Elt F) cc0_stg1_0 hz3 _ _ _).trans ?_
  rw [show View.readAt (Elt F) outM.view rW.toLoadRect (out3 (ublk m ρ) c) = out3 (ublk m ρ) c from
    Memref.readAt_unit_zero (Elt F) cc0_stg1_0 hz3 _ _]

omit [FloatOps F] in
theorem rcvPts_lit0 (c : Dev nD) (f : ScrC F) :
    rcvPts (F := F) 0 c f = ((View.loc (c : Thread nD τ) rcvM.view) ↦[(rcvPl0).view.set]{fullShare} f) := rfl
omit [FloatOps F] in
theorem rcvPts_lit1 (c : Dev nD) (f : ScrC F) :
    rcvPts (F := F) 1 c f = ((View.loc (c : Thread nD τ) rcvM.view) ↦[(rcvPl1).view.set]{fullShare} f) := rfl
omit [FloatOps F] in
theorem rcvPts_lit2 (c : Dev nD) (f : ScrC F) :
    rcvPts (F := F) 2 c f = ((View.loc (c : Thread nD τ) rcvM.view) ↦[(rcvPl2).view.set]{fullShare} f) := rfl

set_option maxHeartbeats 4000000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨#HIbar, #HIs0, #HIs1, #HIs2, #HIr0, #HIr1, #HIr2, #HIbn0, #HIbn1, #HIbn2, #HIrn0, #HIrn1, #HIrn2⟩, HatB, HatS0, HatS1, HatS2, HatR0, HatR1, HatR2, #HrBn0, #HrBn1, #HrBn2, #HrRn0, #HrRn1, #HrRn2, #HrS0, #HrS1, #HrS2, #HrR0, #HrR1, #HrR2, HtBn0, HtBn1, HtBn2, HtRn0, HtRn1, HtRn2, HtS0, HtS1, HtS2⟩, HcB, HcR0, HcR1, HcR2, #Hlev, ⟨%fs0, Hsnd⟩, ⟨%fr0, Hrcv⟩⟩,
    Ho, ⟨%d0, %g0, %hg0, Hx⟩, ⟨%d1, %g1, %hg1, Hout⟩⟩, Hk⟩
  have hx : g0 = ublk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold sndW rcvW
  ihave Hr := (Entails.of_eq (rcv_split c fr0)) $$ Hrcv
  unfold rcvPts
  icases Hr with ⟨Hr0, Hr1, Hr2⟩
  unfold O₀ O₁ O₂
  ihave Hx := (Entails.of_eq (pts_view c cc0_stg0_0 (ublk m ρ c))) $$ Hx
  ihave Hout := (Entails.of_eq (pts_view c cc0_stg1_0 g1)) $$ Hout
  ihave Hsnd := (Entails.of_eq (pts_view c cc0_scratch0 fs0)) $$ Hsnd
  have hmb := mayWait_bar (F := F) c
  sl_unfold [cc0_body]
  sl_exec
  ihave Hp := (Entails.of_eq (bar_payloads_lit m ρ c)) $$ HatB_pay1
  icases Hp with ⟨⟨⟨%fn0, Hn0⟩, #Hrn0'⟩, ⟨⟨%fn1, Hn1⟩, #Hrn1'⟩, ⟨⟨%fn2, Hn2⟩, #Hrn2'⟩⟩
  sl_unfold_words
  ihave Hs : iprop(((sndPl0).view.loc (c : Thread nD τ) ↦[(sndPl0).view.set]{fullShare} sendC (ublk m ρ c) c)
          ∗ ((sndPl1).view.loc (c : Thread nD τ) ↦[(sndPl1).view.set]{fullShare} sendC (ublk m ρ c) c)
          ∗ ((sndPl2).view.loc (c : Thread nD τ) ↦[(sndPl2).view.set]{fullShare} sendC (ublk m ρ c) c)) $$ [Hsnd]
  · iapply (snd_ready_lit m ρ c fs0); iexact Hsnd
  icases Hs with ⟨Hs0, Hs1, Hs2⟩
  unfold OX
  iapply (wp_face0 m ρ K c _ (dev4_eq c) fn0 _ (tallyAt (recvCell 2 (nb 2 c)) () N + tallyAt (recvCell 1 (nb 1 c)) () N) rfl _) $$ [Hs0 Hn0 HO HtS0 HtRn0]
  · isplitr; · iexact HIs0
    isplitr; · iexact HIrn0
    isplitl [Hs0]; · iexact Hs0
    isplitl [Hn0]; · iexact Hn0
    isplitl [HO]; · iexact HO
    isplitl [HtS0]; · iexact HtS0
    isplitr; · iexact HrS0
    isplitl [HtRn0]; · iexact HtRn0
    iexact HrRn0
  iintro ⟨HcS0, HO⟩
  sl_exec
  iapply (wp_face1 m ρ K c _ (dev5_eq c) fn1 _ (tallyAt (recvCell 2 (nb 2 c)) () N) rfl _) $$ [Hs1 Hn1 HO HtS1 HtRn1]
  · isplitr; · iexact HIs1
    isplitr; · iexact HIrn1
    isplitl [Hs1]; · iexact Hs1
    isplitl [Hn1]; · iexact Hn1
    isplitl [HO]; · iexact HO
    isplitl [HtS1]; · iexact HtS1
    isplitr; · iexact HrS1
    isplitl [HtRn1]; · iexact HtRn1
    iexact HrRn1
  iintro ⟨HcS1, HO⟩
  sl_exec
  iapply (wp_face2 m ρ K c _ (dev6_eq c) fn2 _ (0) (zero_add _).symm _) $$ [Hs2 Hn2 HO HtS2 HtRn2]
  · isplitr; · iexact HIs2
    isplitr; · iexact HIrn2
    isplitl [Hs2]; · iexact Hs2
    isplitl [Hn2]; · iexact Hn2
    isplitl [HO]; · iexact HO
    isplitl [HtS2]; · iexact HtS2
    isplitr; · iexact HrS2
    isplitl [HtRn2]; · iexact HtRn2
    iexact HrRn2
  iintro ⟨HcS2, HO⟩
  sl_exec
  ihave Hq0 := (Entails.of_eq (recv_pay0 m ρ c)) $$ HatR0_pay1
  iapply (wp_load 𝒱₀ (c : Thread nD τ) none Set.univ (m := rcvM) (r := rP0.toLoadRect) (load_sub0 c)) $$ Hq0; iintro Hq0
  sl_exec
  ihave Hq1 := (Entails.of_eq (recv_pay1 m ρ c)) $$ HatR1_pay1
  iapply (wp_load 𝒱₀ (c : Thread nD τ) none Set.univ (m := rcvM) (r := rP1.toLoadRect) (load_sub1 c)) $$ Hq1; iintro Hq1
  sl_exec
  ihave Hq2 := (Entails.of_eq (recv_pay2 m ρ c)) $$ HatR2_pay1
  iapply (wp_load 𝒱₀ (c : Thread nD τ) none Set.univ (m := rcvM) (r := rP2.toLoadRect) (load_sub2 c)) $$ Hq2; iintro Hq2
  sl_exec
  ihave Hp0 := (Entails.of_eq (send_pay0 m ρ c)) $$ HatS0_pay1
  ihave Hp1 := (Entails.of_eq (send_pay1 m ρ c)) $$ HatS1_pay1
  ihave Hp2 := (Entails.of_eq (send_pay2 m ρ c)) $$ HatS2_pay1
  imod (Rounds.cell_close ER (haloRd m ρ) (Set.mem_univ (K (c, 1))) (fun h => h) (R := 1) (duties_later m ρ (sendCell 0 c))) $$ [HatS0] with HzS0
  · isplitr; · iexact HIs0
    iexact HatS0
  imod (Rounds.cell_close ER (haloRd m ρ) (Set.mem_univ (K (c, 2))) (fun h => h) (R := 1) (duties_later m ρ (sendCell 1 c))) $$ [HatS1] with HzS1
  · isplitr; · iexact HIs1
    iexact HatS1
  imod (Rounds.cell_close ER (haloRd m ρ) (Set.mem_univ (K (c, 3))) (fun h => h) (R := 1) (duties_later m ρ (sendCell 2 c))) $$ [HatS2] with HzS2
  · isplitr; · iexact HIs2
    iexact HatS2
  imod (Rounds.cell_close ER (haloRd m ρ) (Set.mem_univ (K (c, 4))) (fun h => h) (R := 1) (duties_later m ρ (recvCell 0 c))) $$ [HatR0] with HzR0
  · isplitr; · iexact HIr0
    iexact HatR0
  imod (Rounds.cell_close ER (haloRd m ρ) (Set.mem_univ (K (c, 5))) (fun h => h) (R := 1) (duties_later m ρ (recvCell 1 c))) $$ [HatR1] with HzR1
  · isplitr; · iexact HIr1
    iexact HatR1
  imod (Rounds.cell_close ER (haloRd m ρ) (Set.mem_univ (K (c, 6))) (fun h => h) (R := 1) (duties_later m ρ (recvCell 2 c))) $$ [HatR2] with HzR2
  · isplitr; · iexact HIr2
    iexact HatR2
  ihave Hsw : sndW c (sendC (ublk m ρ c) c) $$ [Hp0 Hp1 Hp2]
  · unfold sndW; rw [snd_split, sndPts_0, sndPts_1, sndPts_2]
    isplitl [Hp0]; · iexact Hp0
    isplitl [Hp1]; · iexact Hp1
    iexact Hp2
  ihave Hrw : rcvW c (recvC (ublk m ρ) c) $$ [Hq0 Hq1 Hq2]
  · unfold rcvW; rw [rcv_split, rcvPts_lit0, rcvPts_lit1, rcvPts_lit2]
    isplitl [Hq0]; · iexact Hq0
    isplitl [Hq1]; · iexact Hq1
    iexact Hq2
  sl_unfold_words
  ihave Ho : stg c cc0_stg1_0 (outAt (ublk m ρ) c) $$ [Hout]
  · iexists (outAt (ublk m ρ) c)
    isplitr; · (ipureintro; rfl)
    iapply (Entails.of_eq (congrArg (fun f => ((View.loc (c : Thread nD τ) (Memref.whole cc0_stg1_0).view ↦{fullShare} f : sProp 𝕄))) (w4_eq m ρ c _)))
    iexact Hout
  rw [wp_ret]; imodintro
  iapply Hk
  unfold bodyPost Φ₁ Dat.owesAt Pipeline.owesWithin
  rw [show (dats m ρ 0 c).owed t₀.succ = 0 from rfl]
  isplitl [Hsw Hrw HzS0 HzS1 HzS2 HzR0 HzR1 HzR2]
  · isplitl [Hsw]; · iexact Hsw
    isplitl [Hrw]; · iexact Hrw
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 1), ()) (insert (SemLoc.dma (sendS 0), ())
      (insert (SemLoc.dma (recvS 2), ()) (insert (SemLoc.dma (recvS 1), ()) (insert (SemLoc.dma (recvS 0), ())
        (insert (SemLoc.reg barS, ()) W)))))))
    isplitr; · ipureintro; exact fun _ _ => Or.inl trivial
    iexact HO
  isplitl [Hx]
  · iexists _; isplitr; · (ipureintro; rfl)
    iexact Hx
  iexact Ho

/-- info: 'Cert.Kernel.Halo.sound_body' depends on axioms: [propext, Classical.choice, Quot.sound] -/
#guard_msgs in #print axioms sound_body

end Cert.Kernel.Halo

end
-- ==== Proof.Halo.Spec.lean ====
import Idealize.ShloMosaic.PureOps.Ideal
import Idealize.ShloMosaic.Lib.ValueIdx

/-!
# The seven-point stencil on a 32 × 32 × 32 grid

The whole array `U` lives on the cube `{0..31}³`. At an INTERIOR point — every coordinate strictly between
`0` and `31` — the result is the sum of the six axis neighbours minus six times the centre, grouped as the
one-device program groups it: x−1, x+1, y−1, y+1, z−1, z+1, then the subtraction. On the boundary of the
cube the result is `0`. Coordinates are natural numbers so that a device's local coordinate plus its
block's origin is a coordinate of the cube with no casts.
-/

noncomputable section

namespace Cert.Halo

open Idealize.ShloMosaic

/-- The cube and a device's block of it. -/
abbrev W32 : Shape := ⟨3, ![32, 32, 32]⟩
abbrev B16 : Shape := ⟨3, ![16, 16, 16]⟩

/-- Strictly inside the cube on every axis. -/
def Interior (x y z : ℕ) : Prop := 0 < x ∧ x < 31 ∧ 0 < y ∧ y < 31 ∧ 0 < z ∧ z < 31

instance (x y z : ℕ) : Decidable (Interior x y z) := by unfold Interior; infer_instance

/-- The whole array read at natural coordinates (`0` outside the cube: never read where it matters). -/
def at3 (U : W32.Idx → EReal) (x y z : ℕ) : EReal :=
  if h : x < 32 ∧ y < 32 ∧ z < 32 then U (ValueIdx.ix3 ⟨x, h.1⟩ ⟨y, h.2.1⟩ ⟨z, h.2.2⟩) else 0

/-- The centre's weight, the float word of `6.0` read at the extended reals. -/
def six : EReal := Ideal.ofBits .f32 0x40C00000#32

/-- The stencil's value at `(x, y, z)`. -/
def lap (U : W32.Idx → EReal) (x y z : ℕ) : EReal :=
  if Interior x y z then
    (((((at3 U (x - 1) y z + at3 U (x + 1) y z) + at3 U x (y - 1) z) + at3 U x (y + 1) z)
        + at3 U x y (z - 1)) + at3 U x y (z + 1)) - six * at3 U x y z
  else 0

/-- The stencil over the whole cube. -/
def lapW (U : W32.Idx → EReal) : W32.Idx → EReal := fun i => lap U (i 0).val (i 1).val (i 2).val

end Cert.Halo

end
-- ==== Proof.Halo.RefValue.lean ====
import proofs.«900805_g7700000000000806_dist_halo3d_v7x_xyz2x2x2_s16_f32_1_alg».proof.Defs
import proofs.«900805_g7700000000000806_dist_halo3d_v7x_xyz2x2x2_s16_f32_1_alg».proof.Proof.Gen.ReferenceIdeal
import proofs.«900805_g7700000000000806_dist_halo3d_v7x_xyz2x2x2_s16_f32_1_alg».proof.Proof.Gen.ReferenceIdeal.Run
import proofs.«900805_g7700000000000806_dist_halo3d_v7x_xyz2x2x2_s16_f32_1_alg».proof.Proof.Gen.ReferenceIdeal.Read
import proofs.«900805_g7700000000000806_dist_halo3d_v7x_xyz2x2x2_s16_f32_1_alg».proof.Proof.Halo.Spec
import Idealize.ShloMosaic.PureOps.Ideal.Laws
import Idealize.ShloMosaic.Lib.Pipeline.Value
import Idealize.ShloMosaic.Lib.ValueIdx

/-! The reference's side: its run, and its result read at an index. -/

noncomputable section

namespace Cert.Halo.RefValue

open Idealize.ShloMosaic Idealize.ShloMosaic.ValueIdx Idealize.ShloMosaic.TcCoe Idealize.SL.Sem
open Cert.ReferenceIdeal Cert.ReferenceIdeal.Gen

/-- A fold of pointwise overwrites, read at a point no overwrite names: the initial value. -/
theorem foldl_set_miss {ι β α : Type} [DecidableEq ι] (p : β → ι) (v : β → α) (i : ι) (L : List β)
    (x : ι → α) (h : ∀ n ∈ L, p n ≠ i) :
    (L.foldl (fun r n => fun i' => if i' = p n then v n else r i') x) i = x i := by
  induction L generalizing x with
  | nil => rfl
  | cons n L ih =>
    rw [List.foldl_cons, ih _ (fun m hm => h m (List.mem_cons_of_mem _ hm))]
    exact if_neg (fun e => h n (List.mem_cons_self ..) e.symm)

/-- A fold of pointwise overwrites, read at a point exactly one overwrite names: that overwrite's value. -/
theorem foldl_set_hit {ι β α : Type} [DecidableEq ι] (p : β → ι) (v : β → α) (i : ι) (n₀ : β) (L : List β)
    (x : ι → α) (hn₀ : n₀ ∈ L) (hp : p n₀ = i) (huniq : ∀ n ∈ L, p n = i → n = n₀) :
    (L.foldl (fun r n => fun i' => if i' = p n then v n else r i') x) i = v n₀ := by
  induction L using List.reverseRecOn with
  | nil => cases hn₀
  | append_singleton L n ih =>
    rw [List.foldl_append, List.foldl_cons, List.foldl_nil]
    by_cases hn : p n = i
    · have : n = n₀ := huniq n (by simp) hn
      subst this
      exact if_pos hn.symm
    · show (if i = p n then v n else _) = _
      rw [if_neg (fun e => hn e.symm)]
      refine ih ?_ (fun m hm => huniq m (List.mem_append_left _ hm))
      rcases List.mem_append.1 hn₀ with h | h
      · exact h
      · rw [List.mem_singleton] at h; subst h; exact absurd hp hn

/-- A scatter whose body returns the update, every update landing inside the operand at `g j` with `g` injective:
    the update `j` at `g j`. -/
theorem scatter_set_hit {s si u : Shape} {w : Nat} {α : Type} (d : ScatterDims s si u) (x : s.Idx → α) (idx : IVec si w)
    (upd : u.Idx → α) (g : u.Idx → s.Idx) (hg : ∀ j, d.resultIdx? j idx = some (g j)) (hinj : Function.Injective g)
    (j : u.Idx) : Host.scatter d (fun _ b => b) x idx upd (g j) = upd j := by
  unfold Host.scatter
  simp only [hg]
  refine (foldl_set_hit (fun n => g (u.rowMajor.symm n)) (fun n => upd (u.rowMajor.symm n)) (g j) (u.rowMajor j) _ x
    (List.mem_finRange _) (by rw [Equiv.symm_apply_apply]) (fun n _ hn => ?_)).trans (by rw [Equiv.symm_apply_apply])
  rw [← hinj hn, Equiv.apply_symm_apply]

/-- The same scatter at an index no update lands on: the operand. -/
theorem scatter_set_miss {s si u : Shape} {w : Nat} {α : Type} (d : ScatterDims s si u) (x : s.Idx → α) (idx : IVec si w)
    (upd : u.Idx → α) (g : u.Idx → s.Idx) (hg : ∀ j, d.resultIdx? j idx = some (g j))
    (i : s.Idx) (hi : ∀ j, g j ≠ i) : Host.scatter d (fun _ b => b) x idx upd i = x i := by
  unfold Host.scatter
  simp only [hg]
  exact foldl_set_miss (fun n => g (u.rowMajor.symm n)) (fun n => upd (u.rowMajor.symm n)) i _ x (fun n _ => hi _)

/-- The index vector: every component is the word 1. -/
theorem idx_one (k : S3.Idx) : Read.val_main_v19 (F := Ideal) k = 1#32 := by
  unfold Read.val_main_v19
  have e : Read.val_main_v17 (F := Ideal) = Read.val_main_v16 := rfl
  have e' : Read.val_main_v18 (F := Ideal) = Read.val_main_v16 := rfl
  rw [e, e']
  refine (concatenate_replicate_apply (t := S3) (s₁ := S1) 0 3 (Read.val_main_v16 (F := Ideal))
    concatenates_S1_S1_S1_S3_d0 rfl k (ix1 (⟨0, Nat.one_pos⟩ : Fin 1)) ?_ ?_).trans rfl
  · show 0 = (k 0).val % 1
    omega
  · intro b hb
    exact absurd (Subsingleton.elim _ _) hb

/-- The scatter's dimension numbers: window axes 0, 1, 2 of the update onto axes 0, 1, 2 of the operand, one index
    vector of three components. -/
abbrev D := scatter_S32x32x32_S3_S30x30x30_012_n_012_0

/-- Every axis starts at the index vector's component, 1. -/
theorem start_one (j : S30x30x30.Idx) (a : Fin 3) : D.start j (Read.val_main_v19 (F := Ideal)) a = 1 := by
  unfold ScatterDims.start
  have ha : a ∈ D.scatterDimsToOperandDims := by
    show a ∈ ([0, 1, 2] : List (Fin 3))
    revert a; decide
  rw [dif_pos ha, idx_one]
  rfl

/-- The window coordinate on an axis is the update's coordinate on it. -/
theorem window_eq (j : S30x30x30.Idx) (a : Fin 3) : D.window j a = (j a).val := by
  match a with
  | ⟨0, _⟩ => rfl
  | ⟨1, _⟩ => rfl
  | ⟨2, _⟩ => rfl

theorem size30 (a : Fin 3) : S30x30x30.size a = 30 := by
  match a with
  | ⟨0, _⟩ => rfl
  | ⟨1, _⟩ => rfl
  | ⟨2, _⟩ => rfl
theorem size32 (a : Fin 3) : S32x32x32.size a = 32 := by
  match a with
  | ⟨0, _⟩ => rfl
  | ⟨1, _⟩ => rfl
  | ⟨2, _⟩ => rfl

/-- Update index `j` lands one step in on every axis. -/
theorem resultIdx_eq (j : S30x30x30.Idx) :
    D.resultIdx? j (Read.val_main_v19 (F := Ideal)) = some (Read.idx_main_v12 j) := by
  unfold ScatterDims.resultIdx?
  have H : ∀ a : Fin 3, 0 ≤ D.start j (Read.val_main_v19 (F := Ideal)) a + (D.window j a : Int)
      ∧ D.start j (Read.val_main_v19 (F := Ideal)) a + (D.window j a : Int) < (S32x32x32.size a : Int) := by
    intro a
    have h30 : (j a).val < 30 := lt_of_lt_of_eq (j a).isLt (size30 a)
    rw [start_one, window_eq, size32]
    omega
  rw [dif_pos H]
  congr 1
  funext a
  refine Fin.ext ?_
  show (D.start j (Read.val_main_v19 (F := Ideal)) a + (D.window j a : Int)).toNat = _
  rw [start_one, window_eq]
  match a with
  | ⟨0, _⟩ => show ((1 : Int) + ((j 0).val : Int)).toNat = 1 + (j 0).val; omega
  | ⟨1, _⟩ => show ((1 : Int) + ((j 1).val : Int)).toNat = 1 + (j 1).val; omega
  | ⟨2, _⟩ => show ((1 : Int) + ((j 2).val : Int)).toNat = 1 + (j 2).val; omega

/-- The one-device program's result as a function of its argument: the interior's stencil values written one step in
    on every axis into an array of zeros. -/
noncomputable def refOut (U : (⟨Cert.ReferenceIdeal.S32x32x32, .f32⟩ : BufTy).Contents (Elt Ideal)) :
    (⟨Cert.ReferenceIdeal.S32x32x32, .f32⟩ : BufTy).Contents (Elt Ideal) :=
  Host.scatter scatter_S32x32x32_S3_S30x30x30_012_n_012_0 (fun _ b => b) (broadcastInDim S32x32x32 ![] bcast_S_S32x32x32 (constant (F := Ideal) S_ .f32 0x00000000#32)) (concatenate S3 0 [⟨S1, (broadcastInDim S1 ![] bcast_S_S1 (constantI S_ 32 1#32))⟩, ⟨S1, (broadcastInDim S1 ![] bcast_S_S1 (constantI S_ 32 1#32))⟩, ⟨S1, (broadcastInDim S1 ![] bcast_S_S1 (constantI S_ 32 1#32))⟩] concatenates_S1_S1_S1_S3_d0) (subf (addf (addf (addf (addf (addf (extractStridedSlice S30x30x30 ![0, 1, 1] U slices_S32x32x32_S30x30x30_0_1_1) (extractStridedSlice S30x30x30 ![2, 1, 1] U slices_S32x32x32_S30x30x30_2_1_1)) (extractStridedSlice S30x30x30 ![1, 0, 1] U slices_S32x32x32_S30x30x30_1_0_1)) (extractStridedSlice S30x30x30 ![1, 2, 1] U slices_S32x32x32_S30x30x30_1_2_1)) (extractStridedSlice S30x30x30 ![1, 1, 0] U slices_S32x32x32_S30x30x30_1_1_0)) (extractStridedSlice S30x30x30 ![1, 1, 2] U slices_S32x32x32_S30x30x30_1_1_2)) (mulf (broadcastInDim S30x30x30 ![] bcast_S_S30x30x30 (constant (F := Ideal) S_ .f32 0x40C00000#32)) (extractStridedSlice S30x30x30 ![1, 1, 1] U slices_S32x32x32_S30x30x30_1_1_1)))

/-- Every fair execution of the one-device program ends with its result at `refOut` of the argument, the argument
    unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread _ Cert.ReferenceIdeal.τ).loc Cert.ReferenceIdeal.main_v20)
          = refOut (m' ((c.tc : Thread _ Cert.ReferenceIdeal.τ).loc Cert.ReferenceIdeal.main_arg0))
        ∧ r.2.mem ((c.tc : Thread _ Cert.ReferenceIdeal.τ).loc Cert.ReferenceIdeal.main_arg0)
          = m' ((c.tc : Thread _ Cert.ReferenceIdeal.τ).loc Cert.ReferenceIdeal.main_arg0)) :=
  Cert.ReferenceIdeal.Value.run (F := Ideal) m' g'

/-- The composed term, stage by stage. -/
theorem refOut_eq (U : (⟨Cert.ReferenceIdeal.S32x32x32, .f32⟩ : BufTy).Contents (Elt Ideal)) :
    refOut U = Read.val_main_v20 (F := Ideal) U := rfl

/-- Two update indices landing on the same element are the same. -/
theorem idx12_inj : Function.Injective Read.idx_main_v12 := by
  intro j j' h
  have h0 : 1 + (j 0).val = 1 + (j' 0).val := congrArg (fun k : S32x32x32.Idx => (k 0).val) h
  have h1 : 1 + (j 1).val = 1 + (j' 1).val := congrArg (fun k : S32x32x32.Idx => (k 1).val) h
  have h2 : 1 + (j 2).val = 1 + (j' 2).val := congrArg (fun k : S32x32x32.Idx => (k 2).val) h
  funext a
  refine Fin.ext ?_
  match a with
  | ⟨0, _⟩ => show (j 0).val = (j' 0).val; omega
  | ⟨1, _⟩ => show (j 1).val = (j' 1).val; omega
  | ⟨2, _⟩ => show (j 2).val = (j' 2).val; omega

/-- The whole array read at an index's own coordinates is its element there. -/
theorem at3_idx (V : W32.Idx → EReal) (k : S32x32x32.Idx) : at3 V (k 0).val (k 1).val (k 2).val = V k := by
  unfold at3
  rw [dif_pos ⟨(k 0).isLt, (k 1).isLt, (k 2).isLt⟩]
  exact congrArg V (eq_ix3 k).symm

/-- The same with the coordinates named. -/
theorem at3_of (V : W32.Idx → EReal) (x y z : ℕ) (k : S32x32x32.Idx) (h0 : (k 0).val = x) (h1 : (k 1).val = y)
    (h2 : (k 2).val = z) : at3 V x y z = V k := by
  subst h0 h1 h2
  exact at3_idx V k

/-- THE REFERENCE'S RESULT AT AN INDEX: the seven-point stencil of the argument at an interior point, zero on the
    boundary of the cube. -/
theorem refOut_apply (U : (⟨Cert.ReferenceIdeal.S32x32x32, .f32⟩ : BufTy).Contents (Elt Ideal))
    (i : Cert.ReferenceIdeal.S32x32x32.Idx) :
    (refOut U i : EReal) = Cert.Halo.lap (fun j => (U j : EReal)) (i 0).val (i 1).val (i 2).val := by
  rw [refOut_eq]
  unfold Read.val_main_v20 lap
  by_cases hI : Interior (i 0).val (i 1).val (i 2).val
  · rw [if_pos hI]
    obtain ⟨hx0, hx1, hy0, hy1, hz0, hz1⟩ := hI
    -- the update index that lands on `i`
    obtain ⟨j₀, hj0, hj1, hj2⟩ : ∃ j₀ : S30x30x30.Idx, (j₀ 0).val = (i 0).val - 1 ∧ (j₀ 1).val = (i 1).val - 1
        ∧ (j₀ 2).val = (i 2).val - 1 :=
      ⟨ix3 (⟨(i 0).val - 1, by omega⟩ : Fin 30) (⟨(i 1).val - 1, by omega⟩ : Fin 30) (⟨(i 2).val - 1, by omega⟩ : Fin 30),
        rfl, rfl, rfl⟩
    have hj : Read.idx_main_v12 j₀ = i := by
      funext a
      refine Fin.ext ?_
      match a with
      | ⟨0, _⟩ => show 1 + (j₀ 0).val = (i 0).val; omega
      | ⟨1, _⟩ => show 1 + (j₀ 1).val = (i 1).val; omega
      | ⟨2, _⟩ => show 1 + (j₀ 2).val = (i 2).val; omega
    have key := scatter_set_hit D (Read.val_main_v0 (F := Ideal)) (Read.val_main_v19 (F := Ideal))
      (Read.val_main_v15 (F := Ideal) U) Read.idx_main_v12 resultIdx_eq idx12_inj j₀
    rw [hj] at key
    rw [key, Read.val_main_v15_apply, Read.val_main_v11_apply, Read.val_main_v9_apply, Read.val_main_v7_apply,
      Read.val_main_v5_apply, Read.val_main_v3_apply, Read.val_main_v1_apply, Read.val_main_v2_apply,
      Read.val_main_v4_apply, Read.val_main_v6_apply, Read.val_main_v8_apply, Read.val_main_v10_apply,
      Read.val_main_v14_apply, Read.val_main_v13_apply, Read.val_main_cst_0_apply, Read.val_main_v12_apply]
    rw [at3_of (fun j => (U j : EReal)) ((i 0).val - 1) (i 1).val (i 2).val (Read.idx_main_v1 j₀)
        (by show (j₀ 0).val = (i 0).val - 1; omega) (by show 1 + (j₀ 1).val = (i 1).val; omega)
        (by show 1 + (j₀ 2).val = (i 2).val; omega),
      at3_of (fun j => (U j : EReal)) ((i 0).val + 1) (i 1).val (i 2).val (Read.idx_main_v2 j₀)
        (by show 2 + (j₀ 0).val = (i 0).val + 1; omega) (by show 1 + (j₀ 1).val = (i 1).val; omega)
        (by show 1 + (j₀ 2).val = (i 2).val; omega),
      at3_of (fun j => (U j : EReal)) (i 0).val ((i 1).val - 1) (i 2).val (Read.idx_main_v4 j₀)
        (by show 1 + (j₀ 0).val = (i 0).val; omega) (by show (j₀ 1).val = (i 1).val - 1; omega)
        (by show 1 + (j₀ 2).val = (i 2).val; omega),
      at3_of (fun j => (U j : EReal)) (i 0).val ((i 1).val + 1) (i 2).val (Read.idx_main_v6 j₀)
        (by show 1 + (j₀ 0).val = (i 0).val; omega) (by show 2 + (j₀ 1).val = (i 1).val + 1; omega)
        (by show 1 + (j₀ 2).val = (i 2).val; omega),
      at3_of (fun j => (U j : EReal)) (i 0).val (i 1).val ((i 2).val - 1) (Read.idx_main_v8 j₀)
        (by show 1 + (j₀ 0).val = (i 0).val; omega) (by show 1 + (j₀ 1).val = (i 1).val; omega)
        (by show (j₀ 2).val = (i 2).val - 1; omega),
      at3_of (fun j => (U j : EReal)) (i 0).val (i 1).val ((i 2).val + 1) (Read.idx_main_v10 j₀)
        (by show 1 + (j₀ 0).val = (i 0).val; omega) (by show 1 + (j₀ 1).val = (i 1).val; omega)
        (by show 2 + (j₀ 2).val = (i 2).val + 1; omega),
      at3_of (fun j => (U j : EReal)) (i 0).val (i 1).val (i 2).val (Read.idx_main_v12 j₀)
        (by show 1 + (j₀ 0).val = (i 0).val; omega) (by show 1 + (j₀ 1).val = (i 1).val; omega)
        (by show 1 + (j₀ 2).val = (i 2).val; omega)]
    rfl
  · rw [if_neg hI]
    have hmiss : ∀ j : S30x30x30.Idx, Read.idx_main_v12 j ≠ i := by
      intro j e
      have h0 : 1 + (j 0).val = (i 0).val := congrArg (fun k : S32x32x32.Idx => (k 0).val) e
      have h1 : 1 + (j 1).val = (i 1).val := congrArg (fun k : S32x32x32.Idx => (k 1).val) e
      have h2 : 1 + (j 2).val = (i 2).val := congrArg (fun k : S32x32x32.Idx => (k 2).val) e
      have b0 : (j 0).val < 30 := (j 0).isLt
      have b1 : (j 1).val < 30 := (j 1).isLt
      have b2 : (j 2).val < 30 := (j 2).isLt
      exact hI ⟨by omega, by omega, by omega, by omega, by omega, by omega⟩
    rw [scatter_set_miss D (Read.val_main_v0 (F := Ideal)) (Read.val_main_v19 (F := Ideal))
      (Read.val_main_v15 (F := Ideal) U) Read.idx_main_v12 resultIdx_eq i hmiss, Read.val_main_v0_apply,
      Read.val_main_cst_apply]
    exact Ideal.ofBits_zero_f32

/-- info: 'Cert.Halo.RefValue.refOut_apply' depends on axioms: [propext, Classical.choice, Quot.sound] -/
#guard_msgs in #print axioms Cert.Halo.RefValue.refOut_apply

end Cert.Halo.RefValue

end
-- ==== Proof.Halo.LocalSpec.lean ====
import proofs.«900805_g7700000000000806_dist_halo3d_v7x_xyz2x2x2_s16_f32_1_alg».proof.Proof.Halo.Spec

/-!
# The stencil as one device sees it

Device `c` holds the block of the cube whose coordinates on the three axes have quotients by `16` equal to
`c`'s mesh coordinates `(c / 4, c / 2 % 2, c % 2)`. Before any face arrives a device can only add the
neighbours that lie in its own block; the others count as `0`. `lap1` is that partial stencil. What is missing
from it at an interior point is exactly the neighbours across a block face, one per axis at most.
-/

noncomputable section

namespace Cert.Halo

open Idealize.ShloMosaic

/-- The point lies in the block of device number `c`. -/
def InBlk (c x y z : ℕ) : Prop := x / 16 = c / 4 ∧ y / 16 = c / 2 % 2 ∧ z / 16 = c % 2

instance (c x y z : ℕ) : Decidable (InBlk c x y z) := by unfold InBlk; infer_instance

/-- The cube read at a point, `0` when the point is outside device `c`'s block. -/
def atL (U : W32.Idx → EReal) (c x y z : ℕ) : EReal := if InBlk c x y z then at3 U x y z else 0

/-- The stencil restricted to device `c`'s block, grouped as the kernel groups it. -/
def lap1 (U : W32.Idx → EReal) (c x y z : ℕ) : EReal :=
  if Interior x y z then
    (((((atL U c (x - 1) y z + atL U c (x + 1) y z) + atL U c x (y - 1) z) + atL U c x (y + 1) z)
        + atL U c x y (z - 1)) + atL U c x y (z + 1)) - six * at3 U x y z
  else 0

/-- The origin of device `c`'s block on each axis. -/
def ox (c : ℕ) : ℕ := 16 * (c / 4)
def oy (c : ℕ) : ℕ := 16 * (c / 2 % 2)
def oz (c : ℕ) : ℕ := 16 * (c % 2)

end Cert.Halo

end
-- ==== Proof.Halo.Faces.lean ====
import proofs.«900805_g7700000000000806_dist_halo3d_v7x_xyz2x2x2_s16_f32_1_alg».proof.Proof.KernelIdeal.Contents
import proofs.«900805_g7700000000000806_dist_halo3d_v7x_xyz2x2x2_s16_f32_1_alg».proof.Proof.Halo.LocalSpec
import Idealize.ShloMosaic.Lib.Pipeline.Value
import Idealize.ShloMosaic.Lib.ValueIdx
import Idealize.ShloMosaic.PureOps.Ideal.Laws

/-!
# The received faces complete the stencil

Device `c` holds the block of the cube with origin `(ox c, oy c, oz c)`. After its local step the output block holds the
partial stencil `lap1`: at an interior point, the sum of the neighbours that lie in the block, minus six times the
centre. What is missing is, per axis, at most one neighbour: the one across the block's face towards the other half of
the cube, and only on the face plane itself.

Each of the three later steps adds one received face. The receive buffer's plane `a` is the neighbour's face plane
along axis `a`: as a plane of the cube, the plane `16` when `c`'s coordinate on that axis is `0` and the plane `15` when it
is `1` — exactly the missing neighbour's plane. The x-face is added into the block's plane `x = 15 − 15·(c / 4)` under
the interior test of the y- and z-coordinates, the y-face likewise into the plane `y = 15 − 15·(c / 2 % 2)`, and the z-face
into every entry under a test that singles out the plane `z = 15 − 15·(c % 2)` and asks the x- and y-coordinates to be
interior. On a face plane the coordinate of that axis is `15` or `16`, interior by itself, so each test is the interior
test of the point.

Index by index the result is the stencil of the whole cube: outside the interior every term is `0`; inside, the seven
summands of `lap1` and the three added entries are the seven summands of `lap`, regrouped by commutativity and
associativity of the sum of extended reals.

The local step's values and the send buffers' entries are taken as hypotheses, in the form the statements below spell.
-/

noncomputable section

namespace Cert.Halo.KernelValue

open Idealize.ShloMosaic Idealize.ShloMosaic.ValueIdx Idealize.ShloMosaic.TcCoe
open Cert.KernelIdeal Cert.KernelIdeal.Gen Cert.KernelIdeal.Halo Cert.Halo

/-! ## The mesh: what the neighbour across a face holds

The neighbour of `c` along axis `a` has `c`'s block origins on the two other axes; on axis `a` its block is the
other half of the cube, and the plane it sends — its last when its coordinate is `0`, its first when it is `1` —
is the plane of the cube next to `c`'s face: plane `16` when `c`'s coordinate is `0`, plane `15` when it is `1`. -/

theorem nb0_x : ∀ c : Dev nD, ox (nb 0 c).val + (if (nb 0 c).val / 4 = 0 then 15 else 0) = (if c.val / 4 = 0 then 16 else 15) := by decide
theorem nb0_y : ∀ c : Dev nD, oy (nb 0 c).val = oy c.val := by decide
theorem nb0_z : ∀ c : Dev nD, oz (nb 0 c).val = oz c.val := by decide
theorem nb1_x : ∀ c : Dev nD, ox (nb 1 c).val = ox c.val := by decide
theorem nb1_y : ∀ c : Dev nD, oy (nb 1 c).val + (if (nb 1 c).val / 2 % 2 = 0 then 15 else 0) = (if c.val / 2 % 2 = 0 then 16 else 15) := by decide
theorem nb1_z : ∀ c : Dev nD, oz (nb 1 c).val = oz c.val := by decide
theorem nb2_x : ∀ c : Dev nD, ox (nb 2 c).val = ox c.val := by decide
theorem nb2_y : ∀ c : Dev nD, oy (nb 2 c).val = oy c.val := by decide
theorem nb2_z : ∀ c : Dev nD, oz (nb 2 c).val + (if (nb 2 c).val % 2 = 0 then 15 else 0) = (if c.val % 2 = 0 then 16 else 15) := by decide

section Recv
variable (U : W32.Idx → EReal) (us : Dev nD → BlkC Ideal)

/-- The received x-face: the cube's plane just across `c`'s x-face. -/
theorem recv0
    (hs0 : ∀ d (q r : Fin 16), (sendC (us d) d (ValueIdx.ix3 (0 : Fin 3) q r) : EReal) = at3 U (ox d.val + (if d.val / 4 = 0 then 15 else 0)) (oy d.val + q.val) (oz d.val + r.val))
    (c : Dev nD) (q r : Fin 16) :
    (recvC us c (ValueIdx.ix3 (0 : Fin 3) q r) : EReal)
      = at3 U (if c.val / 4 = 0 then 16 else 15) (oy c.val + q.val) (oz c.val + r.val) := by
  have e : (recvC us c (ValueIdx.ix3 (0 : Fin 3) q r) : EReal) = (sendC (us (nb 0 c)) (nb 0 c) (ValueIdx.ix3 (0 : Fin 3) q r) : EReal) := rfl
  rw [e, hs0, nb0_x, nb0_y, nb0_z]

/-- The received y-face. -/
theorem recv1
    (hs1 : ∀ d (q r : Fin 16), (sendC (us d) d (ValueIdx.ix3 (1 : Fin 3) q r) : EReal) = at3 U (ox d.val + q.val) (oy d.val + (if d.val / 2 % 2 = 0 then 15 else 0)) (oz d.val + r.val))
    (c : Dev nD) (q r : Fin 16) :
    (recvC us c (ValueIdx.ix3 (1 : Fin 3) q r) : EReal)
      = at3 U (ox c.val + q.val) (if c.val / 2 % 2 = 0 then 16 else 15) (oz c.val + r.val) := by
  have e : (recvC us c (ValueIdx.ix3 (1 : Fin 3) q r) : EReal) = (sendC (us (nb 1 c)) (nb 1 c) (ValueIdx.ix3 (1 : Fin 3) q r) : EReal) := rfl
  rw [e, hs1, nb1_x, nb1_y, nb1_z]

/-- The received z-face. -/
theorem recv2
    (hs2 : ∀ d (q r : Fin 16), (sendC (us d) d (ValueIdx.ix3 (2 : Fin 3) q r) : EReal) = at3 U (ox d.val + q.val) (oy d.val + r.val) (oz d.val + (if d.val % 2 = 0 then 15 else 0)))
    (c : Dev nD) (q r : Fin 16) :
    (recvC us c (ValueIdx.ix3 (2 : Fin 3) q r) : EReal)
      = at3 U (ox c.val + q.val) (oy c.val + r.val) (if c.val % 2 = 0 then 16 else 15) := by
  have e : (recvC us c (ValueIdx.ix3 (2 : Fin 3) q r) : EReal) = (sendC (us (nb 2 c)) (nb 2 c) (ValueIdx.ix3 (2 : Fin 3) q r) : EReal) := rfl
  rw [e, hs2, nb2_x, nb2_y, nb2_z]

end Recv

/-! ## Words: one axis' range test, conjunctions of bits, a select on a decided bit -/

/-- One axis' range test on words: the coordinate `16·m + q` lies strictly between `0` and `31`. -/
theorem inRange_word (m : Nat) (hm : m < 2) (q : Fin 16) :
    IntOp.andi (IntOp.cmpi .sgt (IntOp.addi (BitVec.ofNat 32 q.val) (Scalar.muli (BitVec.ofNat 32 m) 16#32)) 0#32)
      (IntOp.cmpi .slt (IntOp.addi (BitVec.ofNat 32 q.val) (Scalar.muli (BitVec.ofNat 32 m) 16#32)) 31#32)
      = if 0 < 16 * m + q.val ∧ 16 * m + q.val < 31 then 1#1 else 0#1 := by
  revert q
  interval_cases m <;> decide

/-- The face plane's test on words: the local coordinate `r` is the face plane `15·(1 − m)`. -/
theorem isFace_word (m : Nat) (hm : m < 2) (r : Fin 16) :
    IntOp.cmpi .eq (BitVec.ofNat 32 r.val) (Scalar.muli (Scalar.subi 1#32 (BitVec.ofNat 32 m)) 15#32)
      = if r.val = 15 - 15 * m then 1#1 else 0#1 := by
  revert r
  interval_cases m <;> decide

/-- Four bits conjoined from the left are two pairs conjoined. -/
theorem andi_pairs (a b c d : BitVec 1) :
    IntOp.andi (IntOp.andi (IntOp.andi a b) c) d = IntOp.andi (IntOp.andi a b) (IntOp.andi c d) := by
  revert a b c d; decide

/-- Five bits conjoined from the left are a bit and two pairs conjoined. -/
theorem andi_one_pairs (e a b c d : BitVec 1) :
    IntOp.andi (IntOp.andi (IntOp.andi (IntOp.andi e a) b) c) d
      = IntOp.andi e (IntOp.andi (IntOp.andi a b) (IntOp.andi c d)) := by
  revert e a b c d; decide

/-- The conjunction of two decided bits is the bit of the conjunction. -/
theorem andi_decided (P Q : Prop) [Decidable P] [Decidable Q] :
    IntOp.andi (if P then 1#1 else 0#1) (if Q then 1#1 else 0#1) = if P ∧ Q then 1#1 else 0#1 := by
  by_cases hP : P
  · by_cases hQ : Q
    · rw [if_pos hP, if_pos hQ, if_pos ⟨hP, hQ⟩]; decide
    · rw [if_pos hP, if_neg hQ, if_neg (show ¬(P ∧ Q) from fun h => hQ h.2)]; decide
  · rw [if_neg hP, if_neg (show ¬(P ∧ Q) from fun h => hP h.1)]
    by_cases hQ : Q
    · rw [if_pos hQ]; decide
    · rw [if_neg hQ]; decide

/-- A select on a decided bit is the `if` on the decision. -/
theorem select_decided {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-! ## The two plane masks at an index -/

/-- The mask of the x-face, at row `q` and column `r`: the y- and z-coordinates are interior. -/
theorem pay12_apply (c : Dev nD) (q r : Fin 16) :
    k0_pay12 (myW c) (mzW c) rowIota (ValueIdx.ix2 q r)
      = if (0 < oy c.val + q.val ∧ oy c.val + q.val < 31) ∧ (0 < oz c.val + r.val ∧ oz c.val + r.val < 31) then 1#1 else 0#1 := by
  rw [myW_eq, mzW_eq]
  have hA : rowIota (ValueIdx.ix2 q r) = BitVec.ofNat 32 q.val :=
    iota_single_apply .tc S16x16 32 0 iota_S16x16_d0_w32 (ValueIdx.ix2 q r)
  have hB : iota .tc S16x16 32 [1] iota_S16x16_d1_w32 (ValueIdx.ix2 q r) = BitVec.ofNat 32 r.val :=
    iota_single_apply .tc S16x16 32 1 iota_S16x16_d1_w32 (ValueIdx.ix2 q r)
  show IntOp.andi (IntOp.andi (IntOp.andi
        (IntOp.cmpi .sgt (IntOp.addi (rowIota (ValueIdx.ix2 q r)) (Scalar.muli (BitVec.ofNat 32 (c.val / 2 % 2)) 16#32)) 0#32)
        (IntOp.cmpi .slt (IntOp.addi (rowIota (ValueIdx.ix2 q r)) (Scalar.muli (BitVec.ofNat 32 (c.val / 2 % 2)) 16#32)) 31#32))
        (IntOp.cmpi .sgt (IntOp.addi (iota .tc S16x16 32 [1] iota_S16x16_d1_w32 (ValueIdx.ix2 q r)) (Scalar.muli (BitVec.ofNat 32 (c.val % 2)) 16#32)) 0#32))
        (IntOp.cmpi .slt (IntOp.addi (iota .tc S16x16 32 [1] iota_S16x16_d1_w32 (ValueIdx.ix2 q r)) (Scalar.muli (BitVec.ofNat 32 (c.val % 2)) 16#32)) 31#32) = _
  rw [hA, hB, andi_pairs, inRange_word _ (by omega) q, inRange_word _ (by omega) r, andi_decided]
  rfl

/-- The mask of the y-face, at row `p` and column `r`: the x- and z-coordinates are interior. -/
theorem pay13_apply (c : Dev nD) (p r : Fin 16) :
    k0_pay13 (mxW c) (mzW c) rowIota (ValueIdx.ix2 p r)
      = if (0 < ox c.val + p.val ∧ ox c.val + p.val < 31) ∧ (0 < oz c.val + r.val ∧ oz c.val + r.val < 31) then 1#1 else 0#1 := by
  rw [mxW_eq, mzW_eq]
  have hA : rowIota (ValueIdx.ix2 p r) = BitVec.ofNat 32 p.val :=
    iota_single_apply .tc S16x16 32 0 iota_S16x16_d0_w32 (ValueIdx.ix2 p r)
  have hB : iota .tc S16x16 32 [1] iota_S16x16_d1_w32 (ValueIdx.ix2 p r) = BitVec.ofNat 32 r.val :=
    iota_single_apply .tc S16x16 32 1 iota_S16x16_d1_w32 (ValueIdx.ix2 p r)
  show IntOp.andi (IntOp.andi (IntOp.andi
        (IntOp.cmpi .sgt (IntOp.addi (rowIota (ValueIdx.ix2 p r)) (Scalar.muli (BitVec.ofNat 32 (c.val / 4)) 16#32)) 0#32)
        (IntOp.cmpi .slt (IntOp.addi (rowIota (ValueIdx.ix2 p r)) (Scalar.muli (BitVec.ofNat 32 (c.val / 4)) 16#32)) 31#32))
        (IntOp.cmpi .sgt (IntOp.addi (iota .tc S16x16 32 [1] iota_S16x16_d1_w32 (ValueIdx.ix2 p r)) (Scalar.muli (BitVec.ofNat 32 (c.val % 2)) 16#32)) 0#32))
        (IntOp.cmpi .slt (IntOp.addi (iota .tc S16x16 32 [1] iota_S16x16_d1_w32 (ValueIdx.ix2 p r)) (Scalar.muli (BitVec.ofNat 32 (c.val % 2)) 16#32)) 31#32) = _
  have h8 : c.val < 8 := c.isLt
  have h4 : c.val / 4 < 2 := by omega
  rw [hA, hB, andi_pairs, inRange_word _ h4 p, inRange_word _ (by omega) r, andi_decided]
  rfl

/-! ## The z-face mask at an index -/

/-- The mask under which the z-face is added: the z-coordinate is the face plane and the x- and y-coordinates are
    interior. -/
def zMask (v88 v92 : IVec S16x16x16 32) (v155 : BitVec 32) : IVec S16x16x16 1 :=
  andi (andi (andi (andi
    (cmpi .eq (iota .tc S16x16x16 32 [2] iota_S16x16x16_d2_w32) (broadcast S16x16x16 v155))
    (cmpi .sgt v88 (broadcast S16x16x16 0#32))) (cmpi .slt v88 (broadcast S16x16x16 31#32)))
    (cmpi .sgt v92 (broadcast S16x16x16 0#32))) (cmpi .slt v92 (broadcast S16x16x16 31#32))

theorem zMask_apply (c : Dev nD) (p q r : Fin 16) :
    zMask (k0_pay8 (mxW c)) (k0_pay9 (myW c)) (Scalar.muli (Scalar.subi 1#32 (mzW c)) 15#32) (ValueIdx.ix3 p q r)
      = if r.val = 15 - 15 * (c.val % 2)
            ∧ ((0 < ox c.val + p.val ∧ ox c.val + p.val < 31) ∧ (0 < oy c.val + q.val ∧ oy c.val + q.val < 31))
        then 1#1 else 0#1 := by
  rw [mxW_eq, myW_eq, mzW_eq]
  have h0 : iota .tc S16x16x16 32 [0] iota_S16x16x16_d0_w32 (ValueIdx.ix3 p q r) = BitVec.ofNat 32 p.val :=
    iota_single_apply .tc S16x16x16 32 0 iota_S16x16x16_d0_w32 (ValueIdx.ix3 p q r)
  have h1 : iota .tc S16x16x16 32 [1] iota_S16x16x16_d1_w32 (ValueIdx.ix3 p q r) = BitVec.ofNat 32 q.val :=
    iota_single_apply .tc S16x16x16 32 1 iota_S16x16x16_d1_w32 (ValueIdx.ix3 p q r)
  have h2 : iota .tc S16x16x16 32 [2] iota_S16x16x16_d2_w32 (ValueIdx.ix3 p q r) = BitVec.ofNat 32 r.val :=
    iota_single_apply .tc S16x16x16 32 2 iota_S16x16x16_d2_w32 (ValueIdx.ix3 p q r)
  show IntOp.andi (IntOp.andi (IntOp.andi (IntOp.andi
        (IntOp.cmpi .eq (iota .tc S16x16x16 32 [2] iota_S16x16x16_d2_w32 (ValueIdx.ix3 p q r))
          (Scalar.muli (Scalar.subi 1#32 (BitVec.ofNat 32 (c.val % 2))) 15#32))
        (IntOp.cmpi .sgt (IntOp.addi (iota .tc S16x16x16 32 [0] iota_S16x16x16_d0_w32 (ValueIdx.ix3 p q r)) (Scalar.muli (BitVec.ofNat 32 (c.val / 4)) 16#32)) 0#32))
        (IntOp.cmpi .slt (IntOp.addi (iota .tc S16x16x16 32 [0] iota_S16x16x16_d0_w32 (ValueIdx.ix3 p q r)) (Scalar.muli (BitVec.ofNat 32 (c.val / 4)) 16#32)) 31#32))
        (IntOp.cmpi .sgt (IntOp.addi (iota .tc S16x16x16 32 [1] iota_S16x16x16_d1_w32 (ValueIdx.ix3 p q r)) (Scalar.muli (BitVec.ofNat 32 (c.val / 2 % 2)) 16#32)) 0#32))
        (IntOp.cmpi .slt (IntOp.addi (iota .tc S16x16x16 32 [1] iota_S16x16x16_d1_w32 (ValueIdx.ix3 p q r)) (Scalar.muli (BitVec.ofNat 32 (c.val / 2 % 2)) 16#32)) 31#32) = _
  have h8 : c.val < 8 := c.isLt
  have h4 : c.val / 4 < 2 := by omega
  rw [h0, h1, h2, andi_one_pairs, isFace_word _ (by omega) r, inRange_word _ h4 p, inRange_word _ (by omega) q,
    andi_decided, andi_decided]
  rfl

/-! ## The three added terms at an index -/

/-- The x-face's sum at row `q`, column `r` of its plane: the old value plus the received entry under the mask. -/
theorem pay14_apply (m : IVec S16x16 1) (a b : Vec Ideal S1x16x16 .f32) (q r : Fin 16) :
    (k0_pay14 m a b (ValueIdx.ix3 (0 : Fin 1) q r) : EReal)
      = (a (ValueIdx.ix3 (0 : Fin 1) q r) : EReal)
        + Scalar.select (m (ValueIdx.ix2 q r)) (b (ValueIdx.ix3 (0 : Fin 1) q r) : EReal) 0 := by
  have e1 : shapeCast S1x16x16 a shapeCasts_S1x16x16_S1x16x16 = a := shapeCast_self a _
  have e2 : ∀ x : FVec Ideal S16x16 .f32,
      shapeCast S1x16x16 x shapeCasts_S16x16_S1x16x16 (ValueIdx.ix3 (0 : Fin 1) q r) = x (ValueIdx.ix2 q r) := fun x =>
    shapeCast_apply x _ _ (ValueIdx.ix2 q r) (by
      rw [Shape.rowMajor_val_two, Shape.rowMajor_val_three]
      show q.val * 16 + r.val = ((0 : ℕ) * 16 + q.val) * 16 + r.val
      omega)
  have e3 : shapeCast S16x16 b shapeCasts_S1x16x16_S16x16 (ValueIdx.ix2 q r) = b (ValueIdx.ix3 (0 : Fin 1) q r) :=
    shapeCast_apply b _ _ (ValueIdx.ix3 (0 : Fin 1) q r) (by
      rw [Shape.rowMajor_val_two, Shape.rowMajor_val_three]
      show ((0 : ℕ) * 16 + q.val) * 16 + r.val = q.val * 16 + r.val
      omega)
  show (shapeCast S1x16x16 a shapeCasts_S1x16x16_S1x16x16 (ValueIdx.ix3 (0 : Fin 1) q r) : EReal)
      + shapeCast S1x16x16 (select m (shapeCast S16x16 b shapeCasts_S1x16x16_S16x16)
          (broadcast S16x16 (Scalar.ofBits (F := Ideal) .f32 0x00000000#32))) shapeCasts_S16x16_S1x16x16 (ValueIdx.ix3 (0 : Fin 1) q r) = _
  rw [e1, e2, select_apply, e3, broadcast_apply]
  exact congrArg (fun z : EReal => (a (ValueIdx.ix3 (0 : Fin 1) q r) : EReal)
    + Scalar.select (m (ValueIdx.ix2 q r)) (b (ValueIdx.ix3 (0 : Fin 1) q r) : EReal) z) Ideal.ofBits_zero_f32

/-- The y-face's sum at row `p`, column `r` of its plane. -/
theorem pay15_apply (m : IVec S16x16 1) (a : Vec Ideal S16x1x16 .f32) (b : Vec Ideal S1x16x16 .f32) (p r : Fin 16) :
    (k0_pay15 m a b (ValueIdx.ix3 p (0 : Fin 1) r) : EReal)
      = (a (ValueIdx.ix3 p (0 : Fin 1) r) : EReal)
        + Scalar.select (m (ValueIdx.ix2 p r)) (b (ValueIdx.ix3 (0 : Fin 1) p r) : EReal) 0 := by
  have e1 : shapeCast S16x1x16 a shapeCasts_S16x1x16_S16x1x16 = a := shapeCast_self a _
  have e2 : ∀ x : FVec Ideal S16x16 .f32,
      shapeCast S16x1x16 x shapeCasts_S16x16_S16x1x16 (ValueIdx.ix3 p (0 : Fin 1) r) = x (ValueIdx.ix2 p r) := fun x =>
    shapeCast_apply x _ _ (ValueIdx.ix2 p r) (by
      rw [Shape.rowMajor_val_two, Shape.rowMajor_val_three]
      show p.val * 16 + r.val = (p.val * 1 + (0 : ℕ)) * 16 + r.val
      omega)
  have e3 : shapeCast S16x16 b shapeCasts_S1x16x16_S16x16 (ValueIdx.ix2 p r) = b (ValueIdx.ix3 (0 : Fin 1) p r) :=
    shapeCast_apply b _ _ (ValueIdx.ix3 (0 : Fin 1) p r) (by
      rw [Shape.rowMajor_val_two, Shape.rowMajor_val_three]
      show ((0 : ℕ) * 16 + p.val) * 16 + r.val = p.val * 16 + r.val
      omega)
  show (shapeCast S16x1x16 a shapeCasts_S16x1x16_S16x1x16 (ValueIdx.ix3 p (0 : Fin 1) r) : EReal)
      + shapeCast S16x1x16 (select m (shapeCast S16x16 b shapeCasts_S1x16x16_S16x16)
          (broadcast S16x16 (Scalar.ofBits (F := Ideal) .f32 0x00000000#32))) shapeCasts_S16x16_S16x1x16 (ValueIdx.ix3 p (0 : Fin 1) r) = _
  rw [e1, e2, select_apply, e3, broadcast_apply]
  exact congrArg (fun z : EReal => (a (ValueIdx.ix3 p (0 : Fin 1) r) : EReal)
    + Scalar.select (m (ValueIdx.ix2 p r)) (b (ValueIdx.ix3 (0 : Fin 1) p r) : EReal) z) Ideal.ofBits_zero_f32

/-- The z-face's sum at `(p, q, r)`: the old value plus, under the mask, the received entry `(p, q)` whatever `r`. -/
theorem pay16_apply (v88 v92 : IVec S16x16x16 32) (v155 : BitVec 32) (a : Vec Ideal S16x16x16 .f32)
    (b : Vec Ideal S1x16x16 .f32) (p q r : Fin 16) :
    (k0_pay16 v88 v92 v155 a b (ValueIdx.ix3 p q r) : EReal)
      = (a (ValueIdx.ix3 p q r) : EReal)
        + Scalar.select (zMask v88 v92 v155 (ValueIdx.ix3 p q r)) (b (ValueIdx.ix3 (0 : Fin 1) p q) : EReal) 0 := by
  have e1 : shapeCast S16x16x16 a shapeCasts_S16x16x16_S16x16x16 = a := shapeCast_self a _
  have e2 : ∀ x : FVec Ideal S16x16x1 .f32,
      broadcastTo S16x16x16 x broadcasts_S16x16x1_S16x16x16 (ValueIdx.ix3 p q r) = x (ValueIdx.ix3 p q (0 : Fin 1)) := fun x =>
    broadcastTo_apply x _ _ (ValueIdx.ix3 p q (0 : Fin 1)) (fun a =>
      match a with | ⟨0, _⟩ => rfl | ⟨1, _⟩ => rfl | ⟨2, _⟩ => rfl)
  have e3 : ∀ x : FVec Ideal S16x16x1 .f32, shapeCast S16x16x1 x shapeCasts_S16x16x1_S16x16x1 = x := fun x => shapeCast_self x _
  have e4 : ∀ x : FVec Ideal S16x16 .f32,
      shapeCast S16x16x1 x shapeCasts_S16x16_S16x16x1 (ValueIdx.ix3 p q (0 : Fin 1)) = x (ValueIdx.ix2 p q) := fun x =>
    shapeCast_apply x _ _ (ValueIdx.ix2 p q) (by
      rw [Shape.rowMajor_val_two, Shape.rowMajor_val_three]
      show p.val * 16 + q.val = (p.val * 16 + q.val) * 1 + (0 : ℕ)
      omega)
  have e5 : shapeCast S16x16 b shapeCasts_S1x16x16_S16x16 (ValueIdx.ix2 p q) = b (ValueIdx.ix3 (0 : Fin 1) p q) :=
    shapeCast_apply b _ _ (ValueIdx.ix3 (0 : Fin 1) p q) (by
      rw [Shape.rowMajor_val_two, Shape.rowMajor_val_three]
      show ((0 : ℕ) * 16 + p.val) * 16 + q.val = p.val * 16 + q.val
      omega)
  show (shapeCast S16x16x16 a shapeCasts_S16x16x16_S16x16x16 (ValueIdx.ix3 p q r) : EReal)
      + select (zMask v88 v92 v155)
          (broadcastTo S16x16x16 (shapeCast S16x16x1 (shapeCast S16x16x1 (shapeCast S16x16 b shapeCasts_S1x16x16_S16x16)
            shapeCasts_S16x16_S16x16x1) shapeCasts_S16x16x1_S16x16x1) broadcasts_S16x16x1_S16x16x16)
          (broadcast S16x16x16 (Scalar.ofBits (F := Ideal) .f32 0x00000000#32)) (ValueIdx.ix3 p q r) = _
  rw [e1, select_apply, e2, e3, e4, e5, broadcast_apply]
  exact congrArg (fun z : EReal => (a (ValueIdx.ix3 p q r) : EReal)
    + Scalar.select (zMask v88 v92 v155 (ValueIdx.ix3 p q r)) (b (ValueIdx.ix3 (0 : Fin 1) p q) : EReal) z) Ideal.ofBits_zero_f32

/-! ## Where the three planes sit

Plane `a` of a scratch buffer at `(q, r)` is the buffer's entry `(a, q, r)`; the x-plane the received x-face is added
into is the block's plane `x = 15 − 15·(c / 4)`, the y-plane the plane `y = 15 − 15·(c / 2 % 2)`. -/

theorem idxP0 (q r : Fin 16) : (rP0 : Rect S3x16x16).idx (ValueIdx.ix3 (0 : Fin 1) q r) = ValueIdx.ix3 (0 : Fin 3) q r := by
  funext a
  apply Fin.ext
  match a with
  | ⟨0, _⟩ => show 0 + 1 * 0 = 0; omega
  | ⟨1, _⟩ => show 0 + 1 * q.val = q.val; omega
  | ⟨2, _⟩ => show 0 + 1 * r.val = r.val; omega

theorem idxP1 (q r : Fin 16) : (rP1 : Rect S3x16x16).idx (ValueIdx.ix3 (0 : Fin 1) q r) = ValueIdx.ix3 (1 : Fin 3) q r := by
  funext a
  apply Fin.ext
  match a with
  | ⟨0, _⟩ => show 1 + 1 * 0 = 1; omega
  | ⟨1, _⟩ => show 0 + 1 * q.val = q.val; omega
  | ⟨2, _⟩ => show 0 + 1 * r.val = r.val; omega

theorem idxP2 (q r : Fin 16) : (rP2 : Rect S3x16x16).idx (ValueIdx.ix3 (0 : Fin 1) q r) = ValueIdx.ix3 (2 : Fin 3) q r := by
  funext a
  apply Fin.ext
  match a with
  | ⟨0, _⟩ => show 2 + 1 * 0 = 2; omega
  | ⟨1, _⟩ => show 0 + 1 * q.val = q.val; omega
  | ⟨2, _⟩ => show 0 + 1 * r.val = r.val; omega

theorem idxX (c : Dev nD) (p q r : Fin 16) (hp : p.val = 15 - 15 * (c.val / 4)) :
    (rX c).idx (ValueIdx.ix3 (0 : Fin 1) q r) = ValueIdx.ix3 p q r := by
  funext a
  apply Fin.ext
  show k0_off1 c a + 1 * ((ValueIdx.ix3 (0 : Fin 1) q r) a).val = ((ValueIdx.ix3 p q r) a).val
  rw [k0_off1_eq]
  match a with
  | ⟨0, _⟩ => show (15 - 15 * (c.val / 4)) + 1 * 0 = p.val; omega
  | ⟨1, _⟩ => show 0 + 1 * q.val = q.val; omega
  | ⟨2, _⟩ => show 0 + 1 * r.val = r.val; omega

theorem idxY (c : Dev nD) (p q r : Fin 16) (hq : q.val = 15 - 15 * (c.val / 2 % 2)) :
    (rY c).idx (ValueIdx.ix3 p (0 : Fin 1) r) = ValueIdx.ix3 p q r := by
  funext a
  apply Fin.ext
  show k0_off2 c a + 1 * ((ValueIdx.ix3 p (0 : Fin 1) r) a).val = ((ValueIdx.ix3 p q r) a).val
  rw [k0_off2_eq]
  match a with
  | ⟨0, _⟩ => show 0 + 1 * p.val = p.val; omega
  | ⟨1, _⟩ => show (15 - 15 * (c.val / 2 % 2)) + 1 * 0 = q.val; omega
  | ⟨2, _⟩ => show 0 + 1 * r.val = r.val; omega

/-- An entry off the x-plane is not under the x-plane's access. -/
theorem not_mem_X (c : Dev nD) (p q r : Fin 16) (hp : ¬ p.val = 15 - 15 * (c.val / 4)) :
    (ValueIdx.ix3 p q r : S16x16x16.Idx) ∉ (outM.access (rX c) : View sig .tc _ _ _).setOn Finset.univ := by
  intro hmem
  rw [View.setOn_univ, View.set_slice_whole, Rect.mem_set_unit] at hmem
  have h0 := hmem (0 : Fin 3)
  rw [k0_off1_eq] at h0
  have h0' : 15 - 15 * (c.val / 4) ≤ p.val ∧ p.val < 15 - 15 * (c.val / 4) + 1 := h0
  omega

/-- An entry off the y-plane is not under the y-plane's access. -/
theorem not_mem_Y (c : Dev nD) (p q r : Fin 16) (hq : ¬ q.val = 15 - 15 * (c.val / 2 % 2)) :
    (ValueIdx.ix3 p q r : S16x16x16.Idx) ∉ (outM.access (rY c) : View sig .tc _ _ _).setOn Finset.univ := by
  intro hmem
  rw [View.setOn_univ, View.set_slice_whole, Rect.mem_set_unit] at hmem
  have h1 := hmem (1 : Fin 3)
  rw [k0_off2_eq] at h1
  have h1' : 15 - 15 * (c.val / 2 % 2) ≤ q.val ∧ q.val < 15 - 15 * (c.val / 2 % 2) + 1 := h1
  omega

/-! ## The output block after each face is added

Each step is stated over the extended reals `a` (the entry before the step) and `t` (the received entry), identified by
hypotheses: the caller supplies what they are. -/

section Steps
variable (us : Dev nD → BlkC Ideal) (c : Dev nD)

/-- After the x-face: on the plane `x = 15 − 15·(c / 4)` the received entry is added where the y- and z-coordinates are
    interior; every other entry keeps its value. -/
theorem out2_apply (p q r : Fin 16) (a t : EReal)
    (ha : (out1 (us c) c (ValueIdx.ix3 p q r) : EReal) = a)
    (ht : (recvC us c (ValueIdx.ix3 (0 : Fin 3) q r) : EReal) = t) :
    (out2 us c (ValueIdx.ix3 p q r) : EReal)
      = a + (if p.val = 15 - 15 * (c.val / 4) then
              (if (0 < oy c.val + q.val ∧ oy c.val + q.val < 31) ∧ (0 < oz c.val + r.val ∧ oz c.val + r.val < 31)
                then t else 0)
            else 0) := by
  by_cases hp : p.val = 15 - 15 * (c.val / 4)
  · rw [if_pos hp]
    have hw : (out2 us c (ValueIdx.ix3 p q r) : EReal)
        = (k0_pay14 (k0_pay12 (myW c) (mzW c) rowIota)
            (outM.view.readAt (Elt Ideal) (rX c).toLoadRect (out1 (us c) c))
            (rcvM.view.readAt (Elt Ideal) rP0.toLoadRect (recvC us c)) (ValueIdx.ix3 (0 : Fin 1) q r) : EReal) := by
      have h := View.write_emb_of_mem (v := (outM.access (rX c) : View sig .tc _ _ _)) (Val := Elt Ideal)
        (out1 (us c) c)
        (k0_pay14 (k0_pay12 (myW c) (mzW c) rowIota)
          (outM.view.readAt (Elt Ideal) (rX c).toLoadRect (out1 (us c) c))
          (rcvM.view.readAt (Elt Ideal) rP0.toLoadRect (recvC us c)))
        (M := Finset.univ) (x := ValueIdx.ix3 (0 : Fin 1) q r) (Finset.mem_univ _)
      have he : (outM.access (rX c) : View sig .tc _ _ _).emb (ValueIdx.ix3 (0 : Fin 1) q r) = ValueIdx.ix3 p q r :=
        idxX c p q r hp
      rw [he] at h
      exact h.trans (cast_eq _ _)
    have ha' : (outM.view.readAt (Elt Ideal) (rX c).toLoadRect (out1 (us c) c) (ValueIdx.ix3 (0 : Fin 1) q r) : EReal) = a :=
      (congrArg (out1 (us c) c) (idxX c p q r hp)).trans ha
    have ht' : (rcvM.view.readAt (Elt Ideal) rP0.toLoadRect (recvC us c) (ValueIdx.ix3 (0 : Fin 1) q r) : EReal) = t :=
      (congrArg (recvC us c) (idxP0 q r)).trans ht
    rw [hw, pay14_apply, pay12_apply, select_decided, ha', ht']
  · rw [if_neg hp]
    have hw : (out2 us c (ValueIdx.ix3 p q r) : EReal) = (out1 (us c) c (ValueIdx.ix3 p q r) : EReal) :=
      View.write_of_not_mem (v := (outM.access (rX c) : View sig .tc _ _ _)) (Val := Elt Ideal)
        (out1 (us c) c) _ Finset.univ (not_mem_X c p q r hp)
    rw [hw, ha]
    exact (add_zero a).symm

/-- After the y-face: on the plane `y = 15 − 15·(c / 2 % 2)` the received entry is added where the x- and z-coordinates
    are interior; every other entry keeps its value. -/
theorem out3_apply (p q r : Fin 16) (a t : EReal)
    (ha : (out2 us c (ValueIdx.ix3 p q r) : EReal) = a)
    (ht : (recvC us c (ValueIdx.ix3 (1 : Fin 3) p r) : EReal) = t) :
    (out3 us c (ValueIdx.ix3 p q r) : EReal)
      = a + (if q.val = 15 - 15 * (c.val / 2 % 2) then
              (if (0 < ox c.val + p.val ∧ ox c.val + p.val < 31) ∧ (0 < oz c.val + r.val ∧ oz c.val + r.val < 31)
                then t else 0)
            else 0) := by
  by_cases hq : q.val = 15 - 15 * (c.val / 2 % 2)
  · rw [if_pos hq]
    have hw : (out3 us c (ValueIdx.ix3 p q r) : EReal)
        = (k0_pay15 (k0_pay13 (mxW c) (mzW c) rowIota)
            (outM.view.readAt (Elt Ideal) (rY c).toLoadRect (out2 us c))
            (rcvM.view.readAt (Elt Ideal) rP1.toLoadRect (recvC us c)) (ValueIdx.ix3 p (0 : Fin 1) r) : EReal) := by
      have h := View.write_emb_of_mem (v := (outM.access (rY c) : View sig .tc _ _ _)) (Val := Elt Ideal)
        (out2 us c)
        (k0_pay15 (k0_pay13 (mxW c) (mzW c) rowIota)
          (outM.view.readAt (Elt Ideal) (rY c).toLoadRect (out2 us c))
          (rcvM.view.readAt (Elt Ideal) rP1.toLoadRect (recvC us c)))
        (M := Finset.univ) (x := ValueIdx.ix3 p (0 : Fin 1) r) (Finset.mem_univ _)
      have he : (outM.access (rY c) : View sig .tc _ _ _).emb (ValueIdx.ix3 p (0 : Fin 1) r) = ValueIdx.ix3 p q r :=
        idxY c p q r hq
      rw [he] at h
      exact h.trans (cast_eq _ _)
    have ha' : (outM.view.readAt (Elt Ideal) (rY c).toLoadRect (out2 us c) (ValueIdx.ix3 p (0 : Fin 1) r) : EReal) = a :=
      (congrArg (out2 us c) (idxY c p q r hq)).trans ha
    have ht' : (rcvM.view.readAt (Elt Ideal) rP1.toLoadRect (recvC us c) (ValueIdx.ix3 (0 : Fin 1) p r) : EReal) = t :=
      (congrArg (recvC us c) (idxP1 p r)).trans ht
    rw [hw, pay15_apply, pay13_apply, select_decided, ha', ht']
  · rw [if_neg hq]
    have hw : (out3 us c (ValueIdx.ix3 p q r) : EReal) = (out2 us c (ValueIdx.ix3 p q r) : EReal) :=
      View.write_of_not_mem (v := (outM.access (rY c) : View sig .tc _ _ _)) (Val := Elt Ideal)
        (out2 us c) _ Finset.univ (not_mem_Y c p q r hq)
    rw [hw, ha]
    exact (add_zero a).symm

/-- After the z-face: every entry whose z-coordinate is the face plane `15 − 15·(c % 2)` and whose x- and y-coordinates
    are interior gets the received entry `(p, q)` added. -/
theorem outAt_step (p q r : Fin 16) (a t : EReal)
    (ha : (out3 us c (ValueIdx.ix3 p q r) : EReal) = a)
    (ht : (recvC us c (ValueIdx.ix3 (2 : Fin 3) p q) : EReal) = t) :
    (outAt us c (ValueIdx.ix3 p q r) : EReal)
      = a + (if r.val = 15 - 15 * (c.val % 2)
                ∧ ((0 < ox c.val + p.val ∧ ox c.val + p.val < 31) ∧ (0 < oy c.val + q.val ∧ oy c.val + q.val < 31))
              then t else 0) := by
  have ht' : (rcvM.view.readAt (Elt Ideal) rP2.toLoadRect (recvC us c) (ValueIdx.ix3 (0 : Fin 1) p q) : EReal) = t :=
    (congrArg (recvC us c) (idxP2 p q)).trans ht
  have hw : (outAt us c (ValueIdx.ix3 p q r) : EReal)
      = (k0_pay16 (k0_pay8 (mxW c)) (k0_pay9 (myW c)) (Scalar.muli (Scalar.subi 1#32 (mzW c)) 15#32) (out3 us c)
          (rcvM.view.readAt (Elt Ideal) rP2.toLoadRect (recvC us c)) (ValueIdx.ix3 p q r) : EReal) := rfl
  rw [hw, pay16_apply, zMask_apply, select_decided, ha, ht']

end Steps

/-! ## The arithmetic

Along one axis, with the device's coordinate `m ∈ {0, 1}`, local coordinate `p` and global coordinate `X = 16·m + p`
strictly between `0` and `31`: of the two neighbours `X − 1`, `X + 1` the block holds both unless `p` is the face plane
`15 − 15·m`, and then it lacks exactly the one across the face — `16` when `m = 0`, `15` when `m = 1` — which is the entry
the received face supplies. -/

theorem axis_sum (f : ℕ → EReal) (m p X : ℕ) (hm : m < 2) (hp : p < 16) (hX : X = 16 * m + p) (h0 : 0 < X) (h31 : X < 31) :
    ((if (X - 1) / 16 = m then f (X - 1) else 0) + (if (X + 1) / 16 = m then f (X + 1) else 0))
      + (if p = 15 - 15 * m then f (if m = 0 then 16 else 15) else 0)
    = f (X - 1) + f (X + 1) := by
  rcases (show m = 0 ∨ m = 1 by omega) with hm0 | hm1
  · subst hm0
    have e1 : (X - 1) / 16 = 0 := by omega
    by_cases hf : p = 15 - 15 * 0
    · have e2 : ¬ (X + 1) / 16 = 0 := by omega
      have e4 : X + 1 = 16 := by omega
      rw [if_pos e1, if_neg e2, if_pos hf, if_pos rfl, add_zero, e4]
    · have e2 : (X + 1) / 16 = 0 := by omega
      rw [if_pos e1, if_pos e2, if_neg hf, add_zero]
  · subst hm1
    have e2 : (X + 1) / 16 = 1 := by omega
    by_cases hf : p = 15 - 15 * 1
    · have e1 : ¬ (X - 1) / 16 = 1 := by omega
      have e4 : X - 1 = 15 := by omega
      rw [if_neg e1, if_pos e2, if_pos hf, if_neg (by decide), zero_add, e4, add_comm]
    · have e1 : (X - 1) / 16 = 1 := by omega
      rw [if_pos e1, if_pos e2, if_neg hf, add_zero]

/-- Seven summands and three corrections regrouped axis by axis: commutativity and associativity only. -/
theorem regroup {M : Type*} [AddCommMonoid M] {A1 A2 B1 B2 C1 C2 g tx ty tz a1 a2 b1 b2 c1 c2 : M}
    (hx : (A1 + A2) + tx = a1 + a2) (hy : (B1 + B2) + ty = b1 + b2) (hz : (C1 + C2) + tz = c1 + c2) :
    ((((((((A1 + A2) + B1) + B2) + C1) + C2) + g) + tx) + ty) + tz
      = (((((a1 + a2) + b1) + b2) + c1) + c2) + g := by
  have e : ((((((((A1 + A2) + B1) + B2) + C1) + C2) + g) + tx) + ty) + tz
      = (((A1 + A2) + tx) + ((B1 + B2) + ty)) + (((C1 + C2) + tz) + g) := by ac_rfl
  rw [e, hx, hy, hz]
  ac_rfl

section Local
variable (U : W32.Idx → EReal) (c : ℕ)

/-- Device `c`'s view of a point that can only leave its block along x, -/
theorem atL_x (x Y Z : ℕ) (hY : Y / 16 = c / 2 % 2) (hZ : Z / 16 = c % 2) :
    atL U c x Y Z = if x / 16 = c / 4 then at3 U x Y Z else 0 := by
  unfold atL InBlk
  simp only [hY, hZ, and_true]

/-- … along y, -/
theorem atL_y (X y Z : ℕ) (hX : X / 16 = c / 4) (hZ : Z / 16 = c % 2) :
    atL U c X y Z = if y / 16 = c / 2 % 2 then at3 U X y Z else 0 := by
  unfold atL InBlk
  simp only [hX, hZ, and_true, true_and]

/-- … along z. -/
theorem atL_z (X Y z : ℕ) (hX : X / 16 = c / 4) (hY : Y / 16 = c / 2 % 2) :
    atL U c X Y z = if z / 16 = c % 2 then at3 U X Y z else 0 := by
  unfold atL InBlk
  simp only [hX, hY, true_and]

/-- The partial stencil of the block plus the three received entries is the stencil of the cube. -/
theorem stencil_sum (hc : c < 8) (p q r : ℕ) (hp : p < 16) (hq : q < 16) (hr : r < 16) :
    ((lap1 U c (ox c + p) (oy c + q) (oz c + r)
        + (if p = 15 - 15 * (c / 4) then
            (if (0 < oy c + q ∧ oy c + q < 31) ∧ (0 < oz c + r ∧ oz c + r < 31)
              then at3 U (if c / 4 = 0 then 16 else 15) (oy c + q) (oz c + r) else 0)
          else 0))
        + (if q = 15 - 15 * (c / 2 % 2) then
            (if (0 < ox c + p ∧ ox c + p < 31) ∧ (0 < oz c + r ∧ oz c + r < 31)
              then at3 U (ox c + p) (if c / 2 % 2 = 0 then 16 else 15) (oz c + r) else 0)
          else 0))
        + (if r = 15 - 15 * (c % 2)
              ∧ ((0 < ox c + p ∧ ox c + p < 31) ∧ (0 < oy c + q ∧ oy c + q < 31))
            then at3 U (ox c + p) (oy c + q) (if c % 2 = 0 then 16 else 15) else 0)
      = lap U (ox c + p) (oy c + q) (oz c + r) := by
  have hXd : ox c + p = 16 * (c / 4) + p := rfl
  have hYd : oy c + q = 16 * (c / 2 % 2) + q := rfl
  have hZd : oz c + r = 16 * (c % 2) + r := rfl
  generalize ox c + p = X at hXd ⊢
  generalize oy c + q = Y at hYd ⊢
  generalize oz c + r = Z at hZd ⊢
  have hmx : c / 4 < 2 := by omega
  have hmy : c / 2 % 2 < 2 := by omega
  have hmz : c % 2 < 2 := by omega
  unfold lap lap1
  by_cases hI : Interior X Y Z
  · rw [if_pos hI, if_pos hI]
    obtain ⟨hx0, hx1, hy0, hy1, hz0, hz1⟩ := hI
    have hX16 : X / 16 = c / 4 := by omega
    have hY16 : Y / 16 = c / 2 % 2 := by omega
    have hZ16 : Z / 16 = c % 2 := by omega
    rw [if_pos (show (0 < Y ∧ Y < 31) ∧ (0 < Z ∧ Z < 31) from ⟨⟨hy0, hy1⟩, ⟨hz0, hz1⟩⟩),
      if_pos (show (0 < X ∧ X < 31) ∧ (0 < Z ∧ Z < 31) from ⟨⟨hx0, hx1⟩, ⟨hz0, hz1⟩⟩)]
    have hzc : (r = 15 - 15 * (c % 2) ∧ ((0 < X ∧ X < 31) ∧ (0 < Y ∧ Y < 31))) ↔ r = 15 - 15 * (c % 2) :=
      ⟨fun h => h.1, fun h => ⟨h, ⟨hx0, hx1⟩, ⟨hy0, hy1⟩⟩⟩
    rw [if_congr hzc rfl rfl]
    have ax : (atL U c (X - 1) Y Z + atL U c (X + 1) Y Z)
          + (if p = 15 - 15 * (c / 4) then at3 U (if c / 4 = 0 then 16 else 15) Y Z else 0)
        = at3 U (X - 1) Y Z + at3 U (X + 1) Y Z := by
      rw [atL_x U c _ Y Z hY16 hZ16, atL_x U c _ Y Z hY16 hZ16]
      exact axis_sum (fun x => at3 U x Y Z) (c / 4) p X hmx hp hXd hx0 hx1
    have ay : (atL U c X (Y - 1) Z + atL U c X (Y + 1) Z)
          + (if q = 15 - 15 * (c / 2 % 2) then at3 U X (if c / 2 % 2 = 0 then 16 else 15) Z else 0)
        = at3 U X (Y - 1) Z + at3 U X (Y + 1) Z := by
      rw [atL_y U c X _ Z hX16 hZ16, atL_y U c X _ Z hX16 hZ16]
      exact axis_sum (fun y => at3 U X y Z) (c / 2 % 2) q Y hmy hq hYd hy0 hy1
    have az : (atL U c X Y (Z - 1) + atL U c X Y (Z + 1))
          + (if r = 15 - 15 * (c % 2) then at3 U X Y (if c % 2 = 0 then 16 else 15) else 0)
        = at3 U X Y (Z - 1) + at3 U X Y (Z + 1) := by
      rw [atL_z U c X Y _ hX16 hY16, atL_z U c X Y _ hX16 hY16]
      exact axis_sum (fun z => at3 U X Y z) (c % 2) r Z hmz hr hZd hz0 hz1
    rw [sub_eq_add_neg, sub_eq_add_neg]
    exact regroup ax ay az
  · rw [if_neg hI, if_neg hI]
    have tx : (if p = 15 - 15 * (c / 4) then
          (if (0 < Y ∧ Y < 31) ∧ (0 < Z ∧ Z < 31) then at3 U (if c / 4 = 0 then 16 else 15) Y Z else 0)
        else 0) = 0 := by
      by_cases h1 : p = 15 - 15 * (c / 4)
      · rw [if_pos h1, if_neg (show ¬((0 < Y ∧ Y < 31) ∧ (0 < Z ∧ Z < 31)) from fun h2 =>
          hI ⟨by omega, by omega, h2.1.1, h2.1.2, h2.2.1, h2.2.2⟩)]
      · rw [if_neg h1]
    have ty : (if q = 15 - 15 * (c / 2 % 2) then
          (if (0 < X ∧ X < 31) ∧ (0 < Z ∧ Z < 31) then at3 U X (if c / 2 % 2 = 0 then 16 else 15) Z else 0)
        else 0) = 0 := by
      by_cases h1 : q = 15 - 15 * (c / 2 % 2)
      · rw [if_pos h1, if_neg (show ¬((0 < X ∧ X < 31) ∧ (0 < Z ∧ Z < 31)) from fun h2 =>
          hI ⟨h2.1.1, h2.1.2, by omega, by omega, h2.2.1, h2.2.2⟩)]
      · rw [if_neg h1]
    have tz : (if r = 15 - 15 * (c % 2) ∧ ((0 < X ∧ X < 31) ∧ (0 < Y ∧ Y < 31))
          then at3 U X Y (if c % 2 = 0 then 16 else 15) else 0) = 0 :=
      if_neg (fun h1 => hI ⟨h1.2.1.1, h1.2.1.2, h1.2.2.1, h1.2.2.2, by omega, by omega⟩)
    rw [tx, ty, tz, add_zero, add_zero, add_zero]

end Local

/-! ## The output block is the cube's stencil -/

/-- What device `c` returns, at `(p, q, r)` of its block, is the seven-point stencil of the whole cube at the point's global
    coordinates. -/
theorem outAt_apply (U : W32.Idx → EReal) (us : Dev nD → BlkC Ideal)
    (hus : ∀ d (p q r : Fin 16), (us d (ValueIdx.ix3 p q r) : EReal) = at3 U (ox d.val + p.val) (oy d.val + q.val) (oz d.val + r.val))
    (c : Dev nD)
    (h1 : ∀ (p q r : Fin 16), (out1 (us c) c (ValueIdx.ix3 p q r) : EReal) = lap1 U c.val (ox c.val + p.val) (oy c.val + q.val) (oz c.val + r.val))
    (hs0 : ∀ d (q r : Fin 16), (sendC (us d) d (ValueIdx.ix3 (0 : Fin 3) q r) : EReal) = at3 U (ox d.val + (if d.val / 4 = 0 then 15 else 0)) (oy d.val + q.val) (oz d.val + r.val))
    (hs1 : ∀ d (q r : Fin 16), (sendC (us d) d (ValueIdx.ix3 (1 : Fin 3) q r) : EReal) = at3 U (ox d.val + q.val) (oy d.val + (if d.val / 2 % 2 = 0 then 15 else 0)) (oz d.val + r.val))
    (hs2 : ∀ d (q r : Fin 16), (sendC (us d) d (ValueIdx.ix3 (2 : Fin 3) q r) : EReal) = at3 U (ox d.val + q.val) (oy d.val + r.val) (oz d.val + (if d.val % 2 = 0 then 15 else 0)))
    (p q r : Fin 16) :
    (outAt us c (ValueIdx.ix3 p q r) : EReal) = lap U (ox c.val + p.val) (oy c.val + q.val) (oz c.val + r.val) := by
  have e2 := out2_apply us c p q r _ _ (h1 p q r) (recv0 U us hs0 c q r)
  have e3 := out3_apply us c p q r _ _ e2 (recv1 U us hs1 c p r)
  have e4 := outAt_step us c p q r _ _ e3 (recv2 U us hs2 c p q)
  rw [e4]
  exact stencil_sum U c.val c.isLt p.val q.val r.val p.isLt q.isLt r.isLt

/-- info: 'Cert.Halo.KernelValue.outAt_apply' depends on axioms: [propext, Classical.choice, Quot.sound] -/
#guard_msgs in #print axioms Cert.Halo.KernelValue.outAt_apply

end Cert.Halo.KernelValue

end
-- ==== Proof.Halo.Out1.lean ====
import proofs.«900805_g7700000000000806_dist_halo3d_v7x_xyz2x2x2_s16_f32_1_alg».proof.Proof.KernelIdeal.Contents
import proofs.«900805_g7700000000000806_dist_halo3d_v7x_xyz2x2x2_s16_f32_1_alg».proof.Proof.Halo.LocalSpec
import Idealize.ShloMosaic.Lib.Pipeline.Value
import Idealize.ShloMosaic.Lib.ValueLayout
import Idealize.ShloMosaic.PureOps.Ideal.Laws

/-!
# The kernel's local values at the ideal instance

Device `c` holds the block `u` of the cube `U` whose origin is `(ox c, oy c, oz c)`. Read at the extended reals:

* the face it sends along axis `a` is the cube on the plane of the block that touches the neighbour along `a`;
* the block it writes before any face arrives is the stencil restricted to its own block (`lap1`): the six shifted
  copies of the block, a plane of zeros standing in for the neighbours that lie across a face, summed in the
  kernel's order, less six times the centre, kept where every global coordinate lies strictly between `0` and `31`.
-/

noncomputable section

namespace Cert.Halo.KernelValue

open Idealize.ShloMosaic Idealize.ShloMosaic.ValueIdx
open Cert.KernelIdeal Cert.KernelIdeal.Gen Cert.KernelIdeal.Halo
open Cert.Halo

/-! ## The faces a device sends -/

/-- A shape cast to the same shape changes nothing. -/
theorem pay1_apply (v : FVec Ideal S16x16x16 .f32) : k0_pay1 v = v :=
  shapeCast_self v shapeCasts_S16x16x16_S16x16x16

/-- The x-face a device sends: the last plane of its block when its x-coordinate is `0`, the first when it is `1`. -/
theorem pay2_apply (m : ℕ) (hm : m < 2) (v : FVec Ideal S16x16x16 .f32) (q r : Fin 16) :
    k0_pay2 (BitVec.ofNat 32 m) v (ix3 (0 : Fin 1) q r)
      = v (ix3 (⟨if m = 0 then 15 else 0, by split <;> omega⟩ : Fin 16) q r) := by
  unfold k0_pay2
  refine (shapeCast_ab_1ab_apply _ _ 0 q r).trans ?_
  refine (congrFun (select_eq0 m hm _ _) (ix2 q r)).trans ?_
  rw [pay1_apply]
  by_cases h0 : m = 0
  · subst h0
    simp only [↓reduceIte]
    refine (shapeCast_1ab_ab_apply _ _ q r).trans ?_
    exact extractStridedSlice_apply _ v _ _ _ fun a => match a with
      | ⟨0, _⟩ => rfl
      | ⟨1, _⟩ => by show q.val = 0 + q.val; omega
      | ⟨2, _⟩ => by show r.val = 0 + r.val; omega
  · obtain rfl : m = 1 := by omega
    simp only [Nat.one_ne_zero, ↓reduceIte]
    refine (shapeCast_1ab_ab_apply _ _ q r).trans ?_
    exact extractStridedSlice_apply _ v _ _ _ fun a => match a with
      | ⟨0, _⟩ => rfl
      | ⟨1, _⟩ => by show q.val = 0 + q.val; omega
      | ⟨2, _⟩ => by show r.val = 0 + r.val; omega

section Casts
variable {α : Type}

/-- A `[16, 1, 16]` array cast to `[16, 16]` reads, at `(q, r)`, the operand at `(q, 0, r)`. -/
theorem cast_a1b_apply (x : S16x1x16.Idx → α) (h : S16x1x16.ShapeCasts S16x16) (q r : Fin 16) :
    shapeCast S16x16 x h (ix2 q r) = x (ix3 q (0 : Fin 1) r) :=
  shapeCast_apply x h _ _ (by
    rw [Shape.rowMajor_val_three, Shape.rowMajor_val_two]
    show (q.val * 1 + 0) * 16 + r.val = q.val * 16 + r.val
    omega)

/-- A `[16, 16, 1]` array cast to `[16, 16]` reads, at `(q, r)`, the operand at `(q, r, 0)`. -/
theorem cast_ab1_apply (x : S16x16x1.Idx → α) (h : S16x16x1.ShapeCasts S16x16) (q r : Fin 16) :
    shapeCast S16x16 x h (ix2 q r) = x (ix3 q r (0 : Fin 1)) :=
  shapeCast_apply x h _ _ (by
    rw [Shape.rowMajor_val_three, Shape.rowMajor_val_two]
    show (q.val * 16 + r.val) * 1 + 0 = q.val * 16 + r.val
    omega)

end Casts

/-- The y-face a device sends. -/
theorem pay3_apply (m : ℕ) (hm : m < 2) (v : FVec Ideal S16x16x16 .f32) (q r : Fin 16) :
    k0_pay3 (BitVec.ofNat 32 m) v (ix3 (0 : Fin 1) q r)
      = v (ix3 q (⟨if m = 0 then 15 else 0, by split <;> omega⟩ : Fin 16) r) := by
  unfold k0_pay3
  refine (shapeCast_ab_1ab_apply _ _ 0 q r).trans ?_
  refine (congrFun (select_eq0 m hm _ _) (ix2 q r)).trans ?_
  rw [pay1_apply]
  by_cases h0 : m = 0
  · subst h0
    simp only [↓reduceIte]
    refine (cast_a1b_apply _ _ q r).trans ?_
    exact extractStridedSlice_apply _ v _ _ _ fun a => match a with
      | ⟨0, _⟩ => by show q.val = 0 + q.val; omega
      | ⟨1, _⟩ => rfl
      | ⟨2, _⟩ => by show r.val = 0 + r.val; omega
  · obtain rfl : m = 1 := by omega
    simp only [Nat.one_ne_zero, ↓reduceIte]
    refine (cast_a1b_apply _ _ q r).trans ?_
    exact extractStridedSlice_apply _ v _ _ _ fun a => match a with
      | ⟨0, _⟩ => by show q.val = 0 + q.val; omega
      | ⟨1, _⟩ => rfl
      | ⟨2, _⟩ => by show r.val = 0 + r.val; omega

/-- The z-face a device sends. -/
theorem pay4_apply (m : ℕ) (hm : m < 2) (v : FVec Ideal S16x16x16 .f32) (q r : Fin 16) :
    k0_pay4 (BitVec.ofNat 32 m) v (ix3 (0 : Fin 1) q r)
      = v (ix3 q r (⟨if m = 0 then 15 else 0, by split <;> omega⟩ : Fin 16)) := by
  unfold k0_pay4
  refine (shapeCast_ab_1ab_apply _ _ 0 q r).trans ?_
  refine (congrFun (select_eq0 m hm _ _) (ix2 q r)).trans ?_
  rw [pay1_apply]
  by_cases h0 : m = 0
  · subst h0
    simp only [↓reduceIte]
    refine (cast_ab1_apply _ _ q r).trans ?_
    exact extractStridedSlice_apply _ v _ _ _ fun a => match a with
      | ⟨0, _⟩ => by show q.val = 0 + q.val; omega
      | ⟨1, _⟩ => by show r.val = 0 + r.val; omega
      | ⟨2, _⟩ => rfl
  · obtain rfl : m = 1 := by omega
    simp only [Nat.one_ne_zero, ↓reduceIte]
    refine (cast_ab1_apply _ _ q r).trans ?_
    exact extractStridedSlice_apply _ v _ _ _ fun a => match a with
      | ⟨0, _⟩ => by show q.val = 0 + q.val; omega
      | ⟨1, _⟩ => by show r.val = 0 + r.val; omega
      | ⟨2, _⟩ => rfl

section Faces

variable (U : W32.Idx → EReal) (c : Dev nD) (u : BlkC Ideal)
  (hu : ∀ (p q r : Fin 16), (u (ix3 p q r) : EReal) = at3 U (ox c.val + p.val) (oy c.val + q.val) (oz c.val + r.val))

include hu in
/-- Plane `0` of the send buffer is the cube on the block's x-face towards the x-neighbour. -/
theorem sendC_apply0 (q r : Fin 16) :
    (sendC u c (ix3 (⟨0, by decide⟩ : Fin 3) q r) : EReal)
      = at3 U (ox c.val + (if c.val / 4 = 0 then 15 else 0)) (oy c.val + q.val) (oz c.val + r.val) := by
  show (k0_pay2 (mxW c) u (ix3 (0 : Fin 1) q r) : EReal) = _
  rw [mxW_eq]
  have hm : c.val / 4 < 2 := by have h8 : c.val < 8 := c.isLt; omega
  exact (pay2_apply (c.val / 4) hm u q r).trans (hu _ q r)

include hu in
/-- Plane `1` is the cube on the y-face towards the y-neighbour. -/
theorem sendC_apply1 (q r : Fin 16) :
    (sendC u c (ix3 (⟨1, by decide⟩ : Fin 3) q r) : EReal)
      = at3 U (ox c.val + q.val) (oy c.val + (if c.val / 2 % 2 = 0 then 15 else 0)) (oz c.val + r.val) := by
  show (k0_pay3 (myW c) u (ix3 (0 : Fin 1) q r) : EReal) = _
  rw [myW_eq]
  have hm : c.val / 2 % 2 < 2 := by omega
  exact (pay3_apply (c.val / 2 % 2) hm u q r).trans (hu q _ r)

include hu in
/-- Plane `2` is the cube on the z-face towards the z-neighbour. -/
theorem sendC_apply2 (q r : Fin 16) :
    (sendC u c (ix3 (⟨2, by decide⟩ : Fin 3) q r) : EReal)
      = at3 U (ox c.val + q.val) (oy c.val + r.val) (oz c.val + (if c.val % 2 = 0 then 15 else 0)) := by
  show (k0_pay4 (mzW c) u (ix3 (0 : Fin 1) q r) : EReal) = _
  rw [mzW_eq]
  have hm : c.val % 2 < 2 := by omega
  exact (pay4_apply (c.val % 2) hm u q r).trans (hu q r _)

end Faces

/-! ## The six shifted copies of a block, read at an index

Each is the block shifted by one along an axis with a plane of zeros put in at the vacated end: at the vacated
end it reads `0`, elsewhere the block at the neighbouring index. -/

section Shifts

variable (v : FVec Ideal S16x16x16 .f32) (p q r : Fin 16)

theorem xm_zero (hp : p.val = 0) :
    concatenate S16x16x16 0 [⟨S1x16x16, k0_pay5 (F := Ideal)⟩,
      ⟨S15x16x16, extractStridedSlice S15x16x16 ![0, 0, 0] v slices_S16x16x16_o0_0_0_S15x16x16⟩]
      concatenates_S1x16x16_S15x16x16_S16x16x16_d0 (ix3 p q r) = 0 := by
  refine (concatenate_pair_apply_left (s₁ := S1x16x16) (s₂ := S15x16x16) 0 _ _ _ (ix3 p q r) rfl (ix3 (0 : Fin 1) q r) fun b => match b with
    | ⟨0, _⟩ => by show 0 = p.val; omega
    | ⟨1, _⟩ => rfl
    | ⟨2, _⟩ => rfl).trans ?_
  exact Ideal.ofBits_zero_f32

theorem xm_succ (p' : Fin 16) (hp : p'.val + 1 = p.val) :
    concatenate S16x16x16 0 [⟨S1x16x16, k0_pay5 (F := Ideal)⟩,
      ⟨S15x16x16, extractStridedSlice S15x16x16 ![0, 0, 0] v slices_S16x16x16_o0_0_0_S15x16x16⟩]
      concatenates_S1x16x16_S15x16x16_S16x16x16_d0 (ix3 p q r) = v (ix3 p' q r) := by
  refine (concatenate_pair_apply_right (s₁ := S1x16x16) (s₂ := S15x16x16) 0 _ _ _ (ix3 p q r) rfl rfl
    (ix3 (⟨p'.val, by have := p.isLt; omega⟩ : Fin 15) q r) (fun b hb => match b with
      | ⟨0, _⟩ => (hb (Fin.ext rfl)).elim
      | ⟨1, _⟩ => rfl
      | ⟨2, _⟩ => rfl) (by show p'.val + 1 = p.val; exact hp)).trans ?_
  exact extractStridedSlice_apply _ v _ _ (ix3 p' q r) fun a => match a with
    | ⟨0, _⟩ => by show p'.val = 0 + p'.val; omega
    | ⟨1, _⟩ => by show q.val = 0 + q.val; omega
    | ⟨2, _⟩ => by show r.val = 0 + r.val; omega

theorem xp_last (hp : p.val = 15) :
    concatenate S16x16x16 0 [⟨S15x16x16, extractStridedSlice S15x16x16 ![1, 0, 0] v slices_S16x16x16_o1_0_0_S15x16x16⟩,
      ⟨S1x16x16, k0_pay5 (F := Ideal)⟩]
      concatenates_S15x16x16_S1x16x16_S16x16x16_d0 (ix3 p q r) = 0 := by
  refine (concatenate_pair_apply_right (s₁ := S15x16x16) (s₂ := S1x16x16) 0 _ _ _ (ix3 p q r) rfl rfl (ix3 (0 : Fin 1) q r) (fun b hb => match b with
      | ⟨0, _⟩ => (hb (Fin.ext rfl)).elim
      | ⟨1, _⟩ => rfl
      | ⟨2, _⟩ => rfl) (by show 0 + 15 = p.val; omega)).trans ?_
  exact Ideal.ofBits_zero_f32

theorem xp_succ (p' : Fin 16) (hp : p.val + 1 = p'.val) :
    concatenate S16x16x16 0 [⟨S15x16x16, extractStridedSlice S15x16x16 ![1, 0, 0] v slices_S16x16x16_o1_0_0_S15x16x16⟩,
      ⟨S1x16x16, k0_pay5 (F := Ideal)⟩]
      concatenates_S15x16x16_S1x16x16_S16x16x16_d0 (ix3 p q r) = v (ix3 p' q r) := by
  refine (concatenate_pair_apply_left (s₁ := S15x16x16) (s₂ := S1x16x16) 0 _ _ _ (ix3 p q r) rfl
    (ix3 (⟨p.val, by have := p'.isLt; omega⟩ : Fin 15) q r) fun b => match b with
      | ⟨0, _⟩ => rfl
      | ⟨1, _⟩ => rfl
      | ⟨2, _⟩ => rfl).trans ?_
  exact extractStridedSlice_apply _ v _ _ (ix3 p' q r) fun a => match a with
    | ⟨0, _⟩ => by show p'.val = 1 + p.val; omega
    | ⟨1, _⟩ => by show q.val = 0 + q.val; omega
    | ⟨2, _⟩ => by show r.val = 0 + r.val; omega

theorem ym_zero (hq : q.val = 0) :
    concatenate S16x16x16 1 [⟨S16x1x16, shapeCast S16x1x16 (k0_pay5 (F := Ideal)) shapeCasts_S1x16x16_S16x1x16⟩,
      ⟨S16x15x16, extractStridedSlice S16x15x16 ![0, 0, 0] v slices_S16x16x16_o0_0_0_S16x15x16⟩]
      concatenates_S16x1x16_S16x15x16_S16x16x16_d1 (ix3 p q r) = 0 := by
  refine (concatenate_pair_apply_left (s₁ := S16x1x16) (s₂ := S16x15x16) 1 _ _ _ (ix3 p q r) rfl (ix3 p (0 : Fin 1) r) fun b => match b with
    | ⟨0, _⟩ => rfl
    | ⟨1, _⟩ => by show 0 = q.val; omega
    | ⟨2, _⟩ => rfl).trans ?_
  exact Ideal.ofBits_zero_f32

theorem ym_succ (q' : Fin 16) (hq : q'.val + 1 = q.val) :
    concatenate S16x16x16 1 [⟨S16x1x16, shapeCast S16x1x16 (k0_pay5 (F := Ideal)) shapeCasts_S1x16x16_S16x1x16⟩,
      ⟨S16x15x16, extractStridedSlice S16x15x16 ![0, 0, 0] v slices_S16x16x16_o0_0_0_S16x15x16⟩]
      concatenates_S16x1x16_S16x15x16_S16x16x16_d1 (ix3 p q r) = v (ix3 p q' r) := by
  refine (concatenate_pair_apply_right (s₁ := S16x1x16) (s₂ := S16x15x16) 1 _ _ _ (ix3 p q r) rfl rfl
    (ix3 p (⟨q'.val, by have := q.isLt; omega⟩ : Fin 15) r) (fun b hb => match b with
      | ⟨0, _⟩ => rfl
      | ⟨1, _⟩ => (hb (Fin.ext rfl)).elim
      | ⟨2, _⟩ => rfl) (by show q'.val + 1 = q.val; exact hq)).trans ?_
  exact extractStridedSlice_apply _ v _ _ (ix3 p q' r) fun a => match a with
    | ⟨0, _⟩ => by show p.val = 0 + p.val; omega
    | ⟨1, _⟩ => by show q'.val = 0 + q'.val; omega
    | ⟨2, _⟩ => by show r.val = 0 + r.val; omega

theorem yp_last (hq : q.val = 15) :
    concatenate S16x16x16 1 [⟨S16x15x16, extractStridedSlice S16x15x16 ![0, 1, 0] v slices_S16x16x16_o0_1_0_S16x15x16⟩,
      ⟨S16x1x16, shapeCast S16x1x16 (k0_pay5 (F := Ideal)) shapeCasts_S1x16x16_S16x1x16⟩]
      concatenates_S16x15x16_S16x1x16_S16x16x16_d1 (ix3 p q r) = 0 := by
  refine (concatenate_pair_apply_right (s₁ := S16x15x16) (s₂ := S16x1x16) 1 _ _ _ (ix3 p q r) rfl rfl (ix3 p (0 : Fin 1) r) (fun b hb => match b with
      | ⟨0, _⟩ => rfl
      | ⟨1, _⟩ => (hb (Fin.ext rfl)).elim
      | ⟨2, _⟩ => rfl) (by show 0 + 15 = q.val; omega)).trans ?_
  exact Ideal.ofBits_zero_f32

theorem yp_succ (q' : Fin 16) (hq : q.val + 1 = q'.val) :
    concatenate S16x16x16 1 [⟨S16x15x16, extractStridedSlice S16x15x16 ![0, 1, 0] v slices_S16x16x16_o0_1_0_S16x15x16⟩,
      ⟨S16x1x16, shapeCast S16x1x16 (k0_pay5 (F := Ideal)) shapeCasts_S1x16x16_S16x1x16⟩]
      concatenates_S16x15x16_S16x1x16_S16x16x16_d1 (ix3 p q r) = v (ix3 p q' r) := by
  refine (concatenate_pair_apply_left (s₁ := S16x15x16) (s₂ := S16x1x16) 1 _ _ _ (ix3 p q r) rfl
    (ix3 p (⟨q.val, by have := q'.isLt; omega⟩ : Fin 15) r) fun b => match b with
      | ⟨0, _⟩ => rfl
      | ⟨1, _⟩ => rfl
      | ⟨2, _⟩ => rfl).trans ?_
  exact extractStridedSlice_apply _ v _ _ (ix3 p q' r) fun a => match a with
    | ⟨0, _⟩ => by show p.val = 0 + p.val; omega
    | ⟨1, _⟩ => by show q'.val = 1 + q.val; omega
    | ⟨2, _⟩ => by show r.val = 0 + r.val; omega

theorem zm_zero (hr : r.val = 0) :
    concatenate S16x16x16 2 [⟨S16x16x1, shapeCast S16x16x1 (k0_pay5 (F := Ideal)) shapeCasts_S1x16x16_S16x16x1⟩,
      ⟨S16x16x15, extractStridedSlice S16x16x15 ![0, 0, 0] v slices_S16x16x16_o0_0_0_S16x16x15⟩]
      concatenates_S16x16x1_S16x16x15_S16x16x16_d2 (ix3 p q r) = 0 := by
  refine (concatenate_pair_apply_left (s₁ := S16x16x1) (s₂ := S16x16x15) 2 _ _ _ (ix3 p q r) rfl (ix3 p q (0 : Fin 1)) fun b => match b with
    | ⟨0, _⟩ => rfl
    | ⟨1, _⟩ => rfl
    | ⟨2, _⟩ => by show 0 = r.val; omega).trans ?_
  exact Ideal.ofBits_zero_f32

theorem zm_succ (r' : Fin 16) (hr : r'.val + 1 = r.val) :
    concatenate S16x16x16 2 [⟨S16x16x1, shapeCast S16x16x1 (k0_pay5 (F := Ideal)) shapeCasts_S1x16x16_S16x16x1⟩,
      ⟨S16x16x15, extractStridedSlice S16x16x15 ![0, 0, 0] v slices_S16x16x16_o0_0_0_S16x16x15⟩]
      concatenates_S16x16x1_S16x16x15_S16x16x16_d2 (ix3 p q r) = v (ix3 p q r') := by
  refine (concatenate_pair_apply_right (s₁ := S16x16x1) (s₂ := S16x16x15) 2 _ _ _ (ix3 p q r) rfl rfl
    (ix3 p q (⟨r'.val, by have := r.isLt; omega⟩ : Fin 15)) (fun b hb => match b with
      | ⟨0, _⟩ => rfl
      | ⟨1, _⟩ => rfl
      | ⟨2, _⟩ => (hb (Fin.ext rfl)).elim) (by show r'.val + 1 = r.val; exact hr)).trans ?_
  exact extractStridedSlice_apply _ v _ _ (ix3 p q r') fun a => match a with
    | ⟨0, _⟩ => by show p.val = 0 + p.val; omega
    | ⟨1, _⟩ => by show q.val = 0 + q.val; omega
    | ⟨2, _⟩ => by show r'.val = 0 + r'.val; omega

theorem zp_last (hr : r.val = 15) :
    concatenate S16x16x16 2 [⟨S16x16x15, extractStridedSlice S16x16x15 ![0, 0, 1] v slices_S16x16x16_o0_0_1_S16x16x15⟩,
      ⟨S16x16x1, shapeCast S16x16x1 (k0_pay5 (F := Ideal)) shapeCasts_S1x16x16_S16x16x1⟩]
      concatenates_S16x16x15_S16x16x1_S16x16x16_d2 (ix3 p q r) = 0 := by
  refine (concatenate_pair_apply_right (s₁ := S16x16x15) (s₂ := S16x16x1) 2 _ _ _ (ix3 p q r) rfl rfl (ix3 p q (0 : Fin 1)) (fun b hb => match b with
      | ⟨0, _⟩ => rfl
      | ⟨1, _⟩ => rfl
      | ⟨2, _⟩ => (hb (Fin.ext rfl)).elim) (by show 0 + 15 = r.val; omega)).trans ?_
  exact Ideal.ofBits_zero_f32

theorem zp_succ (r' : Fin 16) (hr : r.val + 1 = r'.val) :
    concatenate S16x16x16 2 [⟨S16x16x15, extractStridedSlice S16x16x15 ![0, 0, 1] v slices_S16x16x16_o0_0_1_S16x16x15⟩,
      ⟨S16x16x1, shapeCast S16x16x1 (k0_pay5 (F := Ideal)) shapeCasts_S1x16x16_S16x16x1⟩]
      concatenates_S16x16x15_S16x16x1_S16x16x16_d2 (ix3 p q r) = v (ix3 p q r') := by
  refine (concatenate_pair_apply_left (s₁ := S16x16x15) (s₂ := S16x16x1) 2 _ _ _ (ix3 p q r) rfl
    (ix3 p q (⟨r.val, by have := r'.isLt; omega⟩ : Fin 15)) fun b => match b with
      | ⟨0, _⟩ => rfl
      | ⟨1, _⟩ => rfl
      | ⟨2, _⟩ => rfl).trans ?_
  exact extractStridedSlice_apply _ v _ _ (ix3 p q r') fun a => match a with
    | ⟨0, _⟩ => by show p.val = 0 + p.val; omega
    | ⟨1, _⟩ => by show q.val = 0 + q.val; omega
    | ⟨2, _⟩ => by show r'.val = 0 + 1 + r.val; omega

end Shifts

/-! ## The interior mask

A device's global coordinate on an axis is its local coordinate plus sixteen times its mesh coordinate there, a
natural number below `32`; the signed comparisons of that 32-bit word with `0` and `31` are the comparisons of the
natural numbers. -/

section Mask

theorem andi_apply {s : Shape} {w : ℕ} (x y : IVec s w) (i : s.Idx) : andi x y i = IntOp.andi (x i) (y i) := rfl
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

/-- The global coordinate word is positive exactly when the global coordinate is. -/
theorem word_sgt : ∀ (m : Fin 2) (p : Fin 16),
    IntOp.cmpi .sgt (IntOp.addi (BitVec.ofNat 32 p.val) (Scalar.muli (BitVec.ofNat 32 m.val) 16#32)) 0#32
      = if 0 < 16 * m.val + p.val then 1#1 else 0#1 := by decide

/-- The global coordinate word is below `31` exactly when the global coordinate is. -/
theorem word_slt : ∀ (m : Fin 2) (p : Fin 16),
    IntOp.cmpi .slt (IntOp.addi (BitVec.ofNat 32 p.val) (Scalar.muli (BitVec.ofNat 32 m.val) 16#32)) 31#32
      = if 16 * m.val + p.val < 31 then 1#1 else 0#1 := by decide

theorem andi_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ] <;> rfl

theorem select_ite {α : Type} (P : Prop) [Decidable P] (a b : α) :
    Scalar.select (if P then 1#1 else 0#1) a b = if P then a else b := by
  by_cases hP : P
  · rw [if_pos hP, if_pos hP]; exact select_one a b
  · rw [if_neg hP, if_neg hP]; exact select_zero a b

theorem gx_apply (w : BitVec 32) (p q r : Fin 16) :
    k0_pay8 w (ix3 p q r) = IntOp.addi (BitVec.ofNat 32 p.val) (Scalar.muli w 16#32) := by
  unfold k0_pay8
  show IntOp.addi (iota .tc S16x16x16 32 [0] iota_S16x16x16_d0_w32 (ix3 p q r)) _ = _
  rw [iota_single_apply]
  rfl

theorem gy_apply (w : BitVec 32) (p q r : Fin 16) :
    k0_pay9 w (ix3 p q r) = IntOp.addi (BitVec.ofNat 32 q.val) (Scalar.muli w 16#32) := by
  unfold k0_pay9
  show IntOp.addi (iota .tc S16x16x16 32 [1] iota_S16x16x16_d1_w32 (ix3 p q r)) _ = _
  rw [iota_single_apply]
  rfl

theorem gz_apply (p q r : Fin 16) :
    iota .tc S16x16x16 32 [2] iota_S16x16x16_d2_w32 (ix3 p q r) = BitVec.ofNat 32 r.val := by
  rw [iota_single_apply]

end Mask

/-! ## The local stencil at a point

With the block's entries named by the cube (`hu`), each shifted copy reads the cube at the neighbouring point when
that point lies in the device's own block and `0` when it lies across a face of the block. -/

section Stencil

theorem word_sgt' (m : ℕ) (hm : m < 2) (p : Fin 16) :
    IntOp.cmpi .sgt (IntOp.addi (BitVec.ofNat 32 p.val) (Scalar.muli (BitVec.ofNat 32 m) 16#32)) 0#32
      = if 0 < 16 * m + p.val then 1#1 else 0#1 := word_sgt ⟨m, hm⟩ p

theorem word_slt' (m : ℕ) (hm : m < 2) (p : Fin 16) :
    IntOp.cmpi .slt (IntOp.addi (BitVec.ofNat 32 p.val) (Scalar.muli (BitVec.ofNat 32 m) 16#32)) 31#32
      = if 16 * m + p.val < 31 then 1#1 else 0#1 := word_slt ⟨m, hm⟩ p

variable (U : W32.Idx → EReal) (c : Dev nD) (u : BlkC Ideal)
  (hu : ∀ (p q r : Fin 16), (u (ix3 p q r) : EReal) = at3 U (ox c.val + p.val) (oy c.val + q.val) (oz c.val + r.val))
  (p q r : Fin 16)

include hu in
theorem term_xm (hx : 0 < ox c.val + p.val) :
    concatenate S16x16x16 0 [⟨S1x16x16, k0_pay5 (F := Ideal)⟩,
      ⟨S15x16x16, extractStridedSlice S15x16x16 ![0, 0, 0] u slices_S16x16x16_o0_0_0_S15x16x16⟩]
      concatenates_S1x16x16_S15x16x16_S16x16x16_d0 (ix3 p q r)
      = atL U c.val (ox c.val + p.val - 1) (oy c.val + q.val) (oz c.val + r.val) := by
  have h8 : c.val < 8 := c.isLt
  have hp16 := p.isLt
  have hq16 := q.isLt
  have hr16 := r.isLt
  by_cases hp : p.val = 0
  · rw [xm_zero u p q r hp]
    refine (if_neg ?_).symm
    rintro ⟨h1, -, -⟩
    unfold ox at hx h1
    omega
  · rw [xm_succ u p q r ⟨p.val - 1, by omega⟩ (by show p.val - 1 + 1 = p.val; omega), hu]
    have e : ox c.val + p.val - 1 = ox c.val + (p.val - 1) := by omega
    rw [e]
    exact (if_pos ⟨by unfold ox; omega, by unfold oy; omega, by unfold oz; omega⟩).symm

include hu in
theorem term_xp :
    concatenate S16x16x16 0 [⟨S15x16x16, extractStridedSlice S15x16x16 ![1, 0, 0] u slices_S16x16x16_o1_0_0_S15x16x16⟩,
      ⟨S1x16x16, k0_pay5 (F := Ideal)⟩]
      concatenates_S15x16x16_S1x16x16_S16x16x16_d0 (ix3 p q r)
      = atL U c.val (ox c.val + p.val + 1) (oy c.val + q.val) (oz c.val + r.val) := by
  have h8 : c.val < 8 := c.isLt
  have hp16 := p.isLt
  have hq16 := q.isLt
  have hr16 := r.isLt
  by_cases hp : p.val = 15
  · rw [xp_last u p q r hp]
    refine (if_neg ?_).symm
    rintro ⟨h1, -, -⟩
    unfold ox at h1
    omega
  · rw [xp_succ u p q r ⟨p.val + 1, by omega⟩ rfl, hu]
    have e : ox c.val + p.val + 1 = ox c.val + (p.val + 1) := by omega
    rw [e]
    exact (if_pos ⟨by unfold ox; omega, by unfold oy; omega, by unfold oz; omega⟩).symm

include hu in
theorem term_ym (hy : 0 < oy c.val + q.val) :
    concatenate S16x16x16 1 [⟨S16x1x16, shapeCast S16x1x16 (k0_pay5 (F := Ideal)) shapeCasts_S1x16x16_S16x1x16⟩,
      ⟨S16x15x16, extractStridedSlice S16x15x16 ![0, 0, 0] u slices_S16x16x16_o0_0_0_S16x15x16⟩]
      concatenates_S16x1x16_S16x15x16_S16x16x16_d1 (ix3 p q r)
      = atL U c.val (ox c.val + p.val) (oy c.val + q.val - 1) (oz c.val + r.val) := by
  have h8 : c.val < 8 := c.isLt
  have hp16 := p.isLt
  have hq16 := q.isLt
  have hr16 := r.isLt
  by_cases hq : q.val = 0
  · rw [ym_zero u p q r hq]
    refine (if_neg ?_).symm
    rintro ⟨-, h1, -⟩
    unfold oy at hy h1
    omega
  · rw [ym_succ u p q r ⟨q.val - 1, by omega⟩ (by show q.val - 1 + 1 = q.val; omega), hu]
    have e : oy c.val + q.val - 1 = oy c.val + (q.val - 1) := by omega
    rw [e]
    exact (if_pos ⟨by unfold ox; omega, by unfold oy; omega, by unfold oz; omega⟩).symm

include hu in
theorem term_yp :
    concatenate S16x16x16 1 [⟨S16x15x16, extractStridedSlice S16x15x16 ![0, 1, 0] u slices_S16x16x16_o0_1_0_S16x15x16⟩,
      ⟨S16x1x16, shapeCast S16x1x16 (k0_pay5 (F := Ideal)) shapeCasts_S1x16x16_S16x1x16⟩]
      concatenates_S16x15x16_S16x1x16_S16x16x16_d1 (ix3 p q r)
      = atL U c.val (ox c.val + p.val) (oy c.val + q.val + 1) (oz c.val + r.val) := by
  have h8 : c.val < 8 := c.isLt
  have hp16 := p.isLt
  have hq16 := q.isLt
  have hr16 := r.isLt
  by_cases hq : q.val = 15
  · rw [yp_last u p q r hq]
    refine (if_neg ?_).symm
    rintro ⟨-, h1, -⟩
    unfold oy at h1
    omega
  · rw [yp_succ u p q r ⟨q.val + 1, by omega⟩ rfl, hu]
    have e : oy c.val + q.val + 1 = oy c.val + (q.val + 1) := by omega
    rw [e]
    exact (if_pos ⟨by unfold ox; omega, by unfold oy; omega, by unfold oz; omega⟩).symm

include hu in
theorem term_zm (hz : 0 < oz c.val + r.val) :
    concatenate S16x16x16 2 [⟨S16x16x1, shapeCast S16x16x1 (k0_pay5 (F := Ideal)) shapeCasts_S1x16x16_S16x16x1⟩,
      ⟨S16x16x15, extractStridedSlice S16x16x15 ![0, 0, 0] u slices_S16x16x16_o0_0_0_S16x16x15⟩]
      concatenates_S16x16x1_S16x16x15_S16x16x16_d2 (ix3 p q r)
      = atL U c.val (ox c.val + p.val) (oy c.val + q.val) (oz c.val + r.val - 1) := by
  have h8 : c.val < 8 := c.isLt
  have hp16 := p.isLt
  have hq16 := q.isLt
  have hr16 := r.isLt
  by_cases hr : r.val = 0
  · rw [zm_zero u p q r hr]
    refine (if_neg ?_).symm
    rintro ⟨-, -, h1⟩
    unfold oz at hz h1
    omega
  · rw [zm_succ u p q r ⟨r.val - 1, by omega⟩ (by show r.val - 1 + 1 = r.val; omega), hu]
    have e : oz c.val + r.val - 1 = oz c.val + (r.val - 1) := by omega
    rw [e]
    exact (if_pos ⟨by unfold ox; omega, by unfold oy; omega, by unfold oz; omega⟩).symm

include hu in
theorem term_zp :
    concatenate S16x16x16 2 [⟨S16x16x15, extractStridedSlice S16x16x15 ![0, 0, 1] u slices_S16x16x16_o0_0_1_S16x16x15⟩,
      ⟨S16x16x1, shapeCast S16x16x1 (k0_pay5 (F := Ideal)) shapeCasts_S1x16x16_S16x16x1⟩]
      concatenates_S16x16x15_S16x16x1_S16x16x16_d2 (ix3 p q r)
      = atL U c.val (ox c.val + p.val) (oy c.val + q.val) (oz c.val + r.val + 1) := by
  have h8 : c.val < 8 := c.isLt
  have hp16 := p.isLt
  have hq16 := q.isLt
  have hr16 := r.isLt
  by_cases hr : r.val = 15
  · rw [zp_last u p q r hr]
    refine (if_neg ?_).symm
    rintro ⟨-, -, h1⟩
    unfold oz at h1
    omega
  · rw [zp_succ u p q r ⟨r.val + 1, by omega⟩ rfl, hu]
    have e : oz c.val + r.val + 1 = oz c.val + (r.val + 1) := by omega
    rw [e]
    exact (if_pos ⟨by unfold ox; omega, by unfold oy; omega, by unfold oz; omega⟩).symm

include hu in
/-- The output block after the local stencil is the stencil restricted to the device's own block. -/
theorem out1_apply :
    (out1 u c (ix3 p q r) : EReal) = lap1 U c.val (ox c.val + p.val) (oy c.val + q.val) (oz c.val + r.val) := by
  have h8 : c.val < 8 := c.isLt
  have hmx : c.val / 4 < 2 := by omega
  have hmy : c.val / 2 % 2 < 2 := by omega
  have hmz : c.val % 2 < 2 := by omega
  unfold out1 k0_pay10 k0_pay6 k0_pay7
  simp only [select_apply, andi_apply, cmpi_apply, addi_apply, broadcast_apply, subf_apply, addf_apply, mulf_apply,
    pay1_apply]
  rw [gx_apply, gy_apply, gz_apply, mxW_eq, myW_eq, mzW_eq,
    word_sgt' _ hmx p, word_slt' _ hmx p, word_sgt' _ hmy q, word_slt' _ hmy q, word_sgt' _ hmz r, word_slt' _ hmz r]
  simp only [andi_ite, select_ite]
  unfold lap1
  by_cases hI : Interior (ox c.val + p.val) (oy c.val + q.val) (oz c.val + r.val)
  · obtain ⟨h1, h2, h3, h4, h5, h6⟩ := id hI
    rw [if_pos hI, if_pos ⟨⟨⟨⟨⟨h1, h2⟩, h3⟩, h4⟩, h5⟩, h6⟩,
      term_xm U c u hu p q r h1, term_xp U c u hu p q r, term_ym U c u hu p q r h3, term_yp U c u hu p q r,
      term_zm U c u hu p q r h5, term_zp U c u hu p q r, hu]
    rfl
  · rw [if_neg hI, if_neg fun h => hI ⟨h.1.1.1.1.1, h.1.1.1.1.2, h.1.1.1.2, h.1.1.2, h.1.2, h.2⟩]
    exact Ideal.ofBits_zero_f32

end Stencil

/-- info: 'Cert.Halo.KernelValue.out1_apply' depends on axioms: [propext, Classical.choice, Quot.sound] -/
#guard_msgs in #print axioms Cert.Halo.KernelValue.out1_apply

/-- info: 'Cert.Halo.KernelValue.sendC_apply0' depends on axioms: [propext, Classical.choice, Quot.sound] -/
#guard_msgs in #print axioms Cert.Halo.KernelValue.sendC_apply0

/-- info: 'Cert.Halo.KernelValue.sendC_apply1' depends on axioms: [propext, Classical.choice, Quot.sound] -/
#guard_msgs in #print axioms Cert.Halo.KernelValue.sendC_apply1

/-- info: 'Cert.Halo.KernelValue.sendC_apply2' depends on axioms: [propext, Classical.choice, Quot.sound] -/
#guard_msgs in #print axioms Cert.Halo.KernelValue.sendC_apply2

end Cert.Halo.KernelValue

end
-- ==== Proof.Halo.Bridge.lean ====
import proofs.«900805_g7700000000000806_dist_halo3d_v7x_xyz2x2x2_s16_f32_1_alg».proof.Proof.Halo.Faces
import proofs.«900805_g7700000000000806_dist_halo3d_v7x_xyz2x2x2_s16_f32_1_alg».proof.Proof.Halo.RefValue
import proofs.«900805_g7700000000000806_dist_halo3d_v7x_xyz2x2x2_s16_f32_1_alg».proof.Proof.Halo.Out1
import Idealize.ShloMosaic.Lib.Layout

/-!
# From the block's entries to the claim's form

The claim reads each device's buffers as blocks of the one-device program's whole arrays: device `c` of the 2 × 2 × 2 mesh
holds, of a 32 × 32 × 32 array cut in two along every axis, the block at block coordinates `(c / 4, c / 2 % 2, c % 2)`.
Entry `(p, q, r)` of that block is the array's entry `(ox c + p, oy c + q, oz c + r)`. With the input blocks so read off the
one-device program's argument, what device `c` returns is, entry by entry, the seven-point stencil of the argument at the
entry's place in the cube — and that is the one-device program's result there: device `c`'s output block is its block of
the one-device program's result.
-/

noncomputable section

namespace Cert.Halo.KernelValue

open Idealize.ShloMosaic Idealize.ShloMosaic.ValueIdx Idealize.ShloMosaic.TcCoe
open Cert.KernelIdeal Cert.KernelIdeal.Gen Cert.KernelIdeal.Halo Cert.Halo

/-! ## A device's block of a cube array, entry by entry -/

/-- The block coordinates of device `c` on the three axes are its mesh coordinates. -/
theorem meshLin0 : ∀ c : Dev nD, Layout.meshLin [2, 2, 2] c.val [0] = c.val / 4 := by decide
theorem meshLin1 : ∀ c : Dev nD, Layout.meshLin [2, 2, 2] c.val [1] = c.val / 2 % 2 := by decide
theorem meshLin2 : ∀ c : Dev nD, Layout.meshLin [2, 2, 2] c.val [2] = c.val % 2 := by decide

/-- A point of a device's block lies in the cube. -/
theorem ox_lt (c : Dev nD) (p : Fin 16) : ox c.val + p.val < 32 := by
  have h8 : c.val < 8 := c.isLt
  unfold ox; omega
theorem oy_lt (c : Dev nD) (q : Fin 16) : oy c.val + q.val < 32 := by
  unfold oy; omega
theorem oz_lt (c : Dev nD) (r : Fin 16) : oz c.val + r.val < 32 := by
  unfold oz; omega

/-- Entry `(p, q, r)` of device `c`'s block of a cube array is the array's entry at the block's origin plus `(p, q, r)`. -/
theorem blockN_ix3 {α : Type} (v : (⟨3, ![32, 32, 32]⟩ : Shape).Idx → α) (c : Dev nD) (p q r : Fin 16) :
    (Layout.blockN ⟨3, ![16, 16, 16]⟩ ⟨3, ![32, 32, 32]⟩ (Layout.meshBlock [2, 2, 2] ![[0], [1], [2]] c) v) (ValueIdx.ix3 p q r)
      = v (ValueIdx.ix3 ⟨ox c.val + p.val, ox_lt c p⟩ ⟨oy c.val + q.val, oy_lt c q⟩ ⟨oz c.val + r.val, oz_lt c r⟩) := by
  rw [Layout.blockN_apply]
  refine congrArg v (funext fun b => Fin.ext ?_)
  rw [Layout.TilesN.idx_val]
  match b with
  | ⟨0, _⟩ =>
    show Layout.meshLin [2, 2, 2] c.val [0] * 16 + p.val = ox c.val + p.val
    rw [meshLin0 c]; unfold ox; omega
  | ⟨1, _⟩ =>
    show Layout.meshLin [2, 2, 2] c.val [1] * 16 + q.val = oy c.val + q.val
    rw [meshLin1 c]; unfold oy; omega
  | ⟨2, _⟩ =>
    show Layout.meshLin [2, 2, 2] c.val [2] * 16 + r.val = oz c.val + r.val
    rw [meshLin2 c]; unfold oz; omega

/-! ## The output block is the block of the one-device program's result -/

section Block
variable (U : (⟨Cert.ReferenceIdeal.S32x32x32, .f32⟩ : BufTy).Contents (Elt Ideal)) (us : Dev nD → BlkC Ideal)

/-- The input blocks read off the one-device program's argument hold the cube's entries. -/
theorem hus_of_agree
    (hagree : ∀ c, us c = Layout.blockN ⟨3, ![16, 16, 16]⟩ ⟨3, ![32, 32, 32]⟩ (Layout.meshBlock [2, 2, 2] ![[0], [1], [2]] c) U)
    (d : Dev nD) (p q r : Fin 16) :
    (us d (ValueIdx.ix3 p q r) : EReal)
      = at3 (fun j => (U j : EReal)) (ox d.val + p.val) (oy d.val + q.val) (oz d.val + r.val) := by
  rw [hagree d]
  unfold at3
  rw [dif_pos ⟨ox_lt d p, oy_lt d q, oz_lt d r⟩]
  exact blockN_ix3 U d p q r

/-- With the local step's values and the send buffers' entries given, device `c`'s output block is its block of the
    one-device program's result. -/
theorem outAt_block_of
    (hagree : ∀ c, us c = Layout.blockN ⟨3, ![16, 16, 16]⟩ ⟨3, ![32, 32, 32]⟩ (Layout.meshBlock [2, 2, 2] ![[0], [1], [2]] c) U)
    (c : Dev nD)
    (h1 : ∀ (p q r : Fin 16), (out1 (us c) c (ValueIdx.ix3 p q r) : EReal) = lap1 (fun j => (U j : EReal)) c.val (ox c.val + p.val) (oy c.val + q.val) (oz c.val + r.val))
    (hs0 : ∀ d (q r : Fin 16), (sendC (us d) d (ValueIdx.ix3 (0 : Fin 3) q r) : EReal) = at3 (fun j => (U j : EReal)) (ox d.val + (if d.val / 4 = 0 then 15 else 0)) (oy d.val + q.val) (oz d.val + r.val))
    (hs1 : ∀ d (q r : Fin 16), (sendC (us d) d (ValueIdx.ix3 (1 : Fin 3) q r) : EReal) = at3 (fun j => (U j : EReal)) (ox d.val + q.val) (oy d.val + (if d.val / 2 % 2 = 0 then 15 else 0)) (oz d.val + r.val))
    (hs2 : ∀ d (q r : Fin 16), (sendC (us d) d (ValueIdx.ix3 (2 : Fin 3) q r) : EReal) = at3 (fun j => (U j : EReal)) (ox d.val + q.val) (oy d.val + r.val) (oz d.val + (if d.val % 2 = 0 then 15 else 0))) :
    outAt us c = Layout.blockN ⟨3, ![16, 16, 16]⟩ ⟨3, ![32, 32, 32]⟩ (Layout.meshBlock [2, 2, 2] ![[0], [1], [2]] c) (Cert.Halo.RefValue.refOut U) := by
  funext i
  obtain ⟨p, q, r, rfl⟩ : ∃ (p q r : Fin 16), i = ValueIdx.ix3 p q r := ⟨i 0, i 1, i 2, ValueIdx.eq_ix3 i⟩
  have hL := outAt_apply (fun j => (U j : EReal)) us (hus_of_agree U us hagree) c h1 hs0 hs1 hs2 p q r
  have hR : (Cert.Halo.RefValue.refOut U
        (ValueIdx.ix3 ⟨ox c.val + p.val, ox_lt c p⟩ ⟨oy c.val + q.val, oy_lt c q⟩ ⟨oz c.val + r.val, oz_lt c r⟩) : EReal)
      = lap (fun j => (U j : EReal)) (ox c.val + p.val) (oy c.val + q.val) (oz c.val + r.val) :=
    Cert.Halo.RefValue.refOut_apply U _
  rw [blockN_ix3 (Cert.Halo.RefValue.refOut U) c p q r]
  exact hL.trans hR.symm

end Block

/-- Device `c`'s output block is its block of the one-device program's result. -/
theorem outAt_block (U : (⟨Cert.ReferenceIdeal.S32x32x32, .f32⟩ : BufTy).Contents (Elt Ideal)) (us : Dev nD → BlkC Ideal)
    (hagree : ∀ c, us c = Layout.blockN ⟨3, ![16, 16, 16]⟩ ⟨3, ![32, 32, 32]⟩ (Layout.meshBlock [2, 2, 2] ![[0], [1], [2]] c) U)
    (c : Dev nD) :
    outAt us c = Layout.blockN ⟨3, ![16, 16, 16]⟩ ⟨3, ![32, 32, 32]⟩ (Layout.meshBlock [2, 2, 2] ![[0], [1], [2]] c) (Cert.Halo.RefValue.refOut U) :=
  outAt_block_of U us hagree c
    (fun p q r => out1_apply (fun j => (U j : EReal)) c (us c) (hus_of_agree U us hagree c) p q r)
    (fun d q r => sendC_apply0 (fun j => (U j : EReal)) d (us d) (hus_of_agree U us hagree d) q r)
    (fun d q r => sendC_apply1 (fun j => (U j : EReal)) d (us d) (hus_of_agree U us hagree d) q r)
    (fun d q r => sendC_apply2 (fun j => (U j : EReal)) d (us d) (hus_of_agree U us hagree d) q r)

/-- info: 'Cert.Halo.KernelValue.outAt_block' depends on axioms: [propext, Classical.choice, Quot.sound] -/
#guard_msgs in #print axioms Cert.Halo.KernelValue.outAt_block

end Cert.Halo.KernelValue

end
-- ==== Proof.lean ====
/- The five claims of the seven-point stencil on the 2 × 2 × 2 mesh. The kernel as printed, and the same text read at the
   extended reals, run on the eight devices and leave every argument block as it was; the one-device program runs and
   leaves its argument as it was; nothing was rewritten between the two readings of the kernel; and at the extended
   reals, when every device holds its block of one whole array, every device's result is its block of the one-device
   program's result: the stencil of the whole array at interior points, zero on the boundary of the cube. -/
import proofs.«900805_g7700000000000806_dist_halo3d_v7x_xyz2x2x2_s16_f32_1_alg».proof.Defs
import proofs.«900805_g7700000000000806_dist_halo3d_v7x_xyz2x2x2_s16_f32_1_alg».proof.Proof.Gen.Kernel
import proofs.«900805_g7700000000000806_dist_halo3d_v7x_xyz2x2x2_s16_f32_1_alg».proof.Proof.Gen.Kernel.Skeleton
import proofs.«900805_g7700000000000806_dist_halo3d_v7x_xyz2x2x2_s16_f32_1_alg».proof.Proof.Gen.Kernel.Launch
import proofs.«900805_g7700000000000806_dist_halo3d_v7x_xyz2x2x2_s16_f32_1_alg».proof.Proof.Gen.Kernel.Points
import proofs.«900805_g7700000000000806_dist_halo3d_v7x_xyz2x2x2_s16_f32_1_alg».proof.Proof.Gen.Kernel.Frame
import proofs.«900805_g7700000000000806_dist_halo3d_v7x_xyz2x2x2_s16_f32_1_alg».proof.Proof.Gen.KernelIdeal
import proofs.«900805_g7700000000000806_dist_halo3d_v7x_xyz2x2x2_s16_f32_1_alg».proof.Proof.Gen.KernelIdeal.Skeleton
import proofs.«900805_g7700000000000806_dist_halo3d_v7x_xyz2x2x2_s16_f32_1_alg».proof.Proof.Gen.KernelIdeal.Launch
import proofs.«900805_g7700000000000806_dist_halo3d_v7x_xyz2x2x2_s16_f32_1_alg».proof.Proof.Gen.KernelIdeal.Points
import proofs.«900805_g7700000000000806_dist_halo3d_v7x_xyz2x2x2_s16_f32_1_alg».proof.Proof.Gen.KernelIdeal.Frame
import proofs.«900805_g7700000000000806_dist_halo3d_v7x_xyz2x2x2_s16_f32_1_alg».proof.Proof.Gen.ReferenceIdeal
import proofs.«900805_g7700000000000806_dist_halo3d_v7x_xyz2x2x2_s16_f32_1_alg».proof.Proof.Gen.Pre_finite_inputs_Kernel
import proofs.«900805_g7700000000000806_dist_halo3d_v7x_xyz2x2x2_s16_f32_1_alg».proof.Proof.Gen.Pre_finite_inputs_ReferenceIdeal
import proofs.«900805_g7700000000000806_dist_halo3d_v7x_xyz2x2x2_s16_f32_1_alg».proof.Proof.KernelIdeal.Launch
import proofs.«900805_g7700000000000806_dist_halo3d_v7x_xyz2x2x2_s16_f32_1_alg».proof.Proof.KernelIdeal.Body
import proofs.«900805_g7700000000000806_dist_halo3d_v7x_xyz2x2x2_s16_f32_1_alg».proof.Proof.Kernel.Launch
import proofs.«900805_g7700000000000806_dist_halo3d_v7x_xyz2x2x2_s16_f32_1_alg».proof.Proof.Kernel.Body
import proofs.«900805_g7700000000000806_dist_halo3d_v7x_xyz2x2x2_s16_f32_1_alg».proof.Proof.Halo.RefValue
import proofs.«900805_g7700000000000806_dist_halo3d_v7x_xyz2x2x2_s16_f32_1_alg».proof.Proof.Halo.Bridge
import Idealize.ShloMosaic.Adequacy
import Idealize.ShloMosaic.Init

noncomputable section

namespace Cert.Proof.HaloClaims

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The word-level program runs and leaves every device's argument block as it was. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono
    (fun r h c => (h c 0).trans (Cert.Kernel.Halo.final_in m ρ c))
    (Cert.Kernel.Halo.run_main m ρ (Cert.Kernel.Halo.sound_body m ρ))

/-- The same program read at the extended reals runs and leaves every device's argument block as it was. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono
    (fun r h c => (h c 0).trans (Cert.KernelIdeal.Halo.final_in m ρ c))
    (Cert.KernelIdeal.Halo.run_main m ρ (Cert.KernelIdeal.Halo.sound_body m ρ))

/-- The one-device program runs and leaves its argument array as it was. -/
theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run (Cert.ReferenceIdeal.defs (F := Ideal)) _ _).mono (fun r h c => (h c).2) (Cert.Halo.RefValue.ref_run m ρ)

/-- Nothing was rewritten between the two readings of the kernel. -/
theorem preserves : Cert.preserves_Kernel_KernelIdeal := trivial

/-- At the extended reals, from blocks of one whole array: both programs run, each device's result block is its block
    of the one-device result, and all arguments end as they were. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' _ hagree
  refine ⟨Cert.Halo.RefValue.refOut (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono
      (fun r h c => ⟨?_, (h c 0).trans (Cert.KernelIdeal.Halo.final_in m ρ c)⟩)
      (Cert.KernelIdeal.Halo.run_main m ρ (Cert.KernelIdeal.Halo.sound_body m ρ))
    refine (h c 1).trans ((Cert.KernelIdeal.Halo.final_out m ρ c).trans ?_)
    rw [show Cert.KernelIdeal.Halo.ublk m ρ
        = fun d : Dev Cert.KernelIdeal.nD => m ((d.tc : Thread Cert.KernelIdeal.nD Cert.KernelIdeal.τ).loc Cert.KernelIdeal.main_arg0)
      from funext (Cert.KernelIdeal.Halo.ublk_eq m ρ)]
    exact Cert.Halo.KernelValue.outAt_block _ _ hagree c
  · exact (θ_run (Cert.ReferenceIdeal.defs (F := Ideal)) _ _).mono (fun r h => h 0) (Cert.Halo.RefValue.ref_run m' ρ')

end Cert.Proof.HaloClaims

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, HaloClaims.frame_k, HaloClaims.frame_ki, HaloClaims.frame_ri, HaloClaims.preserves,
    HaloClaims.algebraic⟩

end Cert.Proof

end
